-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S800000 : Shape := ⟨1, ![800000]⟩
abbrev S16x64 : Shape := ⟨2, ![16, 64]⟩
abbrev S64 : Shape := ⟨1, ![64]⟩
abbrev S2x64x64 : Shape := ⟨3, ![2, 64, 64]⟩
abbrev S2x64 : Shape := ⟨2, ![2, 64]⟩
abbrev S64x12 : Shape := ⟨2, ![64, 12]⟩
abbrev S12 : Shape := ⟨1, ![12]⟩
abbrev S_ : Shape := ⟨0, ![]⟩
abbrev S1x800000 : Shape := ⟨2, ![1, 800000]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000 : S_.BroadcastsInDim S800000 (![] : Fin 0 → Fin S800000.rank)
  reducesTo_S800000_S_d0 : S800000.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x12 : S_.BroadcastsInDim S64x12 (![] : Fin 0 → Fin S64x12.rank)
  reducesTo_S64x12_S_d0_1 : S64x12.ReducesTo [0, 1] S_
  bcast_S_S12 : S_.BroadcastsInDim S12 (![] : Fin 0 → Fin S12.rank)
  reducesTo_S12_S_d0 : S12.ReducesTo [0] S_
  slices_S2x800000_S1x800000_0_0 : S2x800000.Slices ![0, 0] S1x800000
  shapeCasts_S1x800000_S800000 : S1x800000.ShapeCasts S800000

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S2x64 .f32) (main_arg9 : FVec F S64x12 .f32) (main_arg10 : FVec F S12 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S64x12 .f32 := Host.absf main_arg9
  let main_cst_14 : FVec F S_ .f32 := constant S_ .f32 0x7F800000#32
  let main_v40 : FVec F S64x12 .f32 := broadcastInDim S64x12 ![] bcast_S_S64x12 main_cst_14
  let main_v41 : IVec S64x12 1 := cmpf .olt main_v39 main_v40
  let main_c_15 : IVec S_ 1 := constantI S_ 1 1#1
  let main_v42 : IVec S_ 1 := (fun x v => Host.reduce IntOp.andi x v reducesTo_S64x12_S_d0_1 h_S_) main_v41 main_c_15
  let main_v43 : IVec S_ 1 := andi main_v38 main_v42
  let main_v44 : FVec F S12 .f32 := Host.absf main_arg10
  let main_cst_16 : FVec F S_ .f32 := constant S_ .f32 0x7F800000#32
  let main_v45 : FVec F S12 .f32 := broadcastInDim S12 ![] bcast_S_S12 main_cst_16
  let main_v46 : IVec S12 1 := cmpf .olt main_v44 main_v45
  let main_c_17 : IVec S_ 1 := constantI S_ 1 1#1
  let main_v47 : IVec S_ 1 := (fun x v => Host.reduce IntOp.andi x v reducesTo_S12_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg5 : FVec F S2x64x64 .f32) (main_arg6 : FVec F S2x64 .f32) (main_arg7 : FVec F S2x64 .f32) (main_arg8 : FVec F S2x64 .f32) (main_arg9 : FVec F S64x12 .f32) (main_arg10 : FVec F S12 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg5
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg6
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x16 .f32) (main_arg1 : IVec S2x800000 32) (main_arg2 : FVec F S800000 .f32) (main_arg3 : FVec F S16x64 .f32) (main_arg4 : FVec F S64 .f32) (main_arg5 : FVec F S2x64x64 .f32) (main_arg6 : FVec F S2x64 .f32) (main_arg7 : FVec F S2x64 .f32) (main_arg8 : FVec F S2x64 .f32) (main_arg9 : FVec F S64x12 .f32) (main_arg10 : FVec F S12 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S50000x16 : Shape := ⟨2, ![50000, 16]⟩
abbrev S2x800000 : Shape := ⟨2, ![2, 800000]⟩
abbrev S800000 : Shape := ⟨1, ![800000]⟩
abbrev S16x64 : Shape := ⟨2, ![16, 64]⟩
abbrev S64 : Shape := ⟨1, ![64]⟩
abbrev S2x64x64 : Shape := ⟨3, ![2, 64, 64]⟩
abbrev S2x64 : Shape := ⟨2, ![2, 64]⟩
abbrev S64x12 : Shape := ⟨2, ![64, 12]⟩
abbrev S12 : Shape := ⟨1, ![12]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S50000x64 : Shape := ⟨2, ![50000, 64]⟩
abbrev S5000x16 : Shape := ⟨2, ![5000, 16]⟩
abbrev S5000x64 : Shape := ⟨2, ![5000, 64]⟩
abbrev S1x64x64 : Shape := ⟨3, ![1, 64, 64]⟩
abbrev S64x64 : Shape := ⟨2, ![64, 64]⟩
abbrev S1 : Shape := ⟨1, ![1]⟩
abbrev S1x1 : Shape := ⟨2, ![1, 1]⟩
abbrev S850000x64 : Shape := ⟨2, ![850000, 64]⟩
abbrev S50000x12 : Shape := ⟨2, ![50000, 12]⟩
abbrev S5000x12 : Shape := ⟨2, ![5000, 12]⟩
abbrev S850000x12 : Shape := ⟨2, ![850000, 12]⟩
abbrev S1x12 : Shape := ⟨2, ![1, 12]⟩

abbrev nBuf : Space → Nat
  | .hbm => 187
  | .vmem => 34
  | .smem => 0
  | _ => 0

abbrev hbmTy0_0 (i : Nat) : BufTy := match i % 128 with
  | 0 => ⟨S50000x16, .f32⟩
  | 1 => ⟨S2x800000, .i32⟩
  | 2 => ⟨S800000, .f32⟩
  | 3 => ⟨S16x64, .f32⟩
  | 4 => ⟨S64, .f32⟩
  | 5 => ⟨S2x64x64, .f32⟩
  | 6 => ⟨S2x64, .f32⟩
  | 7 => ⟨S2x64, .f32⟩
  | 8 => ⟨S2x64, .f32⟩
  | 9 => ⟨S64x12, .f32⟩
  | 10 => ⟨S12, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .f32⟩
  | 54 => ⟨S1x64, .f32⟩
  | 55 => ⟨S1x64, .f32⟩
  | 56 => ⟨S50000x64, .f32⟩
  | 57 => ⟨S1x64x64, .f32⟩
  | 58 => ⟨S64x64, .f32⟩
  | 59 => ⟨S50000x64, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S1, .i32⟩
  | 69 => ⟨S_, .i32⟩
  | 70 => ⟨S850000x1, .i32⟩
  | 71 => ⟨S850000x1, .i1⟩
  | 72 => ⟨S1x1, .i32⟩
  | 73 => ⟨S850000x1, .i32⟩
  | 74 => ⟨S850000x1, .i1⟩
  | 75 => ⟨S850000x1, .i1⟩
  | 76 => ⟨S_, .i1⟩
  | 77 => ⟨S850000, .i1⟩
  | 78 => ⟨S850000x64, .f32⟩
  | 79 => ⟨S850000x64, .i1⟩
  | 80 => ⟨S_, .f32⟩
  | 81 => ⟨S850000x64, .f32⟩
  | 82 => ⟨S850000x64, .f32⟩
  | 83 => ⟨S850000x1, .f32⟩
  | 84 => ⟨S850000x64, .f32⟩
  | 85 => ⟨S850000x64, .f32⟩
  | 86 => ⟨S_, .f32⟩
  | 87 => ⟨S50000x64, .f32⟩
  | 88 => ⟨S850000x1, .i32⟩
  | 89 => ⟨S50000x64, .f32⟩
  | 90 => ⟨S_, .f32⟩
  | 91 => ⟨S_, .f32⟩
  | 92 => ⟨S_, .f32⟩
  | 93 => ⟨S_, .f32⟩
  | 94 => ⟨S1x64, .f32⟩
  | 95 => ⟨S64, .f32⟩
  | 96 => ⟨S64, .f32⟩
  | 97 => ⟨S64, .f32⟩
  | 98 => ⟨S1x64, .f32⟩
  | 99 => ⟨S64, .f32⟩
  | 100 => ⟨S64, .f32⟩
  | 101 => ⟨S1x64, .f32⟩
  | 102 => ⟨S64, .f32⟩
  | 103 => ⟨S64, .f32⟩
  | 104 => ⟨S1x64, .f32⟩
  | 105 => ⟨S1x64, .f32⟩
  | 106 => ⟨S1x64x64, .f32⟩
  | 107 => ⟨S64x64, .f32⟩
  | 108 => ⟨S50000x64, .f32⟩
  | 109 => ⟨S50000x64, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S1, .i32⟩
  | 119 => ⟨S_, .i32⟩
  | 120 => ⟨S850000x1, .i32⟩
  | 121 => ⟨S850000x1, .i1⟩
  | 122 => ⟨S1x1, .i32⟩
  | 123 => ⟨S850000x1, .i32⟩
  | 124 => ⟨S850000x1, .i1⟩
  | 125 => ⟨S850000x1, .i1⟩
  | 126 => ⟨S_, .i1⟩
  | 127 => ⟨S850000, .i1⟩
  | _ => ⟨S50000x16, .f32⟩

abbrev hbmTy0_1 (i : Nat) : BufTy := match i % 128 with
  | 0 => ⟨S850000x64, .f32⟩
  | 1 => ⟨S850000x64, .i1⟩
  | 2 => ⟨S_, .f32⟩
  | 3 => ⟨S850000x64, .f32⟩
  | 4 => ⟨S850000x64, .f32⟩
  | 5 => ⟨S850000x1, .f32⟩
  | 6 => ⟨S850000x64, .f32⟩
  | 7 => ⟨S850000x64, .f32⟩
  | 8 => ⟨S_, .f32⟩
  | 9 => ⟨S50000x64, .f32⟩
  | 10 => ⟨S850000x1, .i32⟩
  | 11 => ⟨S50000x64, .f32⟩
  | 12 => ⟨S1x64, .f32⟩
  | 13 => ⟨S64, .f32⟩
  | 14 => ⟨S64, .f32⟩
  | 15 => ⟨S64, .f32⟩
  | 16 => ⟨S1x64, .f32⟩
  | 17 => ⟨S64, .f32⟩
  | 18 => ⟨S64, .f32⟩
  | 19 => ⟨S1x64, .f32⟩
  | 20 => ⟨S64, .f32⟩
  | 21 => ⟨S64, .f32⟩
  | 22 => ⟨S1x64, .f32⟩
  | 23 => ⟨S1x64, .f32⟩
  | 24 => ⟨S50000x64, .f32⟩
  | 25 => ⟨S50000x12, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S1, .i32⟩
  | 35 => ⟨S_, .i32⟩
  | 36 => ⟨S850000x1, .i32⟩
  | 37 => ⟨S850000x1, .i1⟩
  | 38 => ⟨S1x1, .i32⟩
  | 39 => ⟨S850000x1, .i32⟩
  | 40 => ⟨S850000x1, .i1⟩
  | 41 => ⟨S850000x1, .i1⟩
  | 42 => ⟨S_, .i1⟩
  | 43 => ⟨S850000, .i1⟩
  | 44 => ⟨S850000x12, .f32⟩
  | 45 => ⟨S850000x12, .i1⟩
  | 46 => ⟨S_, .f32⟩
  | 47 => ⟨S850000x12, .f32⟩
  | 48 => ⟨S850000x12, .f32⟩
  | 49 => ⟨S850000x1, .f32⟩
  | 50 => ⟨S850000x12, .f32⟩
  | 51 => ⟨S850000x12, .f32⟩
  | 52 => ⟨S_, .f32⟩
  | 53 => ⟨S50000x12, .f32⟩
  | 54 => ⟨S850000x1, .i32⟩
  | 55 => ⟨S50000x12, .f32⟩
  | 56 => ⟨S1x12, .f32⟩
  | 57 => ⟨S50000x12, .f32⟩
  | 58 => ⟨S50000x12, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S1x64, .f32⟩
  | .local _ .vmem, ⟨29, _⟩ => ⟨S64x12, .f32⟩
  | .local _ .vmem, ⟨30, _⟩ => ⟨S5000x64, .f32⟩
  | .local _ .vmem, ⟨31, _⟩ => ⟨S5000x64, .f32⟩
  | .local _ .vmem, ⟨32, _⟩ => ⟨S5000x12, .f32⟩
  | .local _ .vmem, ⟨33, _⟩ => ⟨S5000x12, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_7 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_8 : Ref sig .tc := ⟨.hbm, 90, rfl⟩
abbrev main_cst_9 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61_0 : Ref sig .tc := ⟨.hbm, 108, rfl⟩
abbrev main_v61_1 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_cst_10 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81_0 : Ref sig .tc := ⟨.hbm, 152, rfl⟩
abbrev main_v81_1 : Ref sig .tc := ⟨.hbm, 153, rfl⟩
abbrev main_call3_c : Ref sig .tc := ⟨.hbm, 154, rfl⟩
abbrev main_call3_v0 : Ref sig .tc := ⟨.hbm, 155, rfl⟩
abbrev main_call3_v1 : Ref sig .tc := ⟨.hbm, 156, rfl⟩
abbrev main_call3_c_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_c_1 : Ref sig .tc := ⟨.hbm, 162, rfl⟩
abbrev main_call3_c_2 : Ref sig .tc := ⟨.hbm, 163, rfl⟩
abbrev main_call3_v6 : Ref sig .tc := ⟨.hbm, 164, rfl⟩
abbrev main_call3_v7 : Ref sig .tc := ⟨.hbm, 165, rfl⟩
abbrev main_call3_v8 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_c_3 : Ref sig .tc := ⟨.hbm, 170, rfl⟩
abbrev main_call3_v12 : Ref sig .tc := ⟨.hbm, 171, rfl⟩
abbrev main_call3_v13 : Ref sig .tc := ⟨.hbm, 172, rfl⟩
abbrev main_call3_v14 : Ref sig .tc := ⟨.hbm, 173, rfl⟩
abbrev main_call3_cst : Ref sig .tc := ⟨.hbm, 174, rfl⟩
abbrev main_call3_v15 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_cst_11 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x12 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x12 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S_S1x64 : S_.BroadcastsInDim S1x64 (![] : Fin 0 → Fin S1x64.rank)
  shapeCasts_S64_S1x64 : S64.ShapeCasts S1x64
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x64x64_S1x64x64_0_0_0 : S2x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x64_0 : S850000.BroadcastsInDim S850000x64 (![0] : Fin 1 → Fin S850000x64.rank)
  bcast_S_S850000x64 : S_.BroadcastsInDim S850000x64 (![] : Fin 0 → Fin S850000x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  slices_S2x64_S1x64_0_0 : S2x64.Slices ![0, 0] S1x64
  shapeCasts_S1x64_S64 : S1x64.ShapeCasts S64
  bcast_S_S64 : S_.BroadcastsInDim S64 (![] : Fin 0 → Fin S64.rank)
  slices_S2x64x64_S1x64x64_1_0_0 : S2x64x64.Slices ![1, 0, 0] S1x64x64
  slices_S2x64_S1x64_1_0 : S2x64.Slices ![1, 0] S1x64
  inb_S64x12_S64x12_0_0 : ∀ a, (![0, 0] : Fin 2 → Nat) a + S64x12.size a ≤ S64x12.size a
  h_S64x12 : 0 < S64x12.numel
  inb_S5000x12_S5000x12_0_0 : ∀ a, (![0, 0] : Fin 2 → Nat) a + S5000x12.size a ≤ S5000x12.size a
  h_S5000x12 : 0 < S5000x12.numel
  bcast_S850000_S850000x12_0 : S850000.BroadcastsInDim S850000x12 (![0] : Fin 1 → Fin S850000x12.rank)
  bcast_S_S850000x12 : S_.BroadcastsInDim S850000x12 (![] : Fin 0 → Fin S850000x12.rank)
  bcast_S850000x1_S850000x12_0_1 : S850000x1.BroadcastsInDim S850000x12 (![0, 1] : Fin 2 → Fin S850000x12.rank)
  bcast_S_S50000x12 : S_.BroadcastsInDim S50000x12 (![] : Fin 0 → Fin S50000x12.rank)
  bcast_S12_S1x12_1 : S12.BroadcastsInDim S1x12 (![1] : Fin 1 → Fin S1x12.rank)
  bcast_S1x12_S50000x12_0_1 : S1x12.BroadcastsInDim S50000x12 (![0, 1] : Fin 2 → Fin S50000x12.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x12_S5000x12_1_0_0_1_n_n_wf : DotDims.WF S5000x64 S64x12 S5000x12 [1] [0] [0] [1] [] []
  gather_S50000x12_S850000x1_S850000x12_1_0_n_n_0_1_112_wf : GatherDims.WF S50000x12 S850000x1 S850000x12 [1] [0] [] [0] [] 1 ![1, 12]
  scatter_S50000x12_S850000x1_S850000x12_1_0_0_1_wf : ScatterDims.WF S50000x12 S850000x1 S850000x12 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x12.size a ≤ S64x12.size a
  hwx3_4 : ∀ i : grid3.Coords, EltTy.bits .f32 = 32 ∨ (Rect.block (s := S64x12) S64x12.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x12.size a ≤ S50000x12.size a
  hwx3_6 : ∀ i : grid3.Coords, EltTy.bits .f32 = 32 ∨ (Rect.block (s := S50000x12) S5000x12.size (cc3_transform_6 i) (hinb3_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x12_S5000x12_1_0_0_1_n_n : DotDims S5000x64 S64x12 S5000x12 where
  lhsContracting := [1]
  rhsContracting := [0]
  lhsNonContracting := [0]
  rhsNonContracting := [1]
  lhsBatch := []
  rhsBatch := []
  wf := dot_S5000x64_S64x12_S5000x12_1_0_0_1_n_n_wf
def gather_S50000x12_S850000x1_S850000x12_1_0_n_n_0_1_112 : GatherDims S50000x12 S850000x1 S850000x12 where
  offsetDims := [1]
  collapsedSliceDims := [0]
  operandBatchingDims := []
  startIndicesBatchingDims := []
  startIndexMap := [0]
  indexVectorDim := 1
  sliceSizes := ![1, 12]
  wf := gather_S50000x12_S850000x1_S850000x12_1_0_n_n_0_1_112_wf
def scatter_S50000x12_S850000x1_S850000x12_1_0_0_1 : ScatterDims S50000x12 S850000x1 S850000x12 where
  updateWindowDims := [1]
  insertedWindowDims := [0]
  scatterDimsToOperandDims := [0]
  indexVectorDim := 1
  wf := scatter_S50000x12_S850000x1_S850000x12_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v61_1) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v68) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61_0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S64x12.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v81_1) S5000x12.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S800000 : Shape := ⟨1, ![800000]⟩
abbrev S16x64 : Shape := ⟨2, ![16, 64]⟩
abbrev S64 : Shape := ⟨1, ![64]⟩
abbrev S2x64x64 : Shape := ⟨3, ![2, 64, 64]⟩
abbrev S2x64 : Shape := ⟨2, ![2, 64]⟩
abbrev S64x12 : Shape := ⟨2, ![64, 12]⟩
abbrev S12 : Shape := ⟨1, ![12]⟩
abbrev S50000 : Shape := ⟨1, ![50000]⟩
abbrev S1x800000 : Shape := ⟨2, ![1, 800000]⟩
abbrev S850000 : Shape := ⟨1, ![850000]⟩
abbrev S_ : Shape := ⟨0, ![]⟩
abbrev S50000x64 : Shape := ⟨2, ![50000, 64]⟩
abbrev S1x64 : Shape := ⟨2, ![1, 64]⟩
abbrev S1x64x64 : Shape := ⟨3, ![1, 64, 64]⟩
abbrev S64x64 : Shape := ⟨2, ![64, 64]⟩
abbrev S850000x1 : Shape := ⟨2, ![850000, 1]⟩
abbrev S850000x64 : Shape := ⟨2, ![850000, 64]⟩
abbrev S50000x12 : Shape := ⟨2, ![50000, 12]⟩
abbrev S850000x12 : Shape := ⟨2, ![850000, 12]⟩
abbrev S1x12 : Shape := ⟨2, ![1, 12]⟩

abbrev nBuf : Space → Nat
  | .hbm => 228
  | .vmem => 0
  | .smem => 0
  | _ => 0

abbrev hbmTy0_0 (i : Nat) : BufTy := match i % 128 with
  | 0 => ⟨S50000x16, .f32⟩
  | 1 => ⟨S2x800000, .i32⟩
  | 2 => ⟨S800000, .f32⟩
  | 3 => ⟨S16x64, .f32⟩
  | 4 => ⟨S64, .f32⟩
  | 5 => ⟨S2x64x64, .f32⟩
  | 6 => ⟨S2x64, .f32⟩
  | 7 => ⟨S2x64, .f32⟩
  | 8 => ⟨S2x64, .f32⟩
  | 9 => ⟨S64x12, .f32⟩
  | 10 => ⟨S12, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S50000, .f32⟩
  | 20 => ⟨S850000, .f32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S_, .f32⟩
  | 29 => ⟨S_, .f32⟩
  | 30 => ⟨S_, .f32⟩
  | 31 => ⟨S_, .f32⟩
  | 32 => ⟨S1x64x64, .f32⟩
  | 33 => ⟨S64x64, .f32⟩
  | 34 => ⟨S1x64, .f32⟩
  | 35 => ⟨S64, .f32⟩
  | 36 => ⟨S50000x64, .f32⟩
  | 37 => ⟨S_, .f32⟩
  | 38 => ⟨S50000, .f32⟩
  | 39 => ⟨S850000x1, .i32⟩
  | 40 => ⟨S50000, .f32⟩
  | 41 => ⟨S_, .f32⟩
  | 42 => ⟨S50000, .f32⟩
  | 43 => ⟨S50000, .i1⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000, .f32⟩
  | 68 => ⟨S850000, .f32⟩
  | 69 => ⟨S850000x1, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x64, .f32⟩
  | 79 => ⟨S850000x64, .f32⟩
  | 80 => ⟨S850000x64, .f32⟩
  | 81 => ⟨S_, .f32⟩
  | 82 => ⟨S50000x64, .f32⟩
  | 83 => ⟨S850000x1, .i32⟩
  | 84 => ⟨S50000x64, .f32⟩
  | 85 => ⟨S1x64, .f32⟩
  | 86 => ⟨S50000x64, .f32⟩
  | 87 => ⟨S50000x64, .f32⟩
  | 88 => ⟨S1x64, .f32⟩
  | 89 => ⟨S64, .f32⟩
  | 90 => ⟨S64, .f32⟩
  | 91 => ⟨S64, .f32⟩
  | 92 => ⟨S1x64, .f32⟩
  | 93 => ⟨S50000x64, .f32⟩
  | 94 => ⟨S50000x64, .f32⟩
  | 95 => ⟨S1x64, .f32⟩
  | 96 => ⟨S64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x64, .f32⟩
  | 104 => ⟨S1x64x64, .f32⟩
  | 105 => ⟨S64x64, .f32⟩
  | 106 => ⟨S1x64, .f32⟩
  | 107 => ⟨S64, .f32⟩
  | 108 => ⟨S50000x64, .f32⟩
  | 109 => ⟨S_, .f32⟩
  | 110 => ⟨S50000, .f32⟩
  | 111 => ⟨S850000x1, .i32⟩
  | 112 => ⟨S50000, .f32⟩
  | 113 => ⟨S_, .f32⟩
  | 114 => ⟨S50000, .f32⟩
  | 115 => ⟨S50000, .i1⟩
  | 116 => ⟨S50000, .f32⟩
  | 117 => ⟨S_, .f32⟩
  | 118 => ⟨S_, .f32⟩
  | 119 => ⟨S50000, .f32⟩
  | 120 => ⟨S50000, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x16, .f32⟩

abbrev hbmTy0_1 (i : Nat) : BufTy := match i % 128 with
  | 0 => ⟨S850000x1, .i32⟩
  | 1 => ⟨S850000, .f32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000, .f32⟩
  | 12 => ⟨S850000, .f32⟩
  | 13 => ⟨S850000x1, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x64, .f32⟩
  | 23 => ⟨S850000x64, .f32⟩
  | 24 => ⟨S850000x64, .f32⟩
  | 25 => ⟨S_, .f32⟩
  | 26 => ⟨S50000x64, .f32⟩
  | 27 => ⟨S850000x1, .i32⟩
  | 28 => ⟨S50000x64, .f32⟩
  | 29 => ⟨S1x64, .f32⟩
  | 30 => ⟨S50000x64, .f32⟩
  | 31 => ⟨S50000x64, .f32⟩
  | 32 => ⟨S1x64, .f32⟩
  | 33 => ⟨S64, .f32⟩
  | 34 => ⟨S64, .f32⟩
  | 35 => ⟨S64, .f32⟩
  | 36 => ⟨S1x64, .f32⟩
  | 37 => ⟨S50000x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S50000x64, .f32⟩
  | 48 => ⟨S50000x12, .f32⟩
  | 49 => ⟨S_, .f32⟩
  | 50 => ⟨S50000, .f32⟩
  | 51 => ⟨S850000x1, .i32⟩
  | 52 => ⟨S50000, .f32⟩
  | 53 => ⟨S_, .f32⟩
  | 54 => ⟨S50000, .f32⟩
  | 55 => ⟨S50000, .i1⟩
  | 56 => ⟨S50000, .f32⟩
  | 57 => ⟨S_, .f32⟩
  | 58 => ⟨S_, .f32⟩
  | 59 => ⟨S50000, .f32⟩
  | 60 => ⟨S50000, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000, .f32⟩
  | 70 => ⟨S850000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S850000, .f32⟩
  | 81 => ⟨S850000x1, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x12, .f32⟩
  | 91 => ⟨S850000x12, .f32⟩
  | 92 => ⟨S850000x12, .f32⟩
  | 93 => ⟨S_, .f32⟩
  | 94 => ⟨S50000x12, .f32⟩
  | 95 => ⟨S850000x1, .i32⟩
  | 96 => ⟨S50000x12, .f32⟩
  | 97 => ⟨S1x12, .f32⟩
  | 98 => ⟨S50000x12, .f32⟩
  | 99 => ⟨S50000x12, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_cst_0 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call2_cst : Ref sig .tc := ⟨.hbm, 100, rfl⟩
abbrev main_call2_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_11 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_12 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_13 : Ref sig .tc := ⟨.hbm, 117, rfl⟩
abbrev main_call3_v0 : Ref sig .tc := ⟨.hbm, 118, rfl⟩
abbrev main_call3_v1 : Ref sig .tc := ⟨.hbm, 119, rfl⟩
abbrev main_v85 : Ref sig .tc := ⟨.hbm, 120, rfl⟩
abbrev main_c_14 : Ref sig .tc := ⟨.hbm, 121, rfl⟩
abbrev main_v86 : Ref sig .tc := ⟨.hbm, 122, rfl⟩
abbrev main_v87 : Ref sig .tc := ⟨.hbm, 123, rfl⟩
abbrev main_c_15 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_16 : Ref sig .tc := ⟨.hbm, 131, rfl⟩
abbrev main_v94 : Ref sig .tc := ⟨.hbm, 132, rfl⟩
abbrev main_v95 : Ref sig .tc := ⟨.hbm, 133, rfl⟩
abbrev main_c_17 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_18 : Ref sig .tc := ⟨.hbm, 142, rfl⟩
abbrev main_v103 : Ref sig .tc := ⟨.hbm, 143, rfl⟩
abbrev main_v104 : Ref sig .tc := ⟨.hbm, 144, rfl⟩
abbrev main_c_19 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_20 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_call4_cst : Ref sig .tc := ⟨.hbm, 172, rfl⟩
abbrev main_call4_v0 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_21 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_22 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_23 : Ref sig .tc := ⟨.hbm, 185, rfl⟩
abbrev main_call5_v0 : Ref sig .tc := ⟨.hbm, 186, rfl⟩
abbrev main_call5_v1 : Ref sig .tc := ⟨.hbm, 187, rfl⟩
abbrev main_v139 : Ref sig .tc := ⟨.hbm, 188, rfl⟩
abbrev main_c_24 : Ref sig .tc := ⟨.hbm, 189, rfl⟩
abbrev main_v140 : Ref sig .tc := ⟨.hbm, 190, rfl⟩
abbrev main_v141 : Ref sig .tc := ⟨.hbm, 191, rfl⟩
abbrev main_c_25 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_c_26 : Ref sig .tc := ⟨.hbm, 199, rfl⟩
abbrev main_v148 : Ref sig .tc := ⟨.hbm, 200, rfl⟩
abbrev main_v149 : Ref sig .tc := ⟨.hbm, 201, rfl⟩
abbrev main_c_27 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_28 : Ref sig .tc := ⟨.hbm, 210, rfl⟩
abbrev main_v157 : Ref sig .tc := ⟨.hbm, 211, rfl⟩
abbrev main_v158 : Ref sig .tc := ⟨.hbm, 212, rfl⟩
abbrev main_c_29 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_30 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S64 : S_.BroadcastsInDim S64 (![] : Fin 0 → Fin S64.rank)
  slices_S2x64x64_S1x64x64_1_0_0 : S2x64x64.Slices ![1, 0, 0] S1x64x64
  slices_S2x64_S1x64_1_0 : S2x64.Slices ![1, 0] S1x64
  bcast_S850000x1_S850000x12_0_1 : S850000x1.BroadcastsInDim S850000x12 (![0, 1] : Fin 2 → Fin S850000x12.rank)
  bcast_S_S50000x12 : S_.BroadcastsInDim S50000x12 (![] : Fin 0 → Fin S50000x12.rank)
  bcast_S12_S1x12_1 : S12.BroadcastsInDim S1x12 (![1] : Fin 1 → Fin S1x12.rank)
  bcast_S1x12_S50000x12_0_1 : S1x12.BroadcastsInDim S50000x12 (![0, 1] : Fin 2 → Fin S50000x12.rank)
  dot_S50000x16_S16x64_S50000x64_1_0_0_1_n_n_wf : DotDims.WF S50000x16 S16x64 S50000x64 [1] [0] [0] [1] [] []
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x12_S50000x12_1_0_0_1_n_n_wf : DotDims.WF S50000x64 S64x12 S50000x12 [1] [0] [0] [1] [] []
  gather_S50000x12_S850000x1_S850000x12_1_0_n_n_0_1_112_wf : GatherDims.WF S50000x12 S850000x1 S850000x12 [1] [0] [] [0] [] 1 ![1, 12]
  scatter_S50000x12_S850000x1_S850000x12_1_0_0_1_wf : ScatterDims.WF S50000x12 S850000x1 S850000x12 [1] [0] [0] 1

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x12_S50000x12_1_0_0_1_n_n : DotDims S50000x64 S64x12 S50000x12 where
  lhsContracting := [1]
  rhsContracting := [0]
  lhsNonContracting := [0]
  rhsNonContracting := [1]
  lhsBatch := []
  rhsBatch := []
  wf := dot_S50000x64_S64x12_S50000x12_1_0_0_1_n_n_wf
def gather_S50000x12_S850000x1_S850000x12_1_0_n_n_0_1_112 : GatherDims S50000x12 S850000x1 S850000x12 where
  offsetDims := [1]
  collapsedSliceDims := [0]
  operandBatchingDims := []
  startIndicesBatchingDims := []
  startIndexMap := [0]
  indexVectorDim := 1
  sliceSizes := ![1, 12]
  wf := gather_S50000x12_S850000x1_S850000x12_1_0_n_n_0_1_112_wf
def scatter_S50000x12_S850000x1_S850000x12_1_0_0_1 : ScatterDims S50000x12 S850000x1 S850000x12 where
  updateWindowDims := [1]
  insertedWindowDims := [0]
  scatterDimsToOperandDims := [0]
  indexVectorDim := 1
  wf := scatter_S50000x12_S850000x1_S850000x12_1_0_0_1_wf

class Facts : Prop extends Facts₀ where

variable [Facts]
-- ==== Proof.PreFacts.lean ====
import proofs.«430148_j44306882625628_2_alg».proof.Pre_finite_inputs
import proofs.«430148_j44306882625628_2_alg».proof.Proof.Gen.Pre_finite_inputs
import Idealize.ShloMosaic.PureOps.Ideal
import Idealize.ShloMosaic.Lib.ValueIdx
import Idealize.ShloMosaic.Lib.ReduceAll
import Idealize.ShloMosaic.Lib.Pipeline.Value
import Idealize.ShloMosaic.Lib.StableHlo.Predicate

noncomputable section

namespace Cert.Pre_finite_inputs.Decode

open Cert.Pre_finite_inputs Idealize.ShloMosaic Idealize.ShloMosaic.ValueIdx

variable [Cert.Pre_finite_inputs.Facts]

/-- The scalar shape has one index. -/
instance : Subsingleton S_.Idx := ⟨fun a b => funext fun d => d.elim0⟩

/-- A conjunction of two bit vectors, read at an index, is the conjunction of the two bits. -/
theorem andi_at {s : Shape} (a b : IVec s 1) (i : s.Idx) : andi a b i = IntOp.andi (a i) (b i) := rfl

/-- The word `0x7F800000` is the single-precision pattern of `+∞`. -/
theorem inf_word : Ideal.ofBits .f32 0x7F800000#32 = (⊤ : EReal) := by
  simp [Ideal.ofBits, Ideal.ieee]

/-- An extended real whose absolute value `max x (-x)` is strictly below `+∞` is a real number: both infinities have
    absolute value `+∞`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- An element at which the mask `|x| < +∞` is set is a real number. -/
theorem real_of_mask {s : Shape} (x : FVec Ideal s .f32) (i : s.Idx)
    (h : cmpf .olt (Host.absf x) (fun _ => Ideal.ofBits .f32 0x7F800000#32) i = 1#1) : ∃ r : ℝ, x i = (r : EReal) := by
  refine real_of_abs_lt_top (x i) ?_
  have h' : Ideal.cmp .olt (max (x i) (-(x i))) (Ideal.ofBits .f32 0x7F800000#32) = 1#1 := h
  rw [inf_word] at h'
  unfold Ideal.cmp at h'
  simpa [StableHlo.Predicate.ofBool_eq_one_iff] using h'

/-- One entry of the edge list's first row, read through the slice `[0:1, 0:800000]` and the reshape to a vector:
    the row-major position of `(0, e)` in a `[1 × 800000]` array is `e`. -/
theorem row0_at (x1 : IVec S2x800000 32) (e : Fin 800000) :
    shapeCast S800000 (extractStridedSlice S1x800000 ![0, 0] x1 Facts.slices_S2x800000_S1x800000_0_0)
        Facts.shapeCasts_S1x800000_S800000 (ix1 e) = x1 (ix2 (0 : Fin 2) e) := by
  refine (shapeCast_apply _ _ (ix1 e) (ix2 (0 : Fin 1) e) ?_).trans ?_
  · rw [Shape.rowMajor_val_two, Shape.rowMajor_val_one]
    show (0 : ℕ) * 800000 + e.val = e.val
    omega
  · refine extractStridedSlice_apply _ _ _ (ix2 (0 : Fin 1) e) (ix2 (0 : Fin 2) e) ?_
    intro a
    match a with
    | ⟨0, _⟩ => rfl
    | ⟨1, _⟩ => show e.val = 0 + e.val; omega

/-- A 32-bit word that passes the two signed comparisons `w ≥ 0` and `w < 50000` lies in `[0, 50000)` as an integer. -/
theorem range_of_cmp (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  rw [BitVec.sle_iff_toInt_le] at h0
  rw [BitVec.slt_iff_toInt_lt] at h1
  have e0 : (0#32 : BitVec 32).toInt = 0 := by decide
  have e1 : (50000#32 : BitVec 32).toInt = 50000 := by decide
  rw [e0] at h0
  rw [e1] at h1
  exact ⟨h0, h1⟩

/-- What the precondition says of the three inputs the proof needs: the edge list's first row holds node numbers
    `0 ≤ s < 50000`, and the convolution biases and the normalisation gains are finite. -/
theorem of_pre (x0 : FVec Ideal S50000x16 .f32) (x1 : IVec S2x800000 32) (x2 : FVec Ideal S800000 .f32)
    (x3 : FVec Ideal S16x64 .f32) (x4 : FVec Ideal S64 .f32) (x5 : FVec Ideal S2x64x64 .f32)
    (x6 x7 x8 : FVec Ideal S2x64 .f32) (x9 : FVec Ideal S64x12 .f32) (x10 : FVec Ideal S12 .f32)
    (h : Cert.Pre_finite_inputs.fn (F := Ideal) x0 x1 x2 x3 x4 x5 x6 x7 x8 x9 x10 = (fun _ => 1#1)) :
    (∀ e : Fin 800000, 0 ≤ (x1 (ix2 (0 : Fin 2) e)).toInt ∧ (x1 (ix2 (0 : Fin 2) e)).toInt < 50000)
    ∧ (∀ i : S2x64.Idx, ∃ r : ℝ, x6 i = (r : EReal))
    ∧ (∀ i : S2x64.Idx, ∃ r : ℝ, x7 i = (r : EReal)) := by
  have e := congrFun h ix0
  dsimp only [fn, fn_part1, fn_part2, fn_part3] at e
  simp only [andi_at, IntOp.andi_eq_one] at e
  obtain ⟨⟨⟨⟨⟨⟨⟨⟨⟨⟨-, -⟩, -⟩, -⟩, -⟩, h6⟩, h7⟩, -⟩, -⟩, -⟩, h1⟩ := e
  refine ⟨fun e => ?_, fun i => ?_, fun i => ?_⟩
  · have q := Host.reduce_andi_all _ _ _ _ _ h1 (ix1 e)
    rw [andi_at, IntOp.andi_eq_one] at q
    obtain ⟨q0, q1⟩ := q
    have r0 : IntOp.cmpi .sge (x1 (ix2 (0 : Fin 2) e)) 0#32 = 1#1 := by
      rw [← row0_at x1 e]; exact q0
    have r1 : IntOp.cmpi .slt (x1 (ix2 (0 : Fin 2) e)) 50000#32 = 1#1 := by
      rw [← row0_at x1 e]; exact q1
    exact range_of_cmp _ r0 r1
  · exact real_of_mask x6 i (Host.reduce_andi_all _ _ _ _ _ h6 i)
  · exact real_of_mask x7 i (Host.reduce_andi_all _ _ _ _ _ h7 i)

end Cert.Pre_finite_inputs.Decode

end
-- ==== Proof.Spec.lean ====
/-
  The dense pieces of the network as whole-array functions on the extended reals, index by index.

  A node-feature matrix has one row per node.  Every dense stage of the graph network acts on each row by itself:
  a matrix product with a small weight matrix (`dense`), a bias row added to every row, a rectifier, the affine
  map of an evaluation-mode batch normalisation, a residual sum.  Both programs are compared against these
  functions; the sparse stages between them (gathers and scatter-adds over the edge list) are shared by the two
  programs and never opened.
-/
import Idealize.ShloMosaic.PureOps.Ideal
import Idealize.ShloMosaic.Lib.ValueIdx

noncomputable section

namespace Cert.Spec

open Idealize.ShloMosaic Idealize.ShloMosaic.ValueIdx

/-- The shape of an `a × b` matrix. -/
abbrev Sh (a b : Nat) : Shape := ⟨2, ![a, b]⟩

/-- The row of an index of an `n × c` matrix. -/
abbrev rowOf {n c : Nat} (i : (Sh n c).Idx) : Fin n := ⟨(i 0).val, idx2_lt0 i⟩
/-- The column of an index of an `n × c` matrix. -/
abbrev colOf {n c : Nat} (i : (Sh n c).Idx) : Fin c := ⟨(i 1).val, idx2_lt1 i⟩

/-- The matrix product `x · w`: entry `(r, q)` is `∑ j, x (r, j) · w (j, q)`. -/
def dense {n k c : Nat} (x : (Sh n k).Idx → EReal) (w : (Sh k c).Idx → EReal) : (Sh n c).Idx → EReal :=
  fun i => ∑ j : Fin k, x (ix2 (rowOf i) j) * w (ix2 j (colOf i))

/-- A `1 × c` row read under column `q` of any row of an `n × c` matrix. -/
abbrev under {n c : Nat} (b : (Sh 1 c).Idx → EReal) (i : (Sh n c).Idx) : EReal := b (ix2 (0 : Fin 1) (colOf i))

/-- A length-`c` vector laid out as a `1 × c` row. -/
def asRow {c : Nat} (v : (⟨1, ![c]⟩ : Shape).Idx → EReal) : (Sh 1 c).Idx → EReal := fun j => v (ix1 (colOf j))

/-- `x · w + b` with the bias row `b` added to every row. -/
def linBias {n k c : Nat} (x : (Sh n k).Idx → EReal) (w : (Sh k c).Idx → EReal) (b : (Sh 1 c).Idx → EReal) :
    (Sh n c).Idx → EReal := fun i => dense x w i + under b i

/-- `max (x · w + b) 0`: the input projection followed by the rectifier. -/
def linRelu {n k c : Nat} (x : (Sh n k).Idx → EReal) (w : (Sh k c).Idx → EReal) (b : (Sh 1 c).Idx → EReal) :
    (Sh n c).Idx → EReal := fun i => max (dense x w i + under b i) 0

/-- The folded normalisation, rectifier and residual: `max (a · s + t) 0 + h`, the scale row `s` and shift row `t`
    read under each column. -/
def bnRes {n c : Nat} (a h : (Sh n c).Idx → EReal) (s t : (Sh 1 c).Idx → EReal) : (Sh n c).Idx → EReal :=
  fun i => max (a i * under s i + under t i) 0 + h i

/-- The same stage as the reference spells it: the convolution bias `β` is added first, the sum is scaled by `s`,
    then the normalisation's own shift `γ` is added: `max ((a + β) · s + γ) 0 + h`. -/
def bnResUnfolded {n c : Nat} (a h : (Sh n c).Idx → EReal) (β s γ : (Sh 1 c).Idx → EReal) : (Sh n c).Idx → EReal :=
  fun i => max ((a i + under β i) * under s i + under γ i) 0 + h i

/-- On the extended reals a product distributes over a sum whose second summand and whose factor are finite:
    `(a + β) · s = a · s + β · s` for real `β`, `s` and ANY `a` (an infinite `a` absorbs the finite `β` on both sides). -/
theorem add_mul_of_real (a : EReal) (β s : ℝ) : (a + (β : EReal)) * (s : EReal) = a * (s : EReal) + (β : EReal) * (s : EReal) := by
  induction a using EReal.rec with
  | bot =>
    rw [EReal.bot_add]
    rcases lt_trichotomy s 0 with hs | hs | hs
    · rw [EReal.bot_mul_coe_of_neg hs, ← EReal.coe_mul, EReal.top_add_coe]
    · subst hs; simp
    · rw [EReal.bot_mul_coe_of_pos hs, EReal.bot_add]
  | coe r => rw [← EReal.coe_add, ← EReal.coe_mul, ← EReal.coe_mul, ← EReal.coe_mul, ← EReal.coe_add, add_mul]
  | top =>
    rw [EReal.top_add_coe]
    rcases lt_trichotomy s 0 with hs | hs | hs
    · rw [EReal.top_mul_coe_of_neg hs, ← EReal.coe_mul, EReal.bot_add]
    · subst hs; simp
    · rw [EReal.top_mul_coe_of_pos hs, ← EReal.coe_mul, EReal.top_add_coe]

/-- The two spellings of the normalisation stage agree when the bias row and the scale row are finite: the shift
    row of the folded form is `β · s + γ`. -/
theorem bnResUnfolded_eq {n c : Nat} (a h : (Sh n c).Idx → EReal) (β s γ : (Sh 1 c).Idx → EReal)
    (hβ : ∀ j, ∃ r : ℝ, β j = (r : EReal)) (hs : ∀ j, ∃ r : ℝ, s j = (r : EReal)) :
    bnResUnfolded a h β s γ = bnRes a h s (fun j => β j * s j + γ j) := by
  funext i
  obtain ⟨b, hb⟩ := hβ (ix2 (0 : Fin 1) (colOf i))
  obtain ⟨r, hr⟩ := hs (ix2 (0 : Fin 1) (colOf i))
  unfold bnResUnfolded bnRes
  simp only [under, hb, hr]
  rw [add_mul_of_real, add_assoc]

end Cert.Spec

end
-- ==== Proof.KStages.lean ====
/-
  The index arithmetic of the kernel's row gathers, named.

  The source node of every message is an entry of the edge list's first row followed by the node's own number (the
  self loops).  The kernel gathers feature rows at these indices with an out-of-range guard: a negative index is
  first wrapped by the table's length, then a row whose wrapped index falls outside `[0, 49999]` is replaced by a
  fill value.  The pieces of that computation are named here so that the guard can be discharged once.
-/
import proofs.«430148_j44306882625628_2_alg».proof.Proof.Gen.KernelIdeal
import proofs.«430148_j44306882625628_2_alg».proof.Proof.Spec

noncomputable section

namespace Cert.KernelIdeal.KV

open Cert.KernelIdeal Cert.KernelIdeal.Facts₀ Cert.KernelIdeal.Facts
open Idealize.ShloMosaic

/-- The source node of each of the 850000 messages: the edge list's first row, then every node once. -/
def srcOf (x1 : IVec S2x800000 32) : IVec S850000 32 :=
  concatenate S850000 0 [⟨S800000, shapeCast S800000 (extractStridedSlice S1x800000 ![0, 0] x1 slices_S2x800000_S1x800000_0_0) shapeCasts_S1x800000_S800000⟩,
    ⟨S50000, iotaInDim S50000 32 0⟩] concatenates_S800000_S50000_S850000_d0

/-- An index vector with its negative entries moved up by the table's length, 50000. -/
def wrapIdx (idx : IVec S850000 32) : IVec S850000 32 :=
  select (cmpi .slt idx (broadcastInDim S850000 ![] bcast_S_S850000 (constantI S_ 32 0#32)))
    (addi idx (broadcastInDim S850000 ![] bcast_S_S850000 (constantI S_ 32 50000#32))) idx

/-- The wrapped indices as the one-column start-index table a row gather takes. -/
def idxCol (idx : IVec S850000 32) : IVec S850000x1 32 :=
  broadcastInDim S850000x1 ![0] bcast_S850000_S850000x1_0 (wrapIdx idx)

/-- Per message: is the wrapped index inside `[0, 49999]`? -/
def inRange (idx : IVec S850000 32) : IVec S850000 1 :=
  Host.reduce IntOp.andi
    (andi (cmpi .sge (idxCol idx) (broadcastInDim S850000x1 ![] bcast_S_S850000x1 (constantI S_ 32 0#32)))
      (cmpi .sle (idxCol idx) (broadcastInDim S850000x1 ![0, 1] bcast_S1x1_S850000x1_0_1
        (broadcastInDim S1x1 ![1] bcast_S1_S1x1_1 (constantI S1 32 49999#32)))))
    (constantI S_ 1 1#1) reducesTo_S850000x1_S850000_d1 h_S_

/-- The guarded gather of 64-wide rows: the row at the wrapped index where it is in range, the fill value elsewhere. -/
def take64 (h : FVec Ideal S50000x64 .f32) (idx : IVec S850000 32) : FVec Ideal S850000x64 .f32 :=
  select (broadcastInDim S850000x64 ![0] bcast_S850000_S850000x64_0 (inRange idx))
    (Host.gather gather_S50000x64_S850000x1_S850000x64_1_0_n_n_0_1_164 h (idxCol idx))
    (broadcastInDim S850000x64 ![] bcast_S_S850000x64 (constant (F := Ideal) S_ .f32 0x7FC00000#32))

/-- The guarded gather of 12-wide rows. -/
def take12 (h : FVec Ideal S50000x12 .f32) (idx : IVec S850000 32) : FVec Ideal S850000x12 .f32 :=
  select (broadcastInDim S850000x12 ![0] bcast_S850000_S850000x12_0 (inRange idx))
    (Host.gather gather_S50000x12_S850000x1_S850000x12_1_0_n_n_0_1_112 h (idxCol idx))
    (broadcastInDim S850000x12 ![] bcast_S_S850000x12 (constant (F := Ideal) S_ .f32 0x7FC00000#32))

end Cert.KernelIdeal.KV

end
-- ==== Proof.TakeFill.lean ====
import proofs.«430148_j44306882625628_2_alg».proof.Proof.KStages
import Idealize.ShloMosaic.Lib.ValueIdx
import Idealize.ShloMosaic.Lib.Pipeline.Value
import Idealize.ShloMosaic.Lib.StableHlo.Predicate

noncomputable section

namespace Cert.KernelIdeal.KV

open Cert.KernelIdeal Cert.KernelIdeal.Facts₀ Cert.KernelIdeal.Facts
open Idealize.ShloMosaic Idealize.ShloMosaic.ValueIdx

/-! ## Words: the signed comparisons of a node number with the constants `0`, `49999` -/

/-- A non-negative word is not below zero. -/
theorem slt_zero_of_nonneg (w : BitVec 32) (h0 : 0 ≤ w.toInt) : IntOp.cmpi .slt w 0#32 = 0#1 := by
  have hf : w.slt 0#32 = false := by
    rw [Bool.eq_false_iff]
    intro hh
    rw [BitVec.slt_iff_toInt_lt] at hh
    have e0 : (0#32 : BitVec 32).toInt = 0 := by decide
    omega
  show BitVec.ofBool (w.slt 0#32) = 0#1
  rw [hf]
  rfl

/-- A non-negative word is at least zero. -/
theorem sge_zero_of_nonneg (w : BitVec 32) (h0 : 0 ≤ w.toInt) : IntOp.cmpi .sge w 0#32 = 1#1 := by
  show BitVec.ofBool ((0#32 : BitVec 32).sle w) = 1#1
  rw [StableHlo.Predicate.ofBool_eq_one_iff, BitVec.sle_iff_toInt_le]
  have e0 : (0#32 : BitVec 32).toInt = 0 := by decide
  omega

/-- A word below `50000` is at most `49999`. -/
theorem sle_last_of_lt (w : BitVec 32) (h1 : w.toInt < 50000) : IntOp.cmpi .sle w 49999#32 = 1#1 := by
  show BitVec.ofBool (w.sle 49999#32) = 1#1
  rw [StableHlo.Predicate.ofBool_eq_one_iff, BitVec.sle_iff_toInt_le]
  have e1 : (49999#32 : BitVec 32).toInt = 49999 := by decide
  omega

/-! ## A conjunction over an axis, all of whose terms hold -/

/-- A left fold by `and` from `1` over bits that are all `1` is `1`. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- A reduction by `and` from `1` of an array of bits that are all `1` is `1` at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x hx _

/-! ## The index column -/

/-- A non-negative index is not moved by the wrap. -/
theorem wrapIdx_at (idx : IVec S850000 32) (e : S850000.Idx) (h0 : 0 ≤ (idx e).toInt) : wrapIdx idx e = idx e := by
  unfold wrapIdx
  rw [select_apply]
  have hc : cmpi .slt idx (broadcastInDim S850000 ![] bcast_S_S850000 (constantI S_ 32 0#32)) e = 0#1 :=
    slt_zero_of_nonneg (idx e) h0
  rw [hc, select_zero]

/-- The one-column table reads, at row `p`, the wrapped index of message `p`. -/
theorem idxCol_at (idx : IVec S850000 32) (p : Fin 850000) (q : Fin 1) : idxCol idx (ix2 p q) = wrapIdx idx (ix1 p) := by
  unfold idxCol
  refine broadcastInDim_apply _ _ _ (ix2 p q) (ix1 p) ?_
  intro a
  match a with
  | ⟨0, _⟩ => rfl

/-- With every index a node number, every message is in range. -/
theorem inRange_eq_one (idx : IVec S850000 32)
    (hidx : ∀ e : S850000.Idx, 0 ≤ (idx e).toInt ∧ (idx e).toInt < 50000) (e : S850000.Idx) : inRange idx e = 1#1 := by
  unfold inRange
  refine reduce_andi_of_all _ _ _ _ e rfl (fun i => ?_)
  obtain ⟨p, q, rfl⟩ : ∃ (p : Fin 850000) (q : Fin 1), i = ix2 p q := ⟨i 0, i 1, eq_ix2 i⟩
  show IntOp.andi (IntOp.cmpi .sge (idxCol idx (ix2 p q)) 0#32) (IntOp.cmpi .sle (idxCol idx (ix2 p q)) 49999#32) = 1#1
  rw [idxCol_at, wrapIdx_at idx _ (hidx _).1, sge_zero_of_nonneg _ (hidx _).1, sle_last_of_lt _ (hidx _).2]
  decide

/-! ## The source nodes -/

/-- One entry of the edge list's first row, read through the slice `[0:1, 0:800000]` and the reshape to a vector:
    the row-major position of `(0, e)` in a `[1 × 800000]` array is `e`. -/
theorem row0_at (x1 : IVec S2x800000 32) (e : Fin 800000) :
    shapeCast S800000 (extractStridedSlice S1x800000 ![0, 0] x1 slices_S2x800000_S1x800000_0_0)
        shapeCasts_S1x800000_S800000 (ix1 e) = x1 (ix2 (0 : Fin 2) e) := by
  refine (shapeCast_apply _ _ (ix1 e) (ix2 (0 : Fin 1) e) ?_).trans ?_
  · rw [Shape.rowMajor_val_two, Shape.rowMajor_val_one]
    show (0 : ℕ) * 800000 + e.val = e.val
    omega
  · refine extractStridedSlice_apply _ _ _ (ix2 (0 : Fin 1) e) (ix2 (0 : Fin 2) e) ?_
    intro a
    match a with
    | ⟨0, _⟩ => rfl
    | ⟨1, _⟩ => show e.val = 0 + e.val; omega

/-- Every message's source node is a node number when the edge list's first row holds node numbers: the self loops'
    sources are the positions `0 … 49999` themselves. -/
theorem srcOf_inRange (x1 : IVec S2x800000 32)
    (h : ∀ e : Fin 800000, 0 ≤ (x1 (ix2 (0 : Fin 2) e)).toInt ∧ (x1 (ix2 (0 : Fin 2) e)).toInt < 50000) :
    ∀ e : S850000.Idx, 0 ≤ (srcOf x1 e).toInt ∧ (srcOf x1 e).toInt < 50000 := by
  intro e
  obtain ⟨p, rfl⟩ : ∃ p : Fin 850000, e = ix1 p := ⟨e 0, eq_ix1 e⟩
  by_cases hp : p.val < 800000
  · -- an edge: the entry of the first row at the same position
    have hv : srcOf x1 (ix1 p) = x1 (ix2 (0 : Fin 2) (⟨p.val, hp⟩ : Fin 800000)) := by
      unfold srcOf
      refine (concatenate_pair_apply_left (t := S850000) (s₁ := S800000) (s₂ := S50000) (0 : Fin S850000.rank) _ _ _ (ix1 p) rfl (ix1 (⟨p.val, hp⟩ : Fin 800000)) ?_).trans ?_
      · intro b
        match b with
        | ⟨0, _⟩ => rfl
      · exact row0_at x1 ⟨p.val, hp⟩
    rw [hv]
    exact h _
  · -- a self loop: the position past the edges, which is a node number
    have hq : p.val - 800000 < 50000 := by have := p.isLt; omega
    have hv : srcOf x1 (ix1 p) = BitVec.ofNat 32 (p.val - 800000) := by
      unfold srcOf
      refine (concatenate_pair_apply_right (t := S850000) (s₁ := S800000) (s₂ := S50000) (0 : Fin S850000.rank) _ _ _ (ix1 p) rfl rfl (ix1 (⟨p.val - 800000, hq⟩ : Fin 50000)) ?_ ?_).trans ?_
      · intro b hb
        exact absurd (Subsingleton.elim _ _) hb
      · show (p.val - 800000) + 800000 = p.val
        omega
      · rfl
    rw [hv, StableHlo.Predicate.toInt_ofNat_small _ (by omega)]
    omega

/-! ## The guarded gathers -/

/-- With every index a node number the guard never fires: the guarded gather is the plain gather at the wrapped indices. -/
theorem take64_eq (h : FVec Ideal S50000x64 .f32) (idx : IVec S850000 32)
    (hidx : ∀ e : S850000.Idx, 0 ≤ (idx e).toInt ∧ (idx e).toInt < 50000) :
    take64 h idx = Host.gather gather_S50000x64_S850000x1_S850000x64_1_0_n_n_0_1_164 h (idxCol idx) := by
  funext i
  unfold take64
  rw [select_apply]
  have hm : broadcastInDim S850000x64 ![0] bcast_S850000_S850000x64_0 (inRange idx) i = 1#1 := by
    unfold broadcastInDim
    exact inRange_eq_one idx hidx _
  rw [hm, select_one]

/-- The same for the 12-wide rows. -/
theorem take12_eq (h : FVec Ideal S50000x12 .f32) (idx : IVec S850000 32)
    (hidx : ∀ e : S850000.Idx, 0 ≤ (idx e).toInt ∧ (idx e).toInt < 50000) :
    take12 h idx = Host.gather gather_S50000x12_S850000x1_S850000x12_1_0_n_n_0_1_112 h (idxCol idx) := by
  funext i
  unfold take12
  rw [select_apply]
  have hm : broadcastInDim S850000x12 ![0] bcast_S850000_S850000x12_0 (inRange idx) i = 1#1 := by
    unfold broadcastInDim
    exact inRange_eq_one idx hidx _
  rw [hm, select_one]

end Cert.KernelIdeal.KV

end
-- ==== Proof.KSmall.lean ====
/-
  Two small facts about the bias rows the dense stages take: a length-64 vector reshaped to one row is that vector
  laid out as a row, and the row of zeros added to every row of a product changes nothing.
-/
import proofs.«430148_j44306882625628_2_alg».proof.Proof.KStages
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.KV

open Cert.KernelIdeal Cert.KernelIdeal.Facts₀ Cert.KernelIdeal.Facts
open Idealize.ShloMosaic Idealize.ShloMosaic.ValueIdx

/-- A length-64 vector reshaped to a 1 × 64 row is that vector laid out as a row: entry `(0, q)` of the row has
    the same row-major position as entry `q` of the vector. -/
theorem reshape_row (v : FVec Ideal S64 .f32) :
    (shapeCast S1x64 v shapeCasts_S64_S1x64 : FVec Ideal S1x64 .f32) = Cert.Spec.asRow v := by
  funext j
  unfold Cert.Spec.asRow
  exact shapeCast_apply v shapeCasts_S64_S1x64 j (ix1 (Cert.Spec.colOf j))
    (by rewrite [Shape.rowMajor_val_two, Shape.rowMajor_val_one]
        have h0 : (j 0).val < 1 := (j 0).isLt
        show (j 1).val = (j 0).val * 64 + (j 1).val
        omega)

/-- Adding the all-zero bias row changes nothing: `x · w + 0 = x · w`.  The row is the zero scalar broadcast, which
    reads that scalar everywhere, and the zero word is the extended real `0`. -/
theorem linBias_zero (h : FVec Ideal S50000x64 .f32) (w : FVec Ideal S64x64 .f32) :
    Cert.Spec.linBias h w (broadcastInDim S1x64 ![] bcast_S_S1x64 (constant (F := Ideal) S_ .f32 0x00000000#32)) = Cert.Spec.dense h w := by
  funext i
  unfold Cert.Spec.linBias
  show Cert.Spec.dense h w i + broadcastInDim S1x64 ![] bcast_S_S1x64 (constant (F := Ideal) S_ .f32 0x00000000#32)
    (ix2 (0 : Fin 1) (Cert.Spec.colOf i)) = _
  rw [broadcastInDim_apply ![] bcast_S_S1x64 _ _ ix0 (fun a => a.elim0), constant_apply, Ideal.ofBits_zero_f32, add_zero]

end Cert.KernelIdeal.KV

end
-- ==== Proof.KAgg.lean ====
/-
  One message-passing step, named: the projected feature rows gathered (with the out-of-range guard) at every
  message's source, each weighted by the message's normalisation, and summed at the message's destination.
  With node numbers for sources the guard never fires and the step is the plain gather, weighting and scatter-add.
-/
import proofs.«430148_j44306882625628_2_alg».proof.Proof.KStages
import proofs.«430148_j44306882625628_2_alg».proof.Proof.TakeFill

noncomputable section

namespace Cert.KernelIdeal.KV

open Cert.KernelIdeal Cert.KernelIdeal.Facts₀ Cert.KernelIdeal.Facts
open Idealize.ShloMosaic

/-- The step on 64-wide rows. -/
def agg64 (h : FVec Ideal S50000x64 .f32) (idx dst : IVec S850000 32) (nrm : FVec Ideal S850000 .f32) :
    FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (mulf (broadcastInDim S850000x64 ![0, 1] bcast_S850000x1_S850000x64_0_1
        (broadcastInDim S850000x1 ![0] bcast_S850000_S850000x1_0 nrm)) (take64 h idx))

/-- The step on 12-wide rows. -/
def agg12 (h : FVec Ideal S50000x12 .f32) (idx dst : IVec S850000 32) (nrm : FVec Ideal S850000 .f32) :
    FVec Ideal S50000x12 .f32 :=
  Host.scatterAdd scatter_S50000x12_S850000x1_S850000x12_1_0_0_1
    (broadcastInDim S50000x12 ![] bcast_S_S50000x12 (constant (F := Ideal) S_ .f32 0x00000000#32))
    (broadcastInDim S850000x1 ![0] bcast_S850000_S850000x1_0 dst)
    (mulf (broadcastInDim S850000x12 ![0, 1] bcast_S850000x1_S850000x12_0_1
        (broadcastInDim S850000x1 ![0] bcast_S850000_S850000x1_0 nrm)) (take12 h idx))

/-- With node numbers for sources the guarded step is the plain one. -/
theorem agg64_eq (h : FVec Ideal S50000x64 .f32) (idx dst : IVec S850000 32) (nrm : FVec Ideal S850000 .f32)
    (hidx : ∀ e : S850000.Idx, 0 ≤ (idx e).toInt ∧ (idx e).toInt < 50000) :
    agg64 h idx dst nrm = Host.scatterAdd scatter_S50000x64_S850000x1_S850000x64_1_0_0_1
      (broadcastInDim S50000x64 ![] bcast_S_S50000x64 (constant (F := Ideal) S_ .f32 0x00000000#32))
      (broadcastInDim S850000x1 ![0] bcast_S850000_S850000x1_0 dst)
      (mulf (broadcastInDim S850000x64 ![0, 1] bcast_S850000x1_S850000x64_0_1
          (broadcastInDim S850000x1 ![0] bcast_S850000_S850000x1_0 nrm))
        (Host.gather gather_S50000x64_S850000x1_S850000x64_1_0_n_n_0_1_164 h (idxCol idx))) := by
  unfold agg64
  rw [take64_eq h idx hidx]

theorem agg12_eq (h : FVec Ideal S50000x12 .f32) (idx dst : IVec S850000 32) (nrm : FVec Ideal S850000 .f32)
    (hidx : ∀ e : S850000.Idx, 0 ≤ (idx e).toInt ∧ (idx e).toInt < 50000) :
    agg12 h idx dst nrm = Host.scatterAdd scatter_S50000x12_S850000x1_S850000x12_1_0_0_1
      (broadcastInDim S50000x12 ![] bcast_S_S50000x12 (constant (F := Ideal) S_ .f32 0x00000000#32))
      (broadcastInDim S850000x1 ![0] bcast_S850000_S850000x1_0 dst)
      (mulf (broadcastInDim S850000x12 ![0, 1] bcast_S850000x1_S850000x12_0_1
          (broadcastInDim S850000x1 ![0] bcast_S850000_S850000x1_0 nrm))
        (Host.gather gather_S50000x12_S850000x1_S850000x12_1_0_n_n_0_1_112 h (idxCol idx))) := by
  unfold agg12
  rw [take12_eq h idx hidx]

end Cert.KernelIdeal.KV

end
-- ==== Proof.RefDense.lean ====
import proofs.«430148_j44306882625628_2_alg».proof.Proof.Gen.ReferenceIdeal.Read
import proofs.«430148_j44306882625628_2_alg».proof.Proof.Spec
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.ValueIdx

variable (x0 : FVec Ideal S50000x16 .f32) (x1 : IVec S2x800000 32) (x2 : FVec Ideal S800000 .f32)
  (x3 : FVec Ideal S16x64 .f32) (x4 : FVec Ideal S64 .f32) (x5 : FVec Ideal S2x64x64 .f32)
  (x6 x7 x8 : FVec Ideal S2x64 .f32) (x9 : FVec Ideal S64x12 .f32)

/-! ## Index bookkeeping

Each stage of the reference reads its operands at an index composed from the result's index.  For a matrix product the
left operand is read at (row of the result, `k`) and the right at (`k`, column of the result); a bias vector that was
broadcast first to a `1 × c` row and then to every row is read at the result's column. -/

theorem lidx9_eq (i : S50000x64.Idx) (k : Fin 16) : lidx_main_v9 i k = ix2 (Cert.Spec.rowOf i) k :=
  funext fun a => Fin.ext (by match a with | ⟨0, _⟩ => rfl | ⟨1, _⟩ => rfl)
theorem ridx9_eq (i : S50000x64.Idx) (k : Fin 16) : ridx_main_v9 i k = ix2 k (Cert.Spec.colOf i) :=
  funext fun a => Fin.ext (by match a with | ⟨0, _⟩ => rfl | ⟨1, _⟩ => rfl)
theorem idx10_11_eq (i : S50000x64.Idx) :
    idx_main_v10 (idx_main_v11 i) = ix1 (Cert.Spec.colOf (n := 1) (c := 64) (ix2 (0 : Fin 1) (Cert.Spec.colOf i))) :=
  funext fun a => Fin.ext (by match a with | ⟨0, _⟩ => rfl)

theorem lidx20_eq (i : S50000x64.Idx) (k : Fin 64) : lidx_main_v20 i k = ix2 (Cert.Spec.rowOf i) k :=
  funext fun a => Fin.ext (by match a with | ⟨0, _⟩ => rfl | ⟨1, _⟩ => rfl)
theorem ridx20_eq (i : S50000x64.Idx) (k : Fin 64) : ridx_main_v20 i k = ix2 k (Cert.Spec.colOf i) :=
  funext fun a => Fin.ext (by match a with | ⟨0, _⟩ => rfl | ⟨1, _⟩ => rfl)
theorem lidx78_eq (i : S50000x64.Idx) (k : Fin 64) : lidx_main_v78 i k = ix2 (Cert.Spec.rowOf i) k :=
  funext fun a => Fin.ext (by match a with | ⟨0, _⟩ => rfl | ⟨1, _⟩ => rfl)
theorem ridx78_eq (i : S50000x64.Idx) (k : Fin 64) : ridx_main_v78 i k = ix2 k (Cert.Spec.colOf i) :=
  funext fun a => Fin.ext (by match a with | ⟨0, _⟩ => rfl | ⟨1, _⟩ => rfl)
theorem lidx132_eq (i : S50000x12.Idx) (k : Fin 64) : lidx_main_v132 i k = ix2 (Cert.Spec.rowOf i) k :=
  funext fun a => Fin.ext (by match a with | ⟨0, _⟩ => rfl | ⟨1, _⟩ => rfl)
theorem ridx132_eq (i : S50000x12.Idx) (k : Fin 64) : ridx_main_v132 i k = ix2 k (Cert.Spec.colOf i) :=
  funext fun a => Fin.ext (by match a with | ⟨0, _⟩ => rfl | ⟨1, _⟩ => rfl)

/-- A vector broadcast to a `1 × 64` row and then down the 50000 rows is read under the result's column.  All the
    row-broadcast pairs of the two normalisation stages compose to this one index. -/
theorem idx57_58_eq (i : S50000x64.Idx) :
    idx_main_v57 (idx_main_v58 i) = ix1 (Cert.Spec.colOf (n := 1) (c := 64) (ix2 (0 : Fin 1) (Cert.Spec.colOf i))) :=
  funext fun a => Fin.ext (by match a with | ⟨0, _⟩ => rfl)
theorem idx64_65_eq (i : S50000x64.Idx) :
    idx_main_v64 (idx_main_v65 i) = ix1 (Cert.Spec.colOf (n := 1) (c := 64) (ix2 (0 : Fin 1) (Cert.Spec.colOf i))) :=
  funext fun a => Fin.ext (by match a with | ⟨0, _⟩ => rfl)
theorem idx69_70_eq (i : S50000x64.Idx) :
    idx_main_v69 (idx_main_v70 i) = ix1 (Cert.Spec.colOf (n := 1) (c := 64) (ix2 (0 : Fin 1) (Cert.Spec.colOf i))) :=
  funext fun a => Fin.ext (by match a with | ⟨0, _⟩ => rfl)
theorem idx115_116_eq (i : S50000x64.Idx) :
    idx_main_v115 (idx_main_v116 i) = ix1 (Cert.Spec.colOf (n := 1) (c := 64) (ix2 (0 : Fin 1) (Cert.Spec.colOf i))) :=
  funext fun a => Fin.ext (by match a with | ⟨0, _⟩ => rfl)
theorem idx122_123_eq (i : S50000x64.Idx) :
    idx_main_v122 (idx_main_v123 i) = ix1 (Cert.Spec.colOf (n := 1) (c := 64) (ix2 (0 : Fin 1) (Cert.Spec.colOf i))) :=
  funext fun a => Fin.ext (by match a with | ⟨0, _⟩ => rfl)
theorem idx127_128_eq (i : S50000x64.Idx) :
    idx_main_v127 (idx_main_v128 i) = ix1 (Cert.Spec.colOf (n := 1) (c := 64) (ix2 (0 : Fin 1) (Cert.Spec.colOf i))) :=
  funext fun a => Fin.ext (by match a with | ⟨0, _⟩ => rfl)

/-! ## The normalisation stage on abstract arrays

The reference adds the convolution bias `β` to the aggregate, scales by `s` and adds the shift `γ`.  For finite `β` and
`s` the product distributes, `(a + β) · s = a · s + β · s`, so the stage is the folded affine map with shift row
`β · s + γ`, computed once on the three length-64 vectors. -/

/-- The shift row of the folded form, entry by entry, is the row of the vector `β · s + γ`. -/
theorem asRow_fold (β s γ : FVec Ideal S64 .f32) :
    (fun j => Cert.Spec.asRow β j * Cert.Spec.asRow s j + Cert.Spec.asRow γ j)
      = Cert.Spec.asRow (addf (mulf β s) γ : FVec Ideal S64 .f32) := by
  funext j
  unfold Cert.Spec.asRow
  rw [addf_apply, mulf_apply]

/-- The stage as the reference spells it equals the folded stage, for a finite bias vector and a finite scale vector. -/
theorem bnStage_eq {n : Nat} (a h : (Cert.Spec.Sh n 64).Idx → EReal) (β s γ : FVec Ideal S64 .f32)
    (hβ : ∀ j, ∃ r : ℝ, β j = (r : EReal)) (hs : ∀ j, ∃ r : ℝ, s j = (r : EReal)) :
    Cert.Spec.bnResUnfolded a h (Cert.Spec.asRow β) (Cert.Spec.asRow s) (Cert.Spec.asRow γ)
      = Cert.Spec.bnRes a h (Cert.Spec.asRow s) (Cert.Spec.asRow (addf (mulf β s) γ : FVec Ideal S64 .f32)) := by
  rw [Cert.Spec.bnResUnfolded_eq a h (Cert.Spec.asRow β) (Cert.Spec.asRow s) (Cert.Spec.asRow γ)
    (fun j => hβ _) (fun j => hs _)]
  exact congrArg (Cert.Spec.bnRes a h (Cert.Spec.asRow s)) (asRow_fold β s γ)

/-- The reference's input projection and rectifier is `max (x · W + b) 0`. -/
theorem h0_eq : val_main_v13 (F := Ideal) x0 x3 x4 = Cert.Spec.linRelu x0 x3 (Cert.Spec.asRow x4) := by
  funext i
  rw [val_main_v13_apply, val_main_v12_apply, val_main_v9_apply, val_main_v11_apply, val_main_v10_apply,
    val_main_call0_v0_apply, val_main_call0_cst_apply]
  unfold Cert.Spec.linRelu Cert.Spec.dense Cert.Spec.asRow
  simp only [Ideal.addf_def, Ideal.maximumf_def, Ideal.ofBits_def, Ideal.ofBits_zero_f32, lidx9_eq, ridx9_eq, idx10_11_eq]

/-- The first convolution's projection is the matrix product of the hidden matrix with the first weight slice. -/
theorem p0_eq : val_main_v20 (F := Ideal) x0 x3 x4 x5
    = Cert.Spec.dense (val_main_v13 (F := Ideal) x0 x3 x4) (val_main_v17 (F := Ideal) x5) := by
  funext i
  rw [val_main_v20_apply]
  unfold Cert.Spec.dense
  simp only [lidx20_eq, ridx20_eq]

/-- Layer 0's bias, normalisation, rectifier and residual in the folded form `max (a · s + (β · s + γ)) 0 + h`, for a
    finite bias `β` and a finite scale `s` (the reference adds `β` to the aggregate before it scales). -/
theorem h1_eq (hβ : ∀ j, ∃ r : ℝ, val_main_v19 (F := Ideal) x6 j = (r : EReal))
    (hs : ∀ j, ∃ r : ℝ, val_main_v63 (F := Ideal) x7 j = (r : EReal)) :
    val_main_v73 (F := Ideal) x0 x1 x2 x3 x4 x5 x6 x7 x8
      = Cert.Spec.bnRes (val_main_v56 (F := Ideal) x0 x1 x2 x3 x4 x5) (val_main_v13 (F := Ideal) x0 x3 x4)
          (Cert.Spec.asRow (val_main_v63 (F := Ideal) x7))
          (Cert.Spec.asRow ((addf (mulf (val_main_v19 (F := Ideal) x6) (val_main_v63 (F := Ideal) x7)) (val_main_v68 (F := Ideal) x8) : FVec Ideal S64 .f32))) := by
  refine Eq.trans ?_ (bnStage_eq _ _ _ _ _ hβ hs)
  funext i
  rw [val_main_v73_apply, val_main_v72_apply, val_main_v71_apply, val_main_v66_apply, val_main_v59_apply,
    val_main_v58_apply, val_main_v57_apply, val_main_v65_apply, val_main_v64_apply, val_main_v70_apply,
    val_main_v69_apply, val_main_call2_v0_apply, val_main_call2_cst_apply]
  unfold Cert.Spec.bnResUnfolded Cert.Spec.asRow
  simp only [Ideal.addf_def, Ideal.mulf_def, Ideal.maximumf_def, Ideal.ofBits_def, Ideal.ofBits_zero_f32,
    idx57_58_eq, idx64_65_eq, idx69_70_eq]

/-- The second convolution's projection. -/
theorem p1_eq : val_main_v78 (F := Ideal) x0 x1 x2 x3 x4 x5 x6 x7 x8
    = Cert.Spec.dense (val_main_v73 (F := Ideal) x0 x1 x2 x3 x4 x5 x6 x7 x8) (val_main_v75 (F := Ideal) x5) := by
  funext i
  rw [val_main_v78_apply]
  unfold Cert.Spec.dense
  simp only [lidx78_eq, ridx78_eq]

/-- Layer 1's bias, normalisation, rectifier and residual in the folded form. -/
theorem h2_eq (hβ : ∀ j, ∃ r : ℝ, val_main_v77 (F := Ideal) x6 j = (r : EReal))
    (hs : ∀ j, ∃ r : ℝ, val_main_v121 (F := Ideal) x7 j = (r : EReal)) :
    val_main_v131 (F := Ideal) x0 x1 x2 x3 x4 x5 x6 x7 x8
      = Cert.Spec.bnRes (val_main_v114 (F := Ideal) x0 x1 x2 x3 x4 x5 x6 x7 x8) (val_main_v73 (F := Ideal) x0 x1 x2 x3 x4 x5 x6 x7 x8)
          (Cert.Spec.asRow (val_main_v121 (F := Ideal) x7))
          (Cert.Spec.asRow ((addf (mulf (val_main_v77 (F := Ideal) x6) (val_main_v121 (F := Ideal) x7)) (val_main_v126 (F := Ideal) x8) : FVec Ideal S64 .f32))) := by
  refine Eq.trans ?_ (bnStage_eq _ _ _ _ _ hβ hs)
  funext i
  rw [val_main_v131_apply, val_main_v130_apply, val_main_v129_apply, val_main_v124_apply, val_main_v117_apply,
    val_main_v116_apply, val_main_v115_apply, val_main_v123_apply, val_main_v122_apply, val_main_v128_apply,
    val_main_v127_apply, val_main_call4_v0_apply, val_main_call4_cst_apply]
  unfold Cert.Spec.bnResUnfolded Cert.Spec.asRow
  simp only [Ideal.addf_def, Ideal.mulf_def, Ideal.maximumf_def, Ideal.ofBits_def, Ideal.ofBits_zero_f32,
    idx115_116_eq, idx122_123_eq, idx127_128_eq]

/-- The output projection. -/
theorem pout_eq : val_main_v132 (F := Ideal) x0 x1 x2 x3 x4 x5 x6 x7 x8 x9
    = Cert.Spec.dense (val_main_v131 (F := Ideal) x0 x1 x2 x3 x4 x5 x6 x7 x8) x9 := by
  funext i
  rw [val_main_v132_apply]
  unfold Cert.Spec.dense
  simp only [lidx132_eq, ridx132_eq]

end Cert.ReferenceIdeal.RefValue

end
-- ==== Proof.RefFacts.lean ====
/-
  Two families of facts about the reference program.

  The message normalisation.  Before each of its three convolutions the reference recomputes, by the same operations
  under new stage names, the symmetric normalisation of the edge weights: the degree of every node (a scatter-add of
  the weights over the target nodes), its inverse square root where the degree is positive, that factor gathered at
  the two ends of every edge, and the product source factor · weight · target factor.  The three copies are one
  function of the edge list and the weights.  Each copy is compared with the first stage by stage, from the constants
  up, so that no stage is ever opened further than its own defining equation.

  Finiteness.  The bias vector of a convolution is a row of a finite parameter array, so it is finite.  The scale
  vector of a normalisation is a row of a finite parameter array times the scalar `1 / √(1 + ε)`; `1` and `ε` are
  positive reals, so the scalar is a real, and a product of two reals is a real.
-/
import proofs.«430148_j44306882625628_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx

/-! ## The second copy of the normalisation, stage by stage against the first -/

theorem second_cst_2 : val_main_cst_11 (F := Ideal) = val_main_cst_2 (F := Ideal) := by
  unfold val_main_cst_11 val_main_cst_2
  rfl
theorem second_v21 : val_main_v79 (F := Ideal) = val_main_v21 (F := Ideal) := by
  unfold val_main_v79 val_main_v21
  rw [second_cst_2]
theorem second_v22 (x1 : IVec S2x800000 32) : val_main_v80 (F := Ideal) x1 = val_main_v22 (F := Ideal) x1 := by
  unfold val_main_v80 val_main_v22
  rfl
/-- The node degrees: the scatter-add of the edge weights (with the self-loop weights) over the target nodes. -/
theorem second_v23 (x1 : IVec S2x800000 32) (x2 : FVec Ideal S800000 .f32) : val_main_v81 (F := Ideal) x1 x2 = val_main_v23 (F := Ideal) x1 x2 := by
  unfold val_main_v81 val_main_v23
  rw [second_v21, second_v22]
theorem second_cst_3 : val_main_cst_12 (F := Ideal) = val_main_cst_3 (F := Ideal) := by
  unfold val_main_cst_12 val_main_cst_3
  rfl
theorem second_v24 : val_main_v82 (F := Ideal) = val_main_v24 (F := Ideal) := by
  unfold val_main_v82 val_main_v24
  rw [second_cst_3]
theorem second_v25 (x1 : IVec S2x800000 32) (x2 : FVec Ideal S800000 .f32) : val_main_v83 (F := Ideal) x1 x2 = val_main_v25 (F := Ideal) x1 x2 := by
  unfold val_main_v83 val_main_v25
  rw [second_v23, second_v24]
theorem second_v26 (x1 : IVec S2x800000 32) (x2 : FVec Ideal S800000 .f32) : val_main_v84 (F := Ideal) x1 x2 = val_main_v26 (F := Ideal) x1 x2 := by
  unfold val_main_v84 val_main_v26
  rw [second_v23]
theorem second_cst_4 : val_main_cst_13 (F := Ideal) = val_main_cst_4 (F := Ideal) := by
  unfold val_main_cst_13 val_main_cst_4
  rfl
theorem second_call1_v0 : val_main_call3_v0 (F := Ideal) = val_main_call1_v0 (F := Ideal) := by
  unfold val_main_call3_v0 val_main_call1_v0
  rw [second_cst_4]
theorem second_call1_v1 : val_main_call3_v1 (F := Ideal) = val_main_call1_v1 (F := Ideal) := by
  unfold val_main_call3_v1 val_main_call1_v1
  rw [second_call1_v0]
/-- The inverse square root of the degree where the degree is positive, zero elsewhere. -/
theorem second_v27 (x1 : IVec S2x800000 32) (x2 : FVec Ideal S800000 .f32) : val_main_v85 (F := Ideal) x1 x2 = val_main_v27 (F := Ideal) x1 x2 := by
  unfold val_main_v85 val_main_v27
  rw [second_v25, second_v26, second_call1_v1]
theorem second_c : val_main_c_14 (F := Ideal) = val_main_c (F := Ideal) := by
  unfold val_main_c_14 val_main_c
  rfl
theorem second_v28 : val_main_v86 (F := Ideal) = val_main_v28 (F := Ideal) := by
  unfold val_main_v86 val_main_v28
  rw [second_c]
theorem second_v29 (x1 : IVec S2x800000 32) : val_main_v87 (F := Ideal) x1 = val_main_v29 (F := Ideal) x1 := by
  unfold val_main_v87 val_main_v29
  rw [second_v28]
theorem second_c_5 : val_main_c_15 (F := Ideal) = val_main_c_5 (F := Ideal) := by
  unfold val_main_c_15 val_main_c_5
  rfl
theorem second_v30 : val_main_v88 (F := Ideal) = val_main_v30 (F := Ideal) := by
  unfold val_main_v88 val_main_v30
  rw [second_c_5]
theorem second_v31 (x1 : IVec S2x800000 32) : val_main_v89 (F := Ideal) x1 = val_main_v31 (F := Ideal) x1 := by
  unfold val_main_v89 val_main_v31
  rw [second_v30]
theorem second_v32 (x1 : IVec S2x800000 32) : val_main_v90 (F := Ideal) x1 = val_main_v32 (F := Ideal) x1 := by
  unfold val_main_v90 val_main_v32
  rw [second_v29, second_v31]
theorem second_v33 (x1 : IVec S2x800000 32) : val_main_v91 (F := Ideal) x1 = val_main_v33 (F := Ideal) x1 := by
  unfold val_main_v91 val_main_v33
  rw [second_v32]
/-- That factor gathered at each edge's source node (a negative index wrapped by the number of nodes). -/
theorem second_v34 (x1 : IVec S2x800000 32) (x2 : FVec Ideal S800000 .f32) : val_main_v92 (F := Ideal) x1 x2 = val_main_v34 (F := Ideal) x1 x2 := by
  unfold val_main_v92 val_main_v34
  rw [second_v27, second_v33]
/-- … times the edge weight. -/
theorem second_v35 (x1 : IVec S2x800000 32) (x2 : FVec Ideal S800000 .f32) : val_main_v93 (F := Ideal) x1 x2 = val_main_v35 (F := Ideal) x1 x2 := by
  unfold val_main_v93 val_main_v35
  rw [second_v34]
theorem second_c_6 : val_main_c_16 (F := Ideal) = val_main_c_6 (F := Ideal) := by
  unfold val_main_c_16 val_main_c_6
  rfl
theorem second_v36 : val_main_v94 (F := Ideal) = val_main_v36 (F := Ideal) := by
  unfold val_main_v94 val_main_v36
  rw [second_c_6]
theorem second_v37 (x1 : IVec S2x800000 32) : val_main_v95 (F := Ideal) x1 = val_main_v37 (F := Ideal) x1 := by
  unfold val_main_v95 val_main_v37
  rw [second_v36]
theorem second_c_7 : val_main_c_17 (F := Ideal) = val_main_c_7 (F := Ideal) := by
  unfold val_main_c_17 val_main_c_7
  rfl
theorem second_v38 : val_main_v96 (F := Ideal) = val_main_v38 (F := Ideal) := by
  unfold val_main_v96 val_main_v38
  rw [second_c_7]
theorem second_v39 (x1 : IVec S2x800000 32) : val_main_v97 (F := Ideal) x1 = val_main_v39 (F := Ideal) x1 := by
  unfold val_main_v97 val_main_v39
  rw [second_v38]
theorem second_v40 (x1 : IVec S2x800000 32) : val_main_v98 (F := Ideal) x1 = val_main_v40 (F := Ideal) x1 := by
  unfold val_main_v98 val_main_v40
  rw [second_v37, second_v39]
theorem second_v41 (x1 : IVec S2x800000 32) : val_main_v99 (F := Ideal) x1 = val_main_v41 (F := Ideal) x1 := by
  unfold val_main_v99 val_main_v41
  rw [second_v40]
/-- The same factor gathered at each edge's target node. -/
theorem second_v42 (x1 : IVec S2x800000 32) (x2 : FVec Ideal S800000 .f32) : val_main_v100 (F := Ideal) x1 x2 = val_main_v42 (F := Ideal) x1 x2 := by
  unfold val_main_v100 val_main_v42
  rw [second_v27, second_v41]
/-- The normalised edge weight: source factor · weight · target factor. -/
theorem second_v43 (x1 : IVec S2x800000 32) (x2 : FVec Ideal S800000 .f32) : val_main_v101 (F := Ideal) x1 x2 = val_main_v43 (F := Ideal) x1 x2 := by
  unfold val_main_v101 val_main_v43
  rw [second_v35, second_v42]

/-- The second copy of the normalised edge weights is the first. -/
theorem norm2_eq (x1 : IVec S2x800000 32) (x2 : FVec Ideal S800000 .f32) :
    val_main_v101 (F := Ideal) x1 x2 = val_main_v43 (F := Ideal) x1 x2 := second_v43 x1 x2

/-! ## The third copy, stage by stage against the first -/

theorem third_cst_2 : val_main_cst_21 (F := Ideal) = val_main_cst_2 (F := Ideal) := by
  unfold val_main_cst_21 val_main_cst_2
  rfl
theorem third_v21 : val_main_v133 (F := Ideal) = val_main_v21 (F := Ideal) := by
  unfold val_main_v133 val_main_v21
  rw [third_cst_2]
theorem third_v22 (x1 : IVec S2x800000 32) : val_main_v134 (F := Ideal) x1 = val_main_v22 (F := Ideal) x1 := by
  unfold val_main_v134 val_main_v22
  rfl
theorem third_v23 (x1 : IVec S2x800000 32) (x2 : FVec Ideal S800000 .f32) : val_main_v135 (F := Ideal) x1 x2 = val_main_v23 (F := Ideal) x1 x2 := by
  unfold val_main_v135 val_main_v23
  rw [third_v21, third_v22]
theorem third_cst_3 : val_main_cst_22 (F := Ideal) = val_main_cst_3 (F := Ideal) := by
  unfold val_main_cst_22 val_main_cst_3
  rfl
theorem third_v24 : val_main_v136 (F := Ideal) = val_main_v24 (F := Ideal) := by
  unfold val_main_v136 val_main_v24
  rw [third_cst_3]
theorem third_v25 (x1 : IVec S2x800000 32) (x2 : FVec Ideal S800000 .f32) : val_main_v137 (F := Ideal) x1 x2 = val_main_v25 (F := Ideal) x1 x2 := by
  unfold val_main_v137 val_main_v25
  rw [third_v23, third_v24]
theorem third_v26 (x1 : IVec S2x800000 32) (x2 : FVec Ideal S800000 .f32) : val_main_v138 (F := Ideal) x1 x2 = val_main_v26 (F := Ideal) x1 x2 := by
  unfold val_main_v138 val_main_v26
  rw [third_v23]
theorem third_cst_4 : val_main_cst_23 (F := Ideal) = val_main_cst_4 (F := Ideal) := by
  unfold val_main_cst_23 val_main_cst_4
  rfl
theorem third_call1_v0 : val_main_call5_v0 (F := Ideal) = val_main_call1_v0 (F := Ideal) := by
  unfold val_main_call5_v0 val_main_call1_v0
  rw [third_cst_4]
theorem third_call1_v1 : val_main_call5_v1 (F := Ideal) = val_main_call1_v1 (F := Ideal) := by
  unfold val_main_call5_v1 val_main_call1_v1
  rw [third_call1_v0]
theorem third_v27 (x1 : IVec S2x800000 32) (x2 : FVec Ideal S800000 .f32) : val_main_v139 (F := Ideal) x1 x2 = val_main_v27 (F := Ideal) x1 x2 := by
  unfold val_main_v139 val_main_v27
  rw [third_v25, third_v26, third_call1_v1]
theorem third_c : val_main_c_24 (F := Ideal) = val_main_c (F := Ideal) := by
  unfold val_main_c_24 val_main_c
  rfl
theorem third_v28 : val_main_v140 (F := Ideal) = val_main_v28 (F := Ideal) := by
  unfold val_main_v140 val_main_v28
  rw [third_c]
theorem third_v29 (x1 : IVec S2x800000 32) : val_main_v141 (F := Ideal) x1 = val_main_v29 (F := Ideal) x1 := by
  unfold val_main_v141 val_main_v29
  rw [third_v28]
theorem third_c_5 : val_main_c_25 (F := Ideal) = val_main_c_5 (F := Ideal) := by
  unfold val_main_c_25 val_main_c_5
  rfl
theorem third_v30 : val_main_v142 (F := Ideal) = val_main_v30 (F := Ideal) := by
  unfold val_main_v142 val_main_v30
  rw [third_c_5]
theorem third_v31 (x1 : IVec S2x800000 32) : val_main_v143 (F := Ideal) x1 = val_main_v31 (F := Ideal) x1 := by
  unfold val_main_v143 val_main_v31
  rw [third_v30]
theorem third_v32 (x1 : IVec S2x800000 32) : val_main_v144 (F := Ideal) x1 = val_main_v32 (F := Ideal) x1 := by
  unfold val_main_v144 val_main_v32
  rw [third_v29, third_v31]
theorem third_v33 (x1 : IVec S2x800000 32) : val_main_v145 (F := Ideal) x1 = val_main_v33 (F := Ideal) x1 := by
  unfold val_main_v145 val_main_v33
  rw [third_v32]
theorem third_v34 (x1 : IVec S2x800000 32) (x2 : FVec Ideal S800000 .f32) : val_main_v146 (F := Ideal) x1 x2 = val_main_v34 (F := Ideal) x1 x2 := by
  unfold val_main_v146 val_main_v34
  rw [third_v27, third_v33]
theorem third_v35 (x1 : IVec S2x800000 32) (x2 : FVec Ideal S800000 .f32) : val_main_v147 (F := Ideal) x1 x2 = val_main_v35 (F := Ideal) x1 x2 := by
  unfold val_main_v147 val_main_v35
  rw [third_v34]
theorem third_c_6 : val_main_c_26 (F := Ideal) = val_main_c_6 (F := Ideal) := by
  unfold val_main_c_26 val_main_c_6
  rfl
theorem third_v36 : val_main_v148 (F := Ideal) = val_main_v36 (F := Ideal) := by
  unfold val_main_v148 val_main_v36
  rw [third_c_6]
theorem third_v37 (x1 : IVec S2x800000 32) : val_main_v149 (F := Ideal) x1 = val_main_v37 (F := Ideal) x1 := by
  unfold val_main_v149 val_main_v37
  rw [third_v36]
theorem third_c_7 : val_main_c_27 (F := Ideal) = val_main_c_7 (F := Ideal) := by
  unfold val_main_c_27 val_main_c_7
  rfl
theorem third_v38 : val_main_v150 (F := Ideal) = val_main_v38 (F := Ideal) := by
  unfold val_main_v150 val_main_v38
  rw [third_c_7]
theorem third_v39 (x1 : IVec S2x800000 32) : val_main_v151 (F := Ideal) x1 = val_main_v39 (F := Ideal) x1 := by
  unfold val_main_v151 val_main_v39
  rw [third_v38]
theorem third_v40 (x1 : IVec S2x800000 32) : val_main_v152 (F := Ideal) x1 = val_main_v40 (F := Ideal) x1 := by
  unfold val_main_v152 val_main_v40
  rw [third_v37, third_v39]
theorem third_v41 (x1 : IVec S2x800000 32) : val_main_v153 (F := Ideal) x1 = val_main_v41 (F := Ideal) x1 := by
  unfold val_main_v153 val_main_v41
  rw [third_v40]
theorem third_v42 (x1 : IVec S2x800000 32) (x2 : FVec Ideal S800000 .f32) : val_main_v154 (F := Ideal) x1 x2 = val_main_v42 (F := Ideal) x1 x2 := by
  unfold val_main_v154 val_main_v42
  rw [third_v27, third_v41]
theorem third_v43 (x1 : IVec S2x800000 32) (x2 : FVec Ideal S800000 .f32) : val_main_v155 (F := Ideal) x1 x2 = val_main_v43 (F := Ideal) x1 x2 := by
  unfold val_main_v155 val_main_v43
  rw [third_v35, third_v42]

/-- The third copy of the normalised edge weights is the first. -/
theorem norm3_eq (x1 : IVec S2x800000 32) (x2 : FVec Ideal S800000 .f32) :
    val_main_v155 (F := Ideal) x1 x2 = val_main_v43 (F := Ideal) x1 x2 := third_v43 x1 x2

/-! ## Finiteness of the bias and scale vectors -/

/-- The word of `1.0` is the real one. -/
theorem one_real : Ideal.ofBits .f32 0x3F800000#32 = ((1 : ℝ) : EReal) := by
  simp [Ideal.ofBits, Ideal.ieee, -EReal.coe_mul]
  norm_num

/-- The word of the normalisation's `ε` (about `10⁻⁵`) is the real `10995116 · 2⁻⁴⁰`: exponent field 110, fraction
    field 2606508. -/
theorem eps_real : Ideal.ofBits .f32 0x3727C5AC#32 = ((10995116 * (2 : ℝ) ^ (-40 : ℤ) : ℝ) : EReal) := by
  simp [Ideal.ofBits, Ideal.ieee, -EReal.coe_mul]

/-- The inverse square root of a positive real is a real. -/
theorem rsqrt_pos_real (p : ℝ) (hp : 0 < p) : Ideal.rsqrt (p : EReal) = (((Real.sqrt p)⁻¹ : ℝ) : EReal) := by
  rw [Ideal.rsqrt_coe, if_neg (not_lt.mpr hp.le), if_neg (ne_of_gt hp)]

/-- The scalar `1 / √(1 + ε)` of the evaluation-mode normalisation is a real. -/
theorem v15_real (i : S_.Idx) : ∃ r : ℝ, val_main_v15 (F := Ideal) i = (r : EReal) := by
  rw [val_main_v15_apply, val_main_v14_apply, val_main_cst_0_apply, val_main_cst_1_apply,
    Ideal.hostUnary_rsqrt_def, Ideal.addf_def, Ideal.ofBits_def, Ideal.ofBits_def, one_real, eps_real,
    ← EReal.coe_add, rsqrt_pos_real _ (by positivity)]
  exact ⟨_, rfl⟩

/-- Layer 0's bias vector is row 0 of the bias array. -/
theorem v19_finite (x6 : FVec Ideal S2x64 .f32) (h : ∀ i : S2x64.Idx, ∃ r : ℝ, x6 i = (r : EReal)) :
    ∀ j, ∃ r : ℝ, val_main_v19 (F := Ideal) x6 j = (r : EReal) := by
  intro j
  rw [val_main_v19_apply, val_main_v18_apply]
  exact h _

/-- Layer 1's bias vector is row 1 of the bias array. -/
theorem v77_finite (x6 : FVec Ideal S2x64 .f32) (h : ∀ i : S2x64.Idx, ∃ r : ℝ, x6 i = (r : EReal)) :
    ∀ j, ∃ r : ℝ, val_main_v77 (F := Ideal) x6 j = (r : EReal) := by
  intro j
  rw [val_main_v77_apply, val_main_v76_apply]
  exact h _

/-- Layer 0's scale vector is row 0 of the scale array times the real scalar. -/
theorem v63_finite (x7 : FVec Ideal S2x64 .f32) (h : ∀ i : S2x64.Idx, ∃ r : ℝ, x7 i = (r : EReal)) :
    ∀ j, ∃ r : ℝ, val_main_v63 (F := Ideal) x7 j = (r : EReal) := by
  intro j
  rw [val_main_v63_apply, val_main_v61_apply, val_main_v60_apply, val_main_v62_apply]
  obtain ⟨a, ha⟩ := h (idx_main_v60 (idx_main_v61 j))
  obtain ⟨c, hc⟩ := v15_real (idx_main_v62 j)
  rw [ha, hc, Ideal.mulf_def, ← EReal.coe_mul]
  exact ⟨_, rfl⟩

/-- Layer 1's scale vector is row 1 of the scale array times the real scalar. -/
theorem v121_finite (x7 : FVec Ideal S2x64 .f32) (h : ∀ i : S2x64.Idx, ∃ r : ℝ, x7 i = (r : EReal)) :
    ∀ j, ∃ r : ℝ, val_main_v121 (F := Ideal) x7 j = (r : EReal) := by
  intro j
  rw [val_main_v121_apply, val_main_v119_apply, val_main_v118_apply, val_main_v120_apply]
  obtain ⟨a, ha⟩ := h (idx_main_v118 (idx_main_v119 j))
  obtain ⟨c, hc⟩ := v15_real (idx_main_v120 j)
  rw [ha, hc, Ideal.mulf_def, ← EReal.coe_mul]
  exact ⟨_, rfl⟩

end Cert.ReferenceIdeal.RefValue

end
-- ==== Proof.Region0.lean ====
import proofs.«430148_j44306882625628_2_alg».proof.Proof.Gen.KernelIdeal.Frame
import proofs.«430148_j44306882625628_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The block product at an index

The contraction of the [5000×16] block with the [16×64] weights runs over the block's columns, which are the
weights' rows.  Of an output index `(r, q)` the left operand is read at `(r, k)` and the right one at `(k, q)`;
the four coordinate facts below say so axis by axis. -/

theorem lhs_row (i : S5000x64.Idx) (k : dot_S5000x16_S16x64_S5000x64_1_0_0_1_n_n.contr.Idx) :
    (dot_S5000x16_S16x64_S5000x64_1_0_0_1_n_n.lhsIdx i k 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
theorem lhs_col (i : S5000x64.Idx) (k : dot_S5000x16_S16x64_S5000x64_1_0_0_1_n_n.contr.Idx) :
    (dot_S5000x16_S16x64_S5000x64_1_0_0_1_n_n.lhsIdx i k 1).val = (k ⟨0, by decide⟩).val :=
  dot_S5000x16_S16x64_S5000x64_1_0_0_1_n_n.lhsIdx_val_of_single rfl i k
theorem rhs_row (i : S5000x64.Idx) (k : dot_S5000x16_S16x64_S5000x64_1_0_0_1_n_n.contr.Idx) :
    (dot_S5000x16_S16x64_S5000x64_1_0_0_1_n_n.rhsIdx i k 0).val = (k ⟨0, by decide⟩).val :=
  dot_S5000x16_S16x64_S5000x64_1_0_0_1_n_n.rhsIdx_val_of_single rfl i k
theorem rhs_col (i : S5000x64.Idx) (k : dot_S5000x16_S16x64_S5000x64_1_0_0_1_n_n.contr.Idx) :
    (dot_S5000x16_S16x64_S5000x64_1_0_0_1_n_n.rhsIdx i k 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The product of a block with the weights into a zero accumulator, at `(p, q)`: the sum over the sixteen
    columns `j` of the block's `(p, j)` times the weights' `(j, q)`. -/
theorem product_apply (a : FVec Ideal S5000x16 .bf16) (w : FVec Ideal S16x64 .bf16) (p : Fin 5000) (q : Fin 64) :
    matmul dot_S5000x16_S16x64_S5000x64_1_0_0_1_n_n none a w (constant S5000x64 .f32 0x00000000#32) (ix2 p q)
      = ∑ j : Fin 16, a (ix2 p j) * w (ix2 j q) := by
  simp only [matmul]
  rw [Ideal.matmul_constant_zero_apply, ← Equiv.sum_comp (ValueIdx.contrEquiv1 dot_S5000x16_S16x64_S5000x64_1_0_0_1_n_n 16 rfl rfl).symm]
  refine Finset.sum_congr rfl fun j _ => ?_
  have hj := ValueIdx.contrEquiv1_symm_val dot_S5000x16_S16x64_S5000x64_1_0_0_1_n_n 16 rfl rfl j
  have el : dot_S5000x16_S16x64_S5000x64_1_0_0_1_n_n.lhsIdx (ix2 p q) ((ValueIdx.contrEquiv1 dot_S5000x16_S16x64_S5000x64_1_0_0_1_n_n 16 rfl rfl).symm j) = ix2 p j := funext fun a => Fin.ext (by
    match a with
    | ⟨0, _⟩ => exact lhs_row _ _
    | ⟨1, _⟩ => exact (lhs_col _ _).trans hj)
  have er : dot_S5000x16_S16x64_S5000x64_1_0_0_1_n_n.rhsIdx (ix2 p q) ((ValueIdx.contrEquiv1 dot_S5000x16_S16x64_S5000x64_1_0_0_1_n_n 16 rfl rfl).symm j) = ix2 j q := funext fun a => Fin.ext (by
    match a with
    | ⟨0, _⟩ => exact (rhs_row _ _).trans hj
    | ⟨1, _⟩ => exact rhs_col _ _)
  rw [el, er]

/-- What the body stores at `(p, q)` of its output block: the product's entry plus the bias under column `q`,
    rectified.  The changes of float format are the identity on the extended reals and the shape cast is to the
    same shape. -/
theorem payload_apply (x0 : Vec Ideal S5000x16 .f32) (x1 : Vec Ideal S16x64 .f32) (x2 : Vec Ideal S1x64 .f32)
    (p : Fin 5000) (q : Fin 64) :
    k0_pay1 x0 x1 x2 (ix2 p q) = max ((∑ j : Fin 16, x0 (ix2 p j) * x1 (ix2 j q)) + x2 (ix2 (0 : Fin 1) q)) 0 := by
  unfold k0_pay1
  rw [maximumf_apply, addf_apply, broadcast_apply, product_apply, shapeCast_self, broadcastTo_1b_ab_apply]
  show max ((∑ j : Fin 16, x0 (ix2 p j) * x1 (ix2 j q)) + x2 (ix2 (0 : Fin 1) q)) (Ideal.ofBits .f32 0x00000000#32) = _
  rw [Ideal.ofBits_zero_f32]

/-! ## One entry of a point's output block

Stated over a block of node features `x0`, the weights `x1` and the bias row `x2` as the body loads them, against
whole arrays `A`, `W`, `B`: if row `p` of the block is row `r` of `A`, and the weights and the bias are `W` and
`B` under column `q`, the body's entry `(p, q)` is the projection's entry at any array index of row `r`, column `q`. -/

theorem block_entry (x0 : Vec Ideal S5000x16 .f32) (x1 : Vec Ideal S16x64 .f32) (x2 : Vec Ideal S1x64 .f32)
    (A : S50000x16.Idx → EReal) (W : S16x64.Idx → EReal) (B : S1x64.Idx → EReal)
    (p : Fin 5000) (q : Fin 64) (i : S50000x64.Idx)
    (hA : ∀ j : Fin 16, x0 (ix2 p j) = A (ix2 (Cert.Spec.rowOf i) j))
    (hW : ∀ j : Fin 16, x1 (ix2 j q) = W (ix2 j (Cert.Spec.colOf i)))
    (hB : x2 (ix2 (0 : Fin 1) q) = B (ix2 (0 : Fin 1) (Cert.Spec.colOf i))) :
    k0_pay1 x0 x1 x2 (ix2 p q) = Cert.Spec.linRelu A W B i := by
  rw [payload_apply, hB, Finset.sum_congr rfl fun j _ => by rw [hA j, hW j]]
  rfl

/-! ## From the blocks to the array -/

theorem zero_offsets : (![0, 0] : Fin 2 → Nat) = fun _ => 0 := funext fun a => by fin_cases a <;> rfl

/-- The index maps over the ten grid points: the node features and the output move together, row block `t` at
    point `t`; the weights and the bias row stay at block zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the projection of the whole arrays: rows `5000 t … 5000 t + 4999`. -/
theorem flushed_eq (c : Dev nD) (t : Fin cfg0.N) :
    (dat0 (F := Ideal) V c).flushed 3 t
      = ((cfg0.win 3).blk t).view.read (Elt Ideal) (Cert.Spec.linRelu (V c main_arg0) (V c main_arg3) (V c main_v33)) := by
  show (cfg0.win 3).cut (grid0.coords t) ((dat0 V c).after 3 t) = _
  rw [after0_3]
  unfold out0_3
  rw [View.canon_unit_zero zero_offsets]
  simp only [View.ld_unit_zero (S := S5000x16) zero_offsets, View.ld_unit_zero (S := S16x64) zero_offsets,
    View.ld_unit_zero (S := S1x64) zero_offsets]
  obtain ⟨e0, e1, e2, e3, e4, e5, e6, e7⟩ := index_facts t
  funext y
  have h0 : (y 0).val < 5000 := (y 0).isLt
  have h1 : (y 1).val < 64 := (y 1).isLt
  have hy : (cfg0.win 3).xinj (grid0.coords t) y = ix2 (⟨(y 0).val, h0⟩ : Fin 5000) (⟨(y 1).val, h1⟩ : Fin 64) :=
    funext fun a => by match a with | ⟨0, _⟩ => rfl | ⟨1, _⟩ => rfl
  show k0_pay1 (iblk0 V c 0 t) (iblk0 V c 1 t) (iblk0 V c 2 t) ((cfg0.win 3).xinj (grid0.coords t) y)
    = Cert.Spec.linRelu (V c main_arg0) (V c main_arg3) (V c main_v33) (((cfg0.win 3).blk t).view.emb y)
  rw [hy]
  refine block_entry _ _ _ _ _ _ _ _ _ (fun j => ?_) (fun j => ?_) ?_
  · -- the block of node features at point `t` starts at row `5000 t`, where the output's block starts
    show V c main_arg0 (((cfg0.win 0).blk t).view.emb (ix2 (⟨(y 0).val, h0⟩ : Fin 5000) j)) = _
    refine congrArg _ (funext fun a => Fin.ext ?_)
    match a with
    | ⟨0, _⟩ =>
      show win0_0.index t (0 : Fin 2) * 5000 + 1 * (y 0).val = win0_3.index t (0 : Fin 2) * 5000 + 1 * (y 0).val
      rw [e0, e6]
    | ⟨1, _⟩ =>
      show win0_0.index t (1 : Fin 2) * 16 + 1 * j.val = j.val
      rw [e1]; omega
  · -- the weights' one block is the whole matrix; the output's block spans all the columns
    show V c main_arg3 (((cfg0.win 1).blk t).view.emb (ix2 j (⟨(y 1).val, h1⟩ : Fin 64))) = _
    refine congrArg _ (funext fun a => Fin.ext ?_)
    match a with
    | ⟨0, _⟩ =>
      show win0_1.index t (0 : Fin 2) * 16 + 1 * j.val = j.val
      rw [e2]; omega
    | ⟨1, _⟩ =>
      show win0_1.index t (1 : Fin 2) * 64 + 1 * (y 1).val = win0_3.index t (1 : Fin 2) * 64 + 1 * (y 1).val
      rw [e3, e7]
  · -- the bias row's one block is the whole row
    show V c main_v33 (((cfg0.win 2).blk t).view.emb (ix2 (0 : Fin 1) (⟨(y 1).val, h1⟩ : Fin 64))) = _
    refine congrArg _ (funext fun a => Fin.ext ?_)
    match a with
    | ⟨0, _⟩ =>
      show win0_2.index t (0 : Fin 2) * 1 + 1 * 0 = 0
      rw [e4]
    | ⟨1, _⟩ =>
      show win0_2.index t (1 : Fin 2) * 64 + 1 * (y 1).val = win0_3.index t (1 : Fin 2) * 64 + 1 * (y 1).val
      rw [e5, e7]

/-- An index of the array is in point `t`'s block iff each coordinate is in the block's range on its axis. -/
theorem mem_block (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v34).slice (win0_3.rect t)).set ↔ _
  rw [View.set_slice_whole, Rect.mem_set_unit]
  exact Iff.rfl

/-- Every index of the array lies in the block of the point numbered by its row divided by 5000. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e0, e1, e2, e3, e4, e5, e6, e7⟩ := index_facts t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 64 ≤ (i 1).val ∧ (i 1).val < win0_3.index t (1 : Fin 2) * 64 + 64
    rw [e7]; omega

/-- Region 0's output array after its ten grid points: the input projection and rectifier of the whole node-feature
    matrix, `max (x · W + b) 0`, row by row. -/
theorem final0 (c : Dev nD) :
    (dat0 (F := Ideal) V c).arrAt 3 cfg0.N = Cert.Spec.linRelu (V c main_arg0) (V c main_arg3) (V c main_v33) :=
  (dat0 (F := Ideal) V c).arrAt_eq_of_cover 3 (Cert.Spec.linRelu (V c main_arg0) (V c main_arg3) (V c main_v33))
    (fun t _ => flushed_eq V c t) covered

end Cert.KernelIdeal.Region0

end
-- ==== Proof.Region1.lean ====
import proofs.«430148_j44306882625628_2_alg».proof.Proof.Gen.KernelIdeal.Frame
import proofs.«430148_j44306882625628_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The block product at an index

The contraction of the [5000×64] block of hidden rows with the [64×64] weights runs over the block's columns, which
are the weights' rows.  Of an output index `(r, q)` the left operand is read at `(r, k)` and the right one at
`(k, q)`; the four coordinate facts below say so axis by axis. -/

theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
theorem rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a block with the weights into a zero accumulator, at `(p, q)`: the sum over the sixty-four
    columns `j` of the block's `(p, j)` times the weights' `(j, q)`. -/
theorem product_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ j : Fin 64, a (ix2 p j) * w (ix2 j q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun j _ => ?_
  have hj := ValueIdx.contrEquiv1_symm_val dot_S5000x64_S64x64_S5000x64_1_0_0_1_n_n 64 rfl rfl j
  have el : dot_S5000x64_S64x64_S5000x64_1_0_0_1_n_n.lhsIdx (ix2 p q) ((ValueIdx.contrEquiv1 dot_S5000x64_S64x64_S5000x64_1_0_0_1_n_n 64 rfl rfl).symm j) = ix2 p j := funext fun a => Fin.ext (by
    match a with
    | ⟨0, _⟩ => exact lhs_row _ _
    | ⟨1, _⟩ => exact (lhs_col _ _).trans hj)
  have er : dot_S5000x64_S64x64_S5000x64_1_0_0_1_n_n.rhsIdx (ix2 p q) ((ValueIdx.contrEquiv1 dot_S5000x64_S64x64_S5000x64_1_0_0_1_n_n 64 rfl rfl).symm j) = ix2 j q := funext fun a => Fin.ext (by
    match a with
    | ⟨0, _⟩ => exact (rhs_row _ _).trans hj
    | ⟨1, _⟩ => exact rhs_col _ _)
  rw [el, er]

/-- What the body stores at `(p, q)` of its output block: the product's entry plus the bias under column `q`.
    The changes of float format are the identity on the extended reals and every shape cast is to the same shape. -/
theorem payload_apply (x0 : Vec Ideal S5000x64 .f32) (x1 : Vec Ideal S64x64 .f32) (x2 : Vec Ideal S1x64 .f32)
    (p : Fin 5000) (q : Fin 64) :
    k1_pay1 x0 x1 x2 (ix2 p q) = (∑ j : Fin 64, x0 (ix2 p j) * x1 (ix2 j q)) + x2 (ix2 (0 : Fin 1) q) := by
  unfold k1_pay1
  simp only [shapeCast_self]
  rw [addf_apply, product_apply, broadcastTo_1b_ab_apply]
  rfl

/-! ## One entry of a point's output block

Stated over a block of hidden rows `x0`, the weights `x1` and the bias row `x2` as the body loads them, against
whole arrays `A`, `W`, `B`: if row `p` of the block is row `r` of `A`, and the weights and the bias are `W` and
`B` under column `q`, the body's entry `(p, q)` is the projection's entry at any array index of row `r`, column `q`. -/

theorem block_entry (x0 : Vec Ideal S5000x64 .f32) (x1 : Vec Ideal S64x64 .f32) (x2 : Vec Ideal S1x64 .f32)
    (A : S50000x64.Idx → EReal) (W : S64x64.Idx → EReal) (B : S1x64.Idx → EReal)
    (p : Fin 5000) (q : Fin 64) (i : S50000x64.Idx)
    (hA : ∀ j : Fin 64, x0 (ix2 p j) = A (ix2 (Cert.Spec.rowOf i) j))
    (hW : ∀ j : Fin 64, x1 (ix2 j q) = W (ix2 j (Cert.Spec.colOf i)))
    (hB : x2 (ix2 (0 : Fin 1) q) = B (ix2 (0 : Fin 1) (Cert.Spec.colOf i))) :
    k1_pay1 x0 x1 x2 (ix2 p q) = Cert.Spec.linBias A W B i := by
  rw [payload_apply, hB, Finset.sum_congr rfl fun j _ => by rw [hA j, hW j]]
  rfl

/-! ## From the blocks to the array -/

theorem zero_offsets : (![0, 0] : Fin 2 → Nat) = fun _ => 0 := funext fun a => by fin_cases a <;> rfl

/-- The index maps over the ten grid points: the hidden rows and the output move together, row block `t` at
    point `t`; the weights and the bias row stay at block zero. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the projection of the whole arrays: rows `5000 t … 5000 t + 4999`. -/
theorem flushed_eq (c : Dev nD) (t : Fin cfg1.N) :
    (dat1 (F := Ideal) V c).flushed 3 t
      = ((cfg1.win 3).blk t).view.read (Elt Ideal) (Cert.Spec.linBias (V c main_v34) (V c main_v36) (V c main_v32)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S64x64) zero_offsets,
    View.ld_unit_zero (S := S1x64) zero_offsets]
  obtain ⟨e0, e1, e2, e3, e4, e5, e6, e7⟩ := index_facts t
  funext y
  have h0 : (y 0).val < 5000 := (y 0).isLt
  have h1 : (y 1).val < 64 := (y 1).isLt
  have hy : (cfg1.win 3).xinj (grid1.coords t) y = ix2 (⟨(y 0).val, h0⟩ : Fin 5000) (⟨(y 1).val, h1⟩ : Fin 64) :=
    funext fun a => by match a with | ⟨0, _⟩ => rfl | ⟨1, _⟩ => rfl
  show k1_pay1 (iblk1 V c 0 t) (iblk1 V c 1 t) (iblk1 V c 2 t) ((cfg1.win 3).xinj (grid1.coords t) y)
    = Cert.Spec.linBias (V c main_v34) (V c main_v36) (V c main_v32) (((cfg1.win 3).blk t).view.emb y)
  rw [hy]
  refine block_entry _ _ _ _ _ _ _ _ _ (fun j => ?_) (fun j => ?_) ?_
  · -- the block of hidden rows at point `t` starts at row `5000 t`, where the output's block starts
    show V c main_v34 (((cfg1.win 0).blk t).view.emb (ix2 (⟨(y 0).val, h0⟩ : Fin 5000) j)) = _
    refine congrArg _ (funext fun a => Fin.ext ?_)
    match a with
    | ⟨0, _⟩ =>
      show win1_0.index t (0 : Fin 2) * 5000 + 1 * (y 0).val = win1_3.index t (0 : Fin 2) * 5000 + 1 * (y 0).val
      rw [e0, e6]
    | ⟨1, _⟩ =>
      show win1_0.index t (1 : Fin 2) * 64 + 1 * j.val = j.val
      rw [e1]; omega
  · -- the weights' one block is the whole matrix; the output's block spans all the columns
    show V c main_v36 (((cfg1.win 1).blk t).view.emb (ix2 j (⟨(y 1).val, h1⟩ : Fin 64))) = _
    refine congrArg _ (funext fun a => Fin.ext ?_)
    match a with
    | ⟨0, _⟩ =>
      show win1_1.index t (0 : Fin 2) * 64 + 1 * j.val = j.val
      rw [e2]; omega
    | ⟨1, _⟩ =>
      show win1_1.index t (1 : Fin 2) * 64 + 1 * (y 1).val = win1_3.index t (1 : Fin 2) * 64 + 1 * (y 1).val
      rw [e3, e7]
  · -- the bias row's one block is the whole row
    show V c main_v32 (((cfg1.win 2).blk t).view.emb (ix2 (0 : Fin 1) (⟨(y 1).val, h1⟩ : Fin 64))) = _
    refine congrArg _ (funext fun a => Fin.ext ?_)
    match a with
    | ⟨0, _⟩ =>
      show win1_2.index t (0 : Fin 2) * 1 + 1 * 0 = 0
      rw [e4]
    | ⟨1, _⟩ =>
      show win1_2.index t (1 : Fin 2) * 64 + 1 * (y 1).val = win1_3.index t (1 : Fin 2) * 64 + 1 * (y 1).val
      rw [e5, e7]

/-- An index of the array is in point `t`'s block iff each coordinate is in the block's range on its axis. -/
theorem mem_block (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v37).slice (win1_3.rect t)).set ↔ _
  rw [View.set_slice_whole, Rect.mem_set_unit]
  exact Iff.rfl

/-- Every index of the array lies in the block of the point numbered by its row divided by 5000. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨e0, e1, e2, e3, e4, e5, e6, e7⟩ := index_facts t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 64 ≤ (i 1).val ∧ (i 1).val < win1_3.index t (1 : Fin 2) * 64 + 64
    rw [e7]; omega

/-- Region 1's output array after its ten grid points: the first convolution's projection `h · W + b` of the whole
    hidden matrix, row by row. -/
theorem final1 (c : Dev nD) :
    (dat1 (F := Ideal) V c).arrAt 3 cfg1.N = Cert.Spec.linBias (V c main_v34) (V c main_v36) (V c main_v32) :=
  (dat1 (F := Ideal) V c).arrAt_eq_of_cover 3 (Cert.Spec.linBias (V c main_v34) (V c main_v36) (V c main_v32))
    (fun t _ => flushed_eq V c t) covered

end Cert.KernelIdeal.Region1

end
-- ==== Proof.KChain0.lean ====
/-
  The kernel's run, read back: what each buffer of @main holds at the boundaries between host stretches and
  pallas_call regions, as the reference's own stage functions of the argument arrays.

  The kernel computes the message normalisation once and the reference three times; both gather rows at the same
  wrapped source indices and scatter-add them at the same destinations.  So every sparse stage is the SAME function
  of equal operands in the two programs, and the dense stages meet in the functions of the specification.  The two
  places where the programs differ: the kernel's row gather replaces a row whose index is out of range by a fill
  value (never, when the source indices are node numbers), and the kernel folds the convolution bias into the
  normalisation's shift (equal for finite biases and gains).
-/
import proofs.«430148_j44306882625628_2_alg».proof.Proof.Gen.KernelIdeal.Frame
import proofs.«430148_j44306882625628_2_alg».proof.Proof.Gen.ReferenceIdeal.Read
import proofs.«430148_j44306882625628_2_alg».proof.Proof.KStages
import proofs.«430148_j44306882625628_2_alg».proof.Proof.KSmall
import proofs.«430148_j44306882625628_2_alg».proof.Proof.Region0
import proofs.«430148_j44306882625628_2_alg».proof.Proof.Region1
import proofs.«430148_j44306882625628_2_alg».proof.Proof.RefDense
import Idealize.ShloMosaic.Lib.StableHlo.Run
import Idealize.ShloMosaic.Lib.Pipeline.Value
import Idealize.ShloMosaic.Lib.ValueLayout

set_option maxRecDepth 16384

noncomputable section

namespace Cert.KernelIdeal.Chain

open Cert.KernelIdeal Cert.KernelIdeal.Gen Cert.KernelIdeal.KV
open Idealize.ShloMosaic Idealize.ShloMosaic.TcCoe Idealize.SL.Sem Idealize.ShloMosaic.StableHlo

/-- No operation of a host stretch writes the buffer: one inequality of references per operation. -/
macro "host_keeps" : tactic => `(tactic|
  (simp only [hostOps0, hostOps0_1, hostOps0_2, hostOps1, hostOps2, hostOps2_1, hostOps3, hostOps3_1, hostOps4, hostOps4_1,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

/-- A buffer that a host stretch does not write, and that is no array of a region, holds after the stretch or the
    region what it held before: peel the outermost boundary. -/
macro "peel" : tactic => `(tactic| first
  | rw [StableHlo.after_of_forall_not_mem _ _ (List.forall_iff_forall_mem.mp (by host_keeps))]
  | rw [W12_of_ne _ _ _ _ (by decide)]
  | rw [W9_of_ne _ _ _ _ (by decide)]
  | rw [W6_of_ne _ _ _ _ (by decide)]
  | rw [W4_of_ne _ _ _ _ (by decide)])

variable (m : (ℓ : Loc nD τ sig) → Buf (Elt Ideal) ℓ) (ρ : Dev nD → PrngReg)

/-! ## Before the first region: the edge list, the weights with the self loops, the degrees, the normalisation -/

theorem W1_v3 (c : Dev nD) : W1 m ρ c (Proc.devRef .tc main_v3) = (Cert.ReferenceIdeal.Read.val_main_v3 (F := Ideal) (m ((c : Thread nD τ).loc main_arg1))) := by
  dsimp only [W1, hostOps0]
  after_results
  rfl

theorem W1_v6 (c : Dev nD) : W1 m ρ c (Proc.devRef .tc main_v6) = (Cert.ReferenceIdeal.Read.val_main_v6 (F := Ideal) (m ((c : Thread nD τ).loc main_arg1))) := by
  dsimp only [W1, hostOps0]
  after_results
  rfl

theorem W1_v8 (c : Dev nD) : W1 m ρ c (Proc.devRef .tc main_v8) = (Cert.ReferenceIdeal.Read.val_main_v8 (F := Ideal) (m ((c : Thread nD τ).loc main_arg2))) := by
  dsimp only [W1, hostOps0]
  after_results
  rfl

/-- Is the node's weighted degree positive? -/
theorem W1_v13 (c : Dev nD) : W1 m ρ c (Proc.devRef .tc main_v13) = (Cert.ReferenceIdeal.Read.val_main_v25 (F := Ideal) (m ((c : Thread nD τ).loc main_arg1)) (m ((c : Thread nD τ).loc main_arg2))) := by
  dsimp only [W1, hostOps0]
  after_results
  simp only [Cert.ReferenceIdeal.Read.val_main_v25, Cert.ReferenceIdeal.Read.val_main_v24, Cert.ReferenceIdeal.Read.val_main_cst_3, Cert.ReferenceIdeal.Read.val_main_v23, Cert.ReferenceIdeal.Read.val_main_v22, Cert.ReferenceIdeal.Read.val_main_v21, Cert.ReferenceIdeal.Read.val_main_cst_2, Cert.ReferenceIdeal.Read.val_main_v8, Cert.ReferenceIdeal.Read.val_main_v7, Cert.ReferenceIdeal.Read.val_main_cst, Cert.ReferenceIdeal.Read.val_main_v6, Cert.ReferenceIdeal.Read.val_main_v5, Cert.ReferenceIdeal.Read.val_main_v4, Cert.ReferenceIdeal.Read.val_main_v0]
  rfl

/-- The reciprocal square root of every degree. -/
theorem W1_v14 (c : Dev nD) : W1 m ρ c (Proc.devRef .tc main_v14) = (Cert.ReferenceIdeal.Read.val_main_v26 (F := Ideal) (m ((c : Thread nD τ).loc main_arg1)) (m ((c : Thread nD τ).loc main_arg2))) := by
  dsimp only [W1, hostOps0]
  after_results
  simp only [Cert.ReferenceIdeal.Read.val_main_v26, Cert.ReferenceIdeal.Read.val_main_v23, Cert.ReferenceIdeal.Read.val_main_v22, Cert.ReferenceIdeal.Read.val_main_v21, Cert.ReferenceIdeal.Read.val_main_cst_2, Cert.ReferenceIdeal.Read.val_main_v8, Cert.ReferenceIdeal.Read.val_main_v7, Cert.ReferenceIdeal.Read.val_main_cst, Cert.ReferenceIdeal.Read.val_main_v6, Cert.ReferenceIdeal.Read.val_main_v5, Cert.ReferenceIdeal.Read.val_main_v4, Cert.ReferenceIdeal.Read.val_main_v0]
  rfl

theorem W1_cst_2 (c : Dev nD) : W1 m ρ c (Proc.devRef .tc main_cst_2) = (Cert.ReferenceIdeal.Read.val_main_cst_4 (F := Ideal)) := by
  dsimp only [W1, hostOps0]
  after_results
  rfl

theorem W2_v3 (c : Dev nD) : W2 m ρ c (Proc.devRef .tc main_v3) = (Cert.ReferenceIdeal.Read.val_main_v3 (F := Ideal) (m ((c : Thread nD τ).loc main_arg1))) := by
  dsimp only [W2]; peel; exact W1_v3 m ρ c
theorem W2_v6 (c : Dev nD) : W2 m ρ c (Proc.devRef .tc main_v6) = (Cert.ReferenceIdeal.Read.val_main_v6 (F := Ideal) (m ((c : Thread nD τ).loc main_arg1))) := by
  dsimp only [W2]; peel; exact W1_v6 m ρ c
theorem W2_v8 (c : Dev nD) : W2 m ρ c (Proc.devRef .tc main_v8) = (Cert.ReferenceIdeal.Read.val_main_v8 (F := Ideal) (m ((c : Thread nD τ).loc main_arg2))) := by
  dsimp only [W2]; peel; exact W1_v8 m ρ c

/-- The guarded reciprocal square root, from the comparison and the reciprocal square root before the call. -/
theorem W2_v15_of (c : Dev nD) : W2 m ρ c (Proc.devRef .tc main_v15)
    = select (W1 m ρ c (Proc.devRef .tc main_v13)) (W1 m ρ c (Proc.devRef .tc main_v14)) (broadcastInDim S50000 ![] bcast_S_S50000 (W1 m ρ c (Proc.devRef .tc main_cst_2))) := by
  dsimp only [W2, hostOps0_1]
  generalize hV : W1 m ρ c = V
  after_results
  rfl

/-- The guarded reciprocal square root: zero where the degree is not positive. -/
theorem W2_v15 (c : Dev nD) : W2 m ρ c (Proc.devRef .tc main_v15) = (Cert.ReferenceIdeal.Read.val_main_v27 (F := Ideal) (m ((c : Thread nD τ).loc main_arg1)) (m ((c : Thread nD τ).loc main_arg2))) := by
  rw [W2_v15_of, W1_v13, W1_v14, W1_cst_2]
  simp only [Cert.ReferenceIdeal.Read.val_main_v27, Cert.ReferenceIdeal.Read.val_main_call1_v1, Cert.ReferenceIdeal.Read.val_main_call1_v0]
  rfl

theorem W3_v3 (c : Dev nD) : W3 m ρ c (Proc.devRef .tc main_v3) = (Cert.ReferenceIdeal.Read.val_main_v3 (F := Ideal) (m ((c : Thread nD τ).loc main_arg1))) := by
  dsimp only [W3]; peel; exact W2_v3 m ρ c
theorem W3_v6 (c : Dev nD) : W3 m ρ c (Proc.devRef .tc main_v6) = (Cert.ReferenceIdeal.Read.val_main_v6 (F := Ideal) (m ((c : Thread nD τ).loc main_arg1))) := by
  dsimp only [W3]; peel; exact W2_v6 m ρ c

set_option maxHeartbeats 1000000 in
/-- The symmetric normalisation of every message: the guarded factor at its source, its weight, the factor at its
    destination. -/
theorem W3_v31 (c : Dev nD) : W3 m ρ c (Proc.devRef .tc main_v31) = (Cert.ReferenceIdeal.Read.val_main_v43 (F := Ideal) (m ((c : Thread nD τ).loc main_arg1)) (m ((c : Thread nD τ).loc main_arg2))) := by
  dsimp only [W3, hostOps0_2]
  generalize hV : W2 m ρ c = V
  after_results_simp
  subst hV
  rw [W2_v3, W2_v6, W2_v8, W2_v15]
  simp only [Cert.ReferenceIdeal.Read.val_main_v43, Cert.ReferenceIdeal.Read.val_main_v35, Cert.ReferenceIdeal.Read.val_main_v42, Cert.ReferenceIdeal.Read.val_main_v34, Cert.ReferenceIdeal.Read.val_main_v33, Cert.ReferenceIdeal.Read.val_main_v32, Cert.ReferenceIdeal.Read.val_main_v29, Cert.ReferenceIdeal.Read.val_main_v28, Cert.ReferenceIdeal.Read.val_main_c, Cert.ReferenceIdeal.Read.val_main_v31, Cert.ReferenceIdeal.Read.val_main_v30, Cert.ReferenceIdeal.Read.val_main_c_5, Cert.ReferenceIdeal.Read.val_main_v41, Cert.ReferenceIdeal.Read.val_main_v40, Cert.ReferenceIdeal.Read.val_main_v37, Cert.ReferenceIdeal.Read.val_main_v36, Cert.ReferenceIdeal.Read.val_main_c_6, Cert.ReferenceIdeal.Read.val_main_v39, Cert.ReferenceIdeal.Read.val_main_v38, Cert.ReferenceIdeal.Read.val_main_c_7]
  rfl

/-- The all-zero bias row of the first convolution's projection. -/
theorem W3_v32 (c : Dev nD) : W3 m ρ c (Proc.devRef .tc main_v32) = broadcastInDim S1x64 ![] bcast_S_S1x64 (constant (F := Ideal) S_ .f32 0x00000000#32) := by
  dsimp only [W3, hostOps0_2]
  generalize hV : W2 m ρ c = V
  after_results <;> rfl

theorem W3_arg0 (c : Dev nD) : W3 m ρ c (Proc.devRef .tc main_arg0) = (m ((c : Thread nD τ).loc main_arg0)) := by
  dsimp only [W3, W2, W1]
  repeat peel
theorem W3_arg3 (c : Dev nD) : W3 m ρ c (Proc.devRef .tc main_arg3) = (m ((c : Thread nD τ).loc main_arg3)) := by
  dsimp only [W3, W2, W1]
  repeat peel
theorem W3_arg5 (c : Dev nD) : W3 m ρ c (Proc.devRef .tc main_arg5) = (m ((c : Thread nD τ).loc main_arg5)) := by
  dsimp only [W3, W2, W1]
  repeat peel

/-- The input bias as a row. -/
theorem W3_v33 (c : Dev nD) : W3 m ρ c (Proc.devRef .tc main_v33) = Cert.Spec.asRow (m ((c : Thread nD τ).loc main_arg4)) := by
  dsimp only [W3, W2, W1, hostOps0, hostOps0_1, hostOps0_2]
  after_results
  exact reshape_row _

/-! ## Region 0: the input projection -/

theorem W4_v34 (c : Dev nD) : W4 m ρ c (Proc.devRef .tc main_v34) = (Cert.ReferenceIdeal.Read.val_main_v13 (F := Ideal) (m ((c : Thread nD τ).loc main_arg0)) (m ((c : Thread nD τ).loc main_arg3)) (m ((c : Thread nD τ).loc main_arg4))) := by
  refine (W4_arr m ρ c 3).trans ((Cert.KernelIdeal.Region0.final0 (V3 m ρ) c).trans ?_)
  show Cert.Spec.linRelu (W3 m ρ c (Proc.devRef .tc main_arg0)) (W3 m ρ c (Proc.devRef .tc main_arg3)) (W3 m ρ c (Proc.devRef .tc main_v33)) = _
  rw [W3_arg0, W3_arg3, W3_v33]
  exact (Cert.ReferenceIdeal.RefValue.h0_eq _ _ _).symm

/-! ## The first convolution's projection -/

theorem W5_v34 (c : Dev nD) : W5 m ρ c (Proc.devRef .tc main_v34) = (Cert.ReferenceIdeal.Read.val_main_v13 (F := Ideal) (m ((c : Thread nD τ).loc main_arg0)) (m ((c : Thread nD τ).loc main_arg3)) (m ((c : Thread nD τ).loc main_arg4))) := by
  dsimp only [W5]; peel; exact W4_v34 m ρ c

theorem W5_v32 (c : Dev nD) : W5 m ρ c (Proc.devRef .tc main_v32) = broadcastInDim S1x64 ![] bcast_S_S1x64 (constant (F := Ideal) S_ .f32 0x00000000#32) := by
  dsimp only [W5]; peel; peel; exact W3_v32 m ρ c

theorem W5_v36 (c : Dev nD) : W5 m ρ c (Proc.devRef .tc main_v36) = (Cert.ReferenceIdeal.Read.val_main_v17 (F := Ideal) (m ((c : Thread nD τ).loc main_arg5))) := by
  dsimp only [W5, hostOps1]
  after_results
  rw [W4_of_ne m ρ c main_arg5 (by decide), W3_arg5]
  simp only [Cert.ReferenceIdeal.Read.val_main_v17, Cert.ReferenceIdeal.Read.val_main_v16]
  rfl

theorem W6_v37 (c : Dev nD) : W6 m ρ c (Proc.devRef .tc main_v37) = (Cert.ReferenceIdeal.Read.val_main_v20 (F := Ideal) (m ((c : Thread nD τ).loc main_arg0)) (m ((c : Thread nD τ).loc main_arg3)) (m ((c : Thread nD τ).loc main_arg4)) (m ((c : Thread nD τ).loc main_arg5))) := by
  refine (W6_arr m ρ c 3).trans ((Cert.KernelIdeal.Region1.final1 (V5 m ρ) c).trans ?_)
  show Cert.Spec.linBias (W5 m ρ c (Proc.devRef .tc main_v34)) (W5 m ρ c (Proc.devRef .tc main_v36)) (W5 m ρ c (Proc.devRef .tc main_v32)) = _
  rw [W5_v34, W5_v36, W5_v32, linBias_zero]
  exact (Cert.ReferenceIdeal.RefValue.p0_eq _ _ _ _).symm

end Cert.KernelIdeal.Chain

end
-- ==== Proof.Region2.lean ====
import proofs.«430148_j44306882625628_2_alg».proof.Proof.Gen.KernelIdeal.Frame
import proofs.«430148_j44306882625628_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-! ## The two payloads at an entry -/

/-- A `1 × 64` row stretched over 5000 rows reads, at `(p, q)`, the row's entry under column `q`. -/
theorem row_under (x : Vec Ideal S1x64 .f32) (p : Fin 5000) (q : Fin 64) :
    broadcastTo S5000x64 x broadcasts_S1x64_S5000x64 (ix2 p q) = x (ix2 (0 : Fin 1) q) := by
  refine broadcastTo_apply x broadcasts_S1x64_S5000x64 (ix2 p q) (ix2 (0 : Fin 1) q) (fun a => ?_)
  match a with
  | ⟨0, _⟩ => rfl
  | ⟨1, _⟩ => rfl

/-- The first payload at an entry: `max (a · s + t) 0 + h`, the scale `s` and the shift `t` read under the column. -/
theorem pay1_apply (a : Vec Ideal S5000x64 .f32) (s t : Vec Ideal S1x64 .f32) (h : Vec Ideal S5000x64 .f32) (p : Fin 5000) (q : Fin 64) :
    k2_pay1 (F := Ideal) a s t h (ix2 p q) = max (a (ix2 p q) * s (ix2 (0 : Fin 1) q) + t (ix2 (0 : Fin 1) q)) 0 + h (ix2 p q) := by
  unfold k2_pay1
  simp only [addf_apply, maximumf_apply, mulf_apply, broadcast_apply, shapeCast_self]
  show max _ (Ideal.ofBits .f32 0x00000000#32) + _ = _
  rw [Ideal.ofBits_zero_f32, row_under s p q, row_under t p q]

/-- The product's left operand is read in the output's row … -/
theorem left_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … at the summation index as its column; -/
theorem left_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right operand at the summation index as its row … -/
theorem right_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … in the output's column. -/
theorem right_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into a zero accumulator, at an entry: `∑ j, x (p, j) · w (j, q)`. -/
theorem product_apply (x : FVec Ideal S5000x64 .bf16) (w : FVec Ideal S64x64 .bf16) (p : Fin 5000) (q : Fin 64) :
    matmul dot_S5000x64_S64x64_S5000x64_1_0_0_1_n_n none x w (constant (F := Ideal) S5000x64 .f32 0x00000000#32) (ix2 p q)
      = ∑ j : Fin 64, x (ix2 p j) * w (ix2 j q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun j _ => ?_
  have hj := ValueIdx.contrEquiv1_symm_val dot_S5000x64_S64x64_S5000x64_1_0_0_1_n_n 64 rfl rfl j
  have el : dot_S5000x64_S64x64_S5000x64_1_0_0_1_n_n.lhsIdx (ix2 p q) ((ValueIdx.contrEquiv1 dot_S5000x64_S64x64_S5000x64_1_0_0_1_n_n 64 rfl rfl).symm j) = ix2 p j := funext fun a => Fin.ext (by
    match a with
    | ⟨0, _⟩ => exact left_row _ _
    | ⟨1, _⟩ => exact (left_col _ _).trans hj)
  have er : dot_S5000x64_S64x64_S5000x64_1_0_0_1_n_n.rhsIdx (ix2 p q) ((ValueIdx.contrEquiv1 dot_S5000x64_S64x64_S5000x64_1_0_0_1_n_n 64 rfl rfl).symm j) = ix2 j q := funext fun a => Fin.ext (by
    match a with
    | ⟨0, _⟩ => exact (right_row _ _).trans hj
    | ⟨1, _⟩ => exact right_col _ _)
  rw [el, er]

/-- The second payload at an entry: row `p` of the first payload against column `q` of the weights. -/
theorem pay2_apply (a : Vec Ideal S5000x64 .f32) (s t : Vec Ideal S1x64 .f32) (h : Vec Ideal S5000x64 .f32) (w : Vec Ideal S64x64 .f32) (p : Fin 5000) (q : Fin 64) :
    k2_pay2 (F := Ideal) a s t h w (ix2 p q) = ∑ j : Fin 64, k2_pay1 (F := Ideal) a s t h (ix2 p j) * w (ix2 j q) := by
  unfold k2_pay2
  refine (product_apply _ _ p q).trans ?_
  refine Finset.sum_congr rfl fun j _ => ?_
  rw [truncf_apply, truncf_apply, shapeCast_self]

/-- The first payload of blocks that are pieces of whole arrays: where the aggregate block `a` and the residual block
    `h` at `(p, q)` are the arrays `A`, `H` at `i`, `i` lies in column `q`, and the two rows are `S`, `T`,
    the payload at `(p, q)` is the normalised, rectified, residual-added entry of the arrays at `i`. -/
theorem pay1_spec (A H : (Cert.Spec.Sh 50000 64).Idx → EReal) (S T : (Cert.Spec.Sh 1 64).Idx → EReal)
    (a h : Vec Ideal S5000x64 .f32) (s t : Vec Ideal S1x64 .f32) (p : Fin 5000) (q : Fin 64) (i : (Cert.Spec.Sh 50000 64).Idx)
    (hq : (i 1).val = q.val) (ha : a (ix2 p q) = A i) (hh : h (ix2 p q) = H i)
    (hs : s (ix2 (0 : Fin 1) q) = S (ix2 (0 : Fin 1) q)) (ht : t (ix2 (0 : Fin 1) q) = T (ix2 (0 : Fin 1) q)) :
    k2_pay1 (F := Ideal) a s t h (ix2 p q) = Cert.Spec.bnRes A H S T i := by
  rw [pay1_apply, ha, hh, hs, ht]
  have hc : Cert.Spec.colOf i = q := Fin.ext hq
  unfold Cert.Spec.bnRes
  simp only [Cert.Spec.under, hc]

/-- The second payload likewise: with the weight block the array `W`, the payload at `(p, q)` is the entry at `i` of
    the product of the normalised matrix with `W`. -/
theorem pay2_spec (A H : (Cert.Spec.Sh 50000 64).Idx → EReal) (S T : (Cert.Spec.Sh 1 64).Idx → EReal) (W : (Cert.Spec.Sh 64 64).Idx → EReal)
    (a h : Vec Ideal S5000x64 .f32) (s t : Vec Ideal S1x64 .f32) (w : Vec Ideal S64x64 .f32) (p : Fin 5000) (q : Fin 64) (i : (Cert.Spec.Sh 50000 64).Idx)
    (hq : (i 1).val = q.val) (ha : ∀ j : Fin 64, a (ix2 p j) = A (ix2 (Cert.Spec.rowOf i) j)) (hh : ∀ j : Fin 64, h (ix2 p j) = H (ix2 (Cert.Spec.rowOf i) j))
    (hs : s = S) (ht : t = T) (hw : w = W) :
    k2_pay2 (F := Ideal) a s t h w (ix2 p q) = Cert.Spec.dense (Cert.Spec.bnRes A H S T) W i := by
  rw [pay2_apply]
  have hc : Cert.Spec.colOf i = q := Fin.ext hq
  unfold Cert.Spec.dense
  rw [hc]
  refine Finset.sum_congr rfl fun j _ => ?_
  rw [pay1_spec A H S T a h s t p j (ix2 (Cert.Spec.rowOf i) j) rfl (ha j) (hh j) (by rw [hs]) (by rw [ht]), hw]

/-! ## From the blocks to the arrays -/

/-- The origin's two zero offsets are the constant zero function. -/
theorem hz : (![0, 0] : Fin 2 → Nat) = fun _ => 0 := funext fun a => by fin_cases a <;> rfl

/-- Where point `t` of the grid puts its blocks: the row-blocked windows (aggregate, residual, the two outputs) at block
    row `t`; the scale row, the shift row and the weights at the one block they have. Decided over the ten points. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The aggregate's block at point `t` is rows `5000 t … 5000 t + 4999` of the aggregate. -/
theorem aggregate_block (c : Dev nD) (t : Fin cfg2.N) (p : Fin 5000) (q : Fin 64) (i : S50000x64.Idx)
    (h0 : (i 0).val = t.val * 5000 + p.val) (h1 : (i 1).val = q.val) :
    (iblk2 V c 0 t : Vec Ideal S5000x64 .f32) (ix2 p q) = (V c main_v44 : S50000x64.Idx → EReal) i := by
  obtain ⟨e0, e1, -⟩ := block_indices t
  show V c main_v44 (((cfg2.win 0).blk t).view.emb (ix2 p q)) = V c main_v44 i
  refine congrArg _ (funext fun a => Fin.ext ?_)
  match a with
  | ⟨0, _⟩ => show win2_0.index t (0 : Fin 2) * 5000 + 1 * p.val = (i 0).val; omega
  | ⟨1, _⟩ => show win2_0.index t (1 : Fin 2) * 64 + 1 * q.val = (i 1).val; omega

/-- The residual's block at point `t` is the same rows of the residual. -/
theorem residual_block (c : Dev nD) (t : Fin cfg2.N) (p : Fin 5000) (q : Fin 64) (i : S50000x64.Idx)
    (h0 : (i 0).val = t.val * 5000 + p.val) (h1 : (i 1).val = q.val) :
    (iblk2 V c 1 t : Vec Ideal S5000x64 .f32) (ix2 p q) = (V c main_v34 : S50000x64.Idx → EReal) i := by
  obtain ⟨-, -, e0, e1, -⟩ := block_indices t
  show V c main_v34 (((cfg2.win 1).blk t).view.emb (ix2 p q)) = V c main_v34 i
  refine congrArg _ (funext fun a => Fin.ext ?_)
  match a with
  | ⟨0, _⟩ => show win2_1.index t (0 : Fin 2) * 5000 + 1 * p.val = (i 0).val; omega
  | ⟨1, _⟩ => show win2_1.index t (1 : Fin 2) * 64 + 1 * q.val = (i 1).val; omega

/-- The scale row's block is the whole row at every point. -/
theorem scale_block (c : Dev nD) (t : Fin cfg2.N) : (iblk2 V c 2 t : Vec Ideal S1x64 .f32) = (V c main_v57 : S1x64.Idx → EReal) := by
  obtain ⟨-, -, -, -, e0, e1, -⟩ := block_indices t
  funext k
  show V c main_v57 (((cfg2.win 2).blk t).view.emb k) = V c main_v57 k
  refine congrArg _ (funext fun a => Fin.ext ?_)
  match a with
  | ⟨0, _⟩ => show win2_2.index t (0 : Fin 2) * 1 + 1 * (k 0).val = (k 0).val; omega
  | ⟨1, _⟩ => show win2_2.index t (1 : Fin 2) * 64 + 1 * (k 1).val = (k 1).val; omega

/-- The shift row's block is the whole row at every point. -/
theorem shift_block (c : Dev nD) (t : Fin cfg2.N) : (iblk2 V c 3 t : Vec Ideal S1x64 .f32) = (V c main_v58 : S1x64.Idx → EReal) := by
  obtain ⟨-, -, -, -, -, -, e0, e1, -⟩ := block_indices t
  funext k
  show V c main_v58 (((cfg2.win 3).blk t).view.emb k) = V c main_v58 k
  refine congrArg _ (funext fun a => Fin.ext ?_)
  match a with
  | ⟨0, _⟩ => show win2_3.index t (0 : Fin 2) * 1 + 1 * (k 0).val = (k 0).val; omega
  | ⟨1, _⟩ => show win2_3.index t (1 : Fin 2) * 64 + 1 * (k 1).val = (k 1).val; omega

/-- The weights' block is the whole matrix at every point. -/
theorem weight_block (c : Dev nD) (t : Fin cfg2.N) : (iblk2 V c 4 t : Vec Ideal S64x64 .f32) = (V c main_v60 : S64x64.Idx → EReal) := by
  obtain ⟨-, -, -, -, -, -, -, -, e0, e1, -⟩ := block_indices t
  funext k
  show V c main_v60 (((cfg2.win 4).blk t).view.emb k) = V c main_v60 k
  refine congrArg _ (funext fun a => Fin.ext ?_)
  match a with
  | ⟨0, _⟩ => show win2_4.index t (0 : Fin 2) * 64 + 1 * (k 0).val = (k 0).val; omega
  | ⟨1, _⟩ => show win2_4.index t (1 : Fin 2) * 64 + 1 * (k 1).val = (k 1).val; omega

/-- What point `t` writes back to the first output is block `t` of the normalised, rectified aggregate plus the residual. -/
theorem flushed5 (c : Dev nD) (t : Fin cfg2.N) :
    (dat2 (F := Ideal) V c).flushed 5 t
      = ((cfg2.win 5).blk t).view.read (Elt Ideal) (Cert.Spec.bnRes (V c main_v44) (V c main_v34) (V c main_v57) (V c main_v58)) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz]
  obtain ⟨-, -, -, -, -, -, -, -, -, -, e0, e1, -⟩ := block_indices t
  funext y
  obtain ⟨p, q, rfl⟩ : ∃ (p : Fin 5000) (q : Fin 64), y = ix2 p q := ⟨y 0, y 1, eq_ix2 y⟩
  have hi0 : ((((cfg2.win 5).blk t).view.emb (ix2 p q)) 0).val = t.val * 5000 + p.val := by
    show win2_5.index t (0 : Fin 2) * 5000 + 1 * p.val = _; omega
  have hi1 : ((((cfg2.win 5).blk t).view.emb (ix2 p q)) 1).val = q.val := by
    show win2_5.index t (1 : Fin 2) * 64 + 1 * q.val = _; omega
  show k2_pay1 (F := Ideal) (iblk2 V c 0 t) (iblk2 V c 2 t) (iblk2 V c 3 t) (iblk2 V c 1 t) (ix2 p q)
    = Cert.Spec.bnRes (V c main_v44) (V c main_v34) (V c main_v57) (V c main_v58) (((cfg2.win 5).blk t).view.emb (ix2 p q))
  exact pay1_spec (V c main_v44) (V c main_v34) (V c main_v57) (V c main_v58) (iblk2 V c 0 t) (iblk2 V c 1 t) (iblk2 V c 2 t) (iblk2 V c 3 t)
    p q (((cfg2.win 5).blk t).view.emb (ix2 p q)) hi1 (aggregate_block V c t p q _ hi0 hi1) (residual_block V c t p q _ hi0 hi1)
    (congrFun (scale_block V c t) _) (congrFun (shift_block V c t) _)

/-- What point `t` writes back to the second output is block `t` of that matrix times the weights. -/
theorem flushed6 (c : Dev nD) (t : Fin cfg2.N) :
    (dat2 (F := Ideal) V c).flushed 6 t
      = ((cfg2.win 6).blk t).view.read (Elt Ideal)
          (Cert.Spec.dense (Cert.Spec.bnRes (V c main_v44) (V c main_v34) (V c main_v57) (V c main_v58)) (V c main_v60)) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz, View.ld_unit_zero (S := S64x64) hz]
  obtain ⟨-, -, -, -, -, -, -, -, -, -, -, -, e0, e1⟩ := block_indices t
  funext y
  obtain ⟨p, q, rfl⟩ : ∃ (p : Fin 5000) (q : Fin 64), y = ix2 p q := ⟨y 0, y 1, eq_ix2 y⟩
  have hi0 : ((((cfg2.win 6).blk t).view.emb (ix2 p q)) 0).val = t.val * 5000 + p.val := by
    show win2_6.index t (0 : Fin 2) * 5000 + 1 * p.val = _; omega
  have hi1 : ((((cfg2.win 6).blk t).view.emb (ix2 p q)) 1).val = q.val := by
    show win2_6.index t (1 : Fin 2) * 64 + 1 * q.val = _; omega
  show k2_pay2 (F := Ideal) (iblk2 V c 0 t) (iblk2 V c 2 t) (iblk2 V c 3 t) (iblk2 V c 1 t) (iblk2 V c 4 t) (ix2 p q)
    = Cert.Spec.dense (Cert.Spec.bnRes (V c main_v44) (V c main_v34) (V c main_v57) (V c main_v58)) (V c main_v60)
        (((cfg2.win 6).blk t).view.emb (ix2 p q))
  exact pay2_spec (V c main_v44) (V c main_v34) (V c main_v57) (V c main_v58) (V c main_v60)
    (iblk2 V c 0 t) (iblk2 V c 1 t) (iblk2 V c 2 t) (iblk2 V c 3 t) (iblk2 V c 4 t)
    p q (((cfg2.win 6).blk t).view.emb (ix2 p q)) hi1
    (fun j => aggregate_block V c t p j _ hi0 rfl) (fun j => residual_block V c t p j _ hi0 rfl)
    (scale_block V c t) (shift_block V c t) (weight_block V c t)

/-- An index of a `50000 × 64` array lies in point `t`'s block of the first output iff its row is among the block's rows. -/
theorem mem_blk5 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v61_0).slice (win2_5.rect t)).set ↔ _
  rw [View.set_slice_whole, Rect.mem_set_unit]
  exact Iff.rfl

/-- The same for the second output. -/
theorem mem_blk6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v61_1).slice (win2_6.rect t)).set ↔ _
  rw [View.set_slice_whole, Rect.mem_set_unit]
  exact Iff.rfl

/-- Row `r` lies in the block of point `r / 5000`: the ten blocks of 5000 rows tile the 50000 rows. -/
theorem cover5 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, -, -, -, -, e0, e1, -⟩ := block_indices t
  have ht : t.val = (i 0).val / 5000 := rfl
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The same tiling for the second output. -/
theorem cover6 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, -, -, -, -, -, -, e0, e1⟩ := block_indices t
  have ht : t.val = (i 0).val / 5000 := rfl
  refine ⟨t, flush2_6 t, ?_⟩
  rw [mem_blk6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- Region 2's first output: the normalised, rectified aggregate plus the residual, `max (a · s + t) 0 + h`. -/
theorem final2_5 (c : Dev nD) :
    (dat2 (F := Ideal) V c).arrAt 5 cfg2.N = Cert.Spec.bnRes (V c main_v44) (V c main_v34) (V c main_v57) (V c main_v58) := by
  exact (dat2 (F := Ideal) V c).arrAt_eq_of_cover 5 (Cert.Spec.bnRes (V c main_v44) (V c main_v34) (V c main_v57) (V c main_v58))
    (fun t _ => flushed5 V c t) cover5

/-- Region 2's second output: that matrix times the next layer's weights. -/
theorem final2_6 (c : Dev nD) :
    (dat2 (F := Ideal) V c).arrAt 6 cfg2.N
      = Cert.Spec.dense (Cert.Spec.bnRes (V c main_v44) (V c main_v34) (V c main_v57) (V c main_v58)) (V c main_v60) := by
  exact (dat2 (F := Ideal) V c).arrAt_eq_of_cover 6
    (Cert.Spec.dense (Cert.Spec.bnRes (V c main_v44) (V c main_v34) (V c main_v57) (V c main_v58)) (V c main_v60))
    (fun t _ => flushed6 V c t) cover6

end Cert.KernelIdeal.Region2

end
-- ==== Proof.KChain1.lean ====
/-
  The kernel's run, read back: what each buffer of @main holds at the boundaries between host stretches and
  pallas_call regions, as the reference's own stage functions of the argument arrays.

  The kernel computes the message normalisation once and the reference three times; both gather rows at the same
  wrapped source indices and scatter-add them at the same destinations.  So every sparse stage is the SAME function
  of equal operands in the two programs, and the dense stages meet in the functions of the specification.  The two
  places where the programs differ: the kernel's row gather replaces a row whose index is out of range by a fill
  value (never, when the source indices are node numbers), and the kernel folds the convolution bias into the
  normalisation's shift (equal for finite biases and gains).
-/
import proofs.«430148_j44306882625628_2_alg».proof.Proof.Gen.KernelIdeal.Frame
import proofs.«430148_j44306882625628_2_alg».proof.Proof.Gen.ReferenceIdeal.Read
import proofs.«430148_j44306882625628_2_alg».proof.Proof.KStages
import proofs.«430148_j44306882625628_2_alg».proof.Proof.KSmall
import proofs.«430148_j44306882625628_2_alg».proof.Proof.RefDense
import proofs.«430148_j44306882625628_2_alg».proof.Proof.RefFacts
import proofs.«430148_j44306882625628_2_alg».proof.Proof.KChain0
import Idealize.ShloMosaic.Lib.StableHlo.Run
import Idealize.ShloMosaic.Lib.Pipeline.Value
import Idealize.ShloMosaic.Lib.ValueLayout

set_option maxRecDepth 16384

noncomputable section

namespace Cert.KernelIdeal.Chain

open Cert.KernelIdeal Cert.KernelIdeal.Gen Cert.KernelIdeal.KV
open Idealize.ShloMosaic Idealize.ShloMosaic.TcCoe Idealize.SL.Sem Idealize.ShloMosaic.StableHlo

/-- No operation of a host stretch writes the buffer: one inequality of references per operation. -/
macro "host_keeps" : tactic => `(tactic|
  (simp only [hostOps0, hostOps0_1, hostOps0_2, hostOps1, hostOps2, hostOps2_1, hostOps3, hostOps3_1, hostOps4, hostOps4_1,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

/-- A buffer that a host stretch does not write, and that is no array of a region, holds after the stretch or the
    region what it held before: peel the outermost boundary. -/
macro "peel" : tactic => `(tactic| first
  | rw [StableHlo.after_of_forall_not_mem _ _ (List.forall_iff_forall_mem.mp (by host_keeps))]
  | rw [W12_of_ne _ _ _ _ (by decide)]
  | rw [W9_of_ne _ _ _ _ (by decide)]
  | rw [W6_of_ne _ _ _ _ (by decide)]
  | rw [W4_of_ne _ _ _ _ (by decide)])

variable (m : (ℓ : Loc nD τ sig) → Buf (Elt Ideal) ℓ) (ρ : Dev nD → PrngReg)

/-! ## What crosses from the first regions to region 2 unchanged, and the small rows region 2 is entered with -/

theorem W6_v3 (c : Dev nD) : W6 m ρ c (Proc.devRef .tc main_v3) = (Cert.ReferenceIdeal.Read.val_main_v3 (F := Ideal) (m ((c : Thread nD τ).loc main_arg1))) := by
  peel; dsimp only [W5]; peel; peel; exact W3_v3 m ρ c
theorem W6_v6 (c : Dev nD) : W6 m ρ c (Proc.devRef .tc main_v6) = (Cert.ReferenceIdeal.Read.val_main_v6 (F := Ideal) (m ((c : Thread nD τ).loc main_arg1))) := by
  peel; dsimp only [W5]; peel; peel; exact W3_v6 m ρ c
theorem W6_v31 (c : Dev nD) : W6 m ρ c (Proc.devRef .tc main_v31) = (Cert.ReferenceIdeal.Read.val_main_v43 (F := Ideal) (m ((c : Thread nD τ).loc main_arg1)) (m ((c : Thread nD τ).loc main_arg2))) := by
  peel; dsimp only [W5]; peel; peel; exact W3_v31 m ρ c
theorem W6_arg5 (c : Dev nD) : W6 m ρ c (Proc.devRef .tc main_arg5) = (m ((c : Thread nD τ).loc main_arg5)) := by
  peel; dsimp only [W5]; peel; peel; exact W3_arg5 m ρ c
theorem W6_arg6 (c : Dev nD) : W6 m ρ c (Proc.devRef .tc main_arg6) = (m ((c : Thread nD τ).loc main_arg6)) := by
  peel; dsimp only [W5]; peel; peel
  dsimp only [W3, W2, W1]; repeat peel
theorem W6_arg7 (c : Dev nD) : W6 m ρ c (Proc.devRef .tc main_arg7) = (m ((c : Thread nD τ).loc main_arg7)) := by
  peel; dsimp only [W5]; peel; peel
  dsimp only [W3, W2, W1]; repeat peel
theorem W6_arg8 (c : Dev nD) : W6 m ρ c (Proc.devRef .tc main_arg8) = (m ((c : Thread nD τ).loc main_arg8)) := by
  peel; dsimp only [W5]; peel; peel
  dsimp only [W3, W2, W1]; repeat peel

set_option maxHeartbeats 1000000 in
/-- The normalisation's reciprocal standard deviation, a constant. -/
theorem W8_v46 (c : Dev nD) : W8 m ρ c (Proc.devRef .tc main_v46) = (Cert.ReferenceIdeal.Read.val_main_v15 (F := Ideal)) := by
  dsimp only [W8, hostOps2_1]
  generalize hV : W7 m ρ c = V
  after_results_simp
  simp only [Cert.ReferenceIdeal.Read.val_main_v15, Cert.ReferenceIdeal.Read.val_main_v14, Cert.ReferenceIdeal.Read.val_main_cst_0, Cert.ReferenceIdeal.Read.val_main_cst_1]

set_option maxHeartbeats 1000000 in
/-- Layer 0's scale row: the gain times the reciprocal standard deviation. -/
theorem W8_v57 (c : Dev nD) : W8 m ρ c (Proc.devRef .tc main_v57) = Cert.Spec.asRow (Cert.ReferenceIdeal.Read.val_main_v63 (F := Ideal) (m ((c : Thread nD τ).loc main_arg7))) := by
  dsimp only [W8, W7, hostOps2_1, hostOps2]
  after_results_simp
  rw [W6_arg7]
  simp only [Cert.ReferenceIdeal.Read.val_main_v63, Cert.ReferenceIdeal.Read.val_main_v62, Cert.ReferenceIdeal.Read.val_main_v61, Cert.ReferenceIdeal.Read.val_main_v60, Cert.ReferenceIdeal.Read.val_main_v15, Cert.ReferenceIdeal.Read.val_main_v14, Cert.ReferenceIdeal.Read.val_main_cst_0, Cert.ReferenceIdeal.Read.val_main_cst_1]
  exact reshape_row _

set_option maxHeartbeats 1000000 in
/-- Layer 0's shift row: the convolution bias times the scale, plus the normalisation's shift. -/
theorem W8_v58 (c : Dev nD) : W8 m ρ c (Proc.devRef .tc main_v58) = (Cert.Spec.asRow ((addf (mulf (Cert.ReferenceIdeal.Read.val_main_v19 (F := Ideal) (m ((c : Thread nD τ).loc main_arg6))) (Cert.ReferenceIdeal.Read.val_main_v63 (F := Ideal) (m ((c : Thread nD τ).loc main_arg7)))) (Cert.ReferenceIdeal.Read.val_main_v68 (F := Ideal) (m ((c : Thread nD τ).loc main_arg8))) : FVec Ideal S64 .f32))) := by
  dsimp only [W8, W7, hostOps2_1, hostOps2]
  after_results_simp
  rw [W6_arg6, W6_arg7, W6_arg8]
  simp only [Cert.ReferenceIdeal.Read.val_main_v19, Cert.ReferenceIdeal.Read.val_main_v18, Cert.ReferenceIdeal.Read.val_main_v63, Cert.ReferenceIdeal.Read.val_main_v62, Cert.ReferenceIdeal.Read.val_main_v61, Cert.ReferenceIdeal.Read.val_main_v60, Cert.ReferenceIdeal.Read.val_main_v15, Cert.ReferenceIdeal.Read.val_main_v14, Cert.ReferenceIdeal.Read.val_main_cst_0, Cert.ReferenceIdeal.Read.val_main_cst_1, Cert.ReferenceIdeal.Read.val_main_v68, Cert.ReferenceIdeal.Read.val_main_v67]
  exact reshape_row _

set_option maxHeartbeats 1000000 in
theorem W8_v60 (c : Dev nD) : W8 m ρ c (Proc.devRef .tc main_v60) = (Cert.ReferenceIdeal.Read.val_main_v75 (F := Ideal) (m ((c : Thread nD τ).loc main_arg5))) := by
  dsimp only [W8, W7, hostOps2_1, hostOps2]
  after_results_simp
  rw [W6_arg5]
  simp only [Cert.ReferenceIdeal.Read.val_main_v75, Cert.ReferenceIdeal.Read.val_main_v74]
  rfl

theorem W8_v34 (c : Dev nD) : W8 m ρ c (Proc.devRef .tc main_v34) = (Cert.ReferenceIdeal.Read.val_main_v13 (F := Ideal) (m ((c : Thread nD τ).loc main_arg0)) (m ((c : Thread nD τ).loc main_arg3)) (m ((c : Thread nD τ).loc main_arg4))) := by
  dsimp only [W8, W7]; peel; peel
  refine (W6_arr m ρ c 0).trans (((dat1 (V5 m ρ) c).arrAt_in 0 rfl _).trans ((A_eq1 (V5 m ρ) c 0).trans ?_))
  exact W5_v34 m ρ c

end Cert.KernelIdeal.Chain

end
-- ==== Proof.KChain2.lean ====
/-
  The kernel's run, read back: what each buffer of @main holds at the boundaries between host stretches and
  pallas_call regions, as the reference's own stage functions of the argument arrays.

  The kernel computes the message normalisation once and the reference three times; both gather rows at the same
  wrapped source indices and scatter-add them at the same destinations.  So every sparse stage is the SAME function
  of equal operands in the two programs, and the dense stages meet in the functions of the specification.  The two
  places where the programs differ: the kernel's row gather replaces a row whose index is out of range by a fill
  value (never, when the source indices are node numbers), and the kernel folds the convolution bias into the
  normalisation's shift (equal for finite biases and gains).
-/
import proofs.«430148_j44306882625628_2_alg».proof.Proof.Gen.KernelIdeal.Frame
import proofs.«430148_j44306882625628_2_alg».proof.Proof.Gen.ReferenceIdeal.Read
import proofs.«430148_j44306882625628_2_alg».proof.Proof.KStages
import proofs.«430148_j44306882625628_2_alg».proof.Proof.KSmall
import proofs.«430148_j44306882625628_2_alg».proof.Proof.TakeFill
import proofs.«430148_j44306882625628_2_alg».proof.Proof.KAgg
import proofs.«430148_j44306882625628_2_alg».proof.Proof.Region2
import proofs.«430148_j44306882625628_2_alg».proof.Proof.RefDense
import proofs.«430148_j44306882625628_2_alg».proof.Proof.RefFacts
import proofs.«430148_j44306882625628_2_alg».proof.Proof.KChain0
import proofs.«430148_j44306882625628_2_alg».proof.Proof.KChain1
import Idealize.ShloMosaic.Lib.StableHlo.Run
import Idealize.ShloMosaic.Lib.Pipeline.Value
import Idealize.ShloMosaic.Lib.ValueLayout

set_option maxRecDepth 16384

noncomputable section

namespace Cert.KernelIdeal.Chain

open Cert.KernelIdeal Cert.KernelIdeal.Gen Cert.KernelIdeal.KV
open Idealize.ShloMosaic Idealize.ShloMosaic.TcCoe Idealize.SL.Sem Idealize.ShloMosaic.StableHlo

/-- No operation of a host stretch writes the buffer: one inequality of references per operation. -/
macro "host_keeps" : tactic => `(tactic|
  (simp only [hostOps0, hostOps0_1, hostOps0_2, hostOps1, hostOps2, hostOps2_1, hostOps3, hostOps3_1, hostOps4, hostOps4_1,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

/-- A buffer that a host stretch does not write, and that is no array of a region, holds after the stretch or the
    region what it held before: peel the outermost boundary. -/
macro "peel" : tactic => `(tactic| first
  | rw [StableHlo.after_of_forall_not_mem _ _ (List.forall_iff_forall_mem.mp (by host_keeps))]
  | rw [W12_of_ne _ _ _ _ (by decide)]
  | rw [W9_of_ne _ _ _ _ (by decide)]
  | rw [W6_of_ne _ _ _ _ (by decide)]
  | rw [W4_of_ne _ _ _ _ (by decide)])

variable (m : (ℓ : Loc nD τ sig) → Buf (Elt Ideal) ℓ) (ρ : Dev nD → PrngReg)

/-! ## The first aggregation, as region 2 is entered with it -/

/-- Contents carried to a buffer's own type and back are the contents. -/
theorem W8_ofBuf_toBuf {sig : RefSig} {T : BufTy} {Val : EltTy → Type} (x : TRef sig T) (v : T.Contents Val) :
    x.ofBuf (x.toBuf v) = v := by
  obtain ⟨r, h, hd, hu⟩ := x
  subst h
  rfl

set_option maxHeartbeats 1000000 in
/-- The first aggregation as the kernel's own message-passing step of what region 1 left: the projected rows, the
    sources, the destinations, the normalisation. -/
theorem W8_v44_of (c : Dev nD) : W8 m ρ c (Proc.devRef .tc main_v44)
    = agg64 (W6 m ρ c (Proc.devRef .tc main_v37)) (W6 m ρ c (Proc.devRef .tc main_v3)) (W6 m ρ c (Proc.devRef .tc main_v6)) (W6 m ρ c (Proc.devRef .tc main_v31)) := by
  dsimp only [W8, W7, hostOps2_1, hostOps2]
  after_results_simp
  simp only [W8_ofBuf_toBuf]
  have e38 : ∀ v : (⟨S850000x64, .f32⟩ : BufTy).Contents (Elt Ideal),
      (TRef.of main_v38 : TRef sig ⟨S850000x64, .f32⟩).toBuf v = v := fun _ => rfl
  have e3 : (TRef.of main_v3 : TRef sig ⟨S850000, .i32⟩).ofBuf (Val := Elt Ideal) (W6 m ρ c (Proc.devRef .tc main_v3))
      = W6 m ρ c (Proc.devRef .tc main_v3) := rfl
  have e37 : (TRef.of main_v37 : TRef sig ⟨S50000x64, .f32⟩).ofBuf (Val := Elt Ideal) (W6 m ρ c (Proc.devRef .tc main_v37))
      = W6 m ρ c (Proc.devRef .tc main_v37) := rfl
  rw [e38, e3, e37]
  unfold agg64 take64 inRange idxCol wrapIdx
  rfl

/-- The first aggregation: the projected rows gathered at the sources, weighted, summed at the destinations. -/
theorem W8_v44 (c : Dev nD) (hsrc : ∀ e : S850000.Idx, 0 ≤ ((Cert.ReferenceIdeal.Read.val_main_v3 (F := Ideal) (m ((c : Thread nD τ).loc main_arg1))) e).toInt ∧ ((Cert.ReferenceIdeal.Read.val_main_v3 (F := Ideal) (m ((c : Thread nD τ).loc main_arg1))) e).toInt < 50000) :
    W8 m ρ c (Proc.devRef .tc main_v44) = (Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [W8_v44_of, W6_v37, W6_v3, W6_v6, W6_v31, agg64_eq _ _ _ _ hsrc]
  simp only [Cert.ReferenceIdeal.Read.val_main_v56, Cert.ReferenceIdeal.Read.val_main_v54, Cert.ReferenceIdeal.Read.val_main_cst_10, Cert.ReferenceIdeal.Read.val_main_v55, Cert.ReferenceIdeal.Read.val_main_v53, Cert.ReferenceIdeal.Read.val_main_v52, Cert.ReferenceIdeal.Read.val_main_v44, Cert.ReferenceIdeal.Read.val_main_v51, Cert.ReferenceIdeal.Read.val_main_v50, Cert.ReferenceIdeal.Read.val_main_v49, Cert.ReferenceIdeal.Read.val_main_v46, Cert.ReferenceIdeal.Read.val_main_v45, Cert.ReferenceIdeal.Read.val_main_c_8, Cert.ReferenceIdeal.Read.val_main_v48, Cert.ReferenceIdeal.Read.val_main_v47, Cert.ReferenceIdeal.Read.val_main_c_9]
  unfold idxCol wrapIdx
  rfl

/-! ## Region 2 -/

theorem W9_v61_0 (c : Dev nD) (hsrc : ∀ e : S850000.Idx, 0 ≤ ((Cert.ReferenceIdeal.Read.val_main_v3 (F := Ideal) (m ((c : Thread nD τ).loc main_arg1))) e).toInt ∧ ((Cert.ReferenceIdeal.Read.val_main_v3 (F := Ideal) (m ((c : Thread nD τ).loc main_arg1))) e).toInt < 50000)
    (h6 : ∀ i : S2x64.Idx, ∃ r : ℝ, (m ((c : Thread nD τ).loc main_arg6)) i = (r : EReal)) (h7 : ∀ i : S2x64.Idx, ∃ r : ℝ, (m ((c : Thread nD τ).loc main_arg7)) i = (r : EReal)) :
    W9 m ρ c (Proc.devRef .tc main_v61_0) = (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W9_arr m ρ c 5).trans ((Cert.KernelIdeal.Region2.final2_5 (V8 m ρ) c).trans ?_)
  show Cert.Spec.bnRes (W8 m ρ c (Proc.devRef .tc main_v44)) (W8 m ρ c (Proc.devRef .tc main_v34)) (W8 m ρ c (Proc.devRef .tc main_v57)) (W8 m ρ c (Proc.devRef .tc main_v58)) = _
  rw [W8_v44 m ρ c hsrc, W8_v34, W8_v57, W8_v58]
  exact (Cert.ReferenceIdeal.RefValue.h1_eq _ _ _ _ _ _ _ _ _ (Cert.ReferenceIdeal.RefValue.v19_finite _ h6) (Cert.ReferenceIdeal.RefValue.v63_finite _ h7)).symm

theorem W9_v61_1 (c : Dev nD) (hsrc : ∀ e : S850000.Idx, 0 ≤ ((Cert.ReferenceIdeal.Read.val_main_v3 (F := Ideal) (m ((c : Thread nD τ).loc main_arg1))) e).toInt ∧ ((Cert.ReferenceIdeal.Read.val_main_v3 (F := Ideal) (m ((c : Thread nD τ).loc main_arg1))) e).toInt < 50000)
    (h6 : ∀ i : S2x64.Idx, ∃ r : ℝ, (m ((c : Thread nD τ).loc main_arg6)) i = (r : EReal)) (h7 : ∀ i : S2x64.Idx, ∃ r : ℝ, (m ((c : Thread nD τ).loc main_arg7)) i = (r : EReal)) :
    W9 m ρ c (Proc.devRef .tc main_v61_1) = (Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W9_arr m ρ c 6).trans ((Cert.KernelIdeal.Region2.final2_6 (V8 m ρ) c).trans ?_)
  show Cert.Spec.dense (Cert.Spec.bnRes (W8 m ρ c (Proc.devRef .tc main_v44)) (W8 m ρ c (Proc.devRef .tc main_v34)) (W8 m ρ c (Proc.devRef .tc main_v57)) (W8 m ρ c (Proc.devRef .tc main_v58))) (W8 m ρ c (Proc.devRef .tc main_v60)) = _
  rw [W8_v44 m ρ c hsrc, W8_v34, W8_v57, W8_v58, W8_v60]
  rw [← Cert.ReferenceIdeal.RefValue.h1_eq _ _ _ _ _ _ _ _ _ (Cert.ReferenceIdeal.RefValue.v19_finite _ h6) (Cert.ReferenceIdeal.RefValue.v63_finite _ h7)]
  exact (Cert.ReferenceIdeal.RefValue.p1_eq _ _ _ _ _ _ _ _ _).symm

end Cert.KernelIdeal.Chain

end
-- ==== Proof.Region3.lean ====
import proofs.«430148_j44306882625628_2_alg».proof.Proof.Gen.KernelIdeal.Frame
import proofs.«430148_j44306882625628_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-! ## The two payloads at an entry -/

/-- A `1 × 64` row stretched over 5000 rows reads, at `(p, q)`, the row's entry under column `q`. -/
theorem row_under (x : Vec Ideal S1x64 .f32) (p : Fin 5000) (q : Fin 64) :
    broadcastTo S5000x64 x broadcasts_S1x64_S5000x64 (ix2 p q) = x (ix2 (0 : Fin 1) q) := by
  refine broadcastTo_apply x broadcasts_S1x64_S5000x64 (ix2 p q) (ix2 (0 : Fin 1) q) (fun a => ?_)
  match a with
  | ⟨0, _⟩ => rfl
  | ⟨1, _⟩ => rfl

/-- The first payload at an entry: `max (a · s + t) 0 + h`, the scale `s` and the shift `t` read under the column. -/
theorem pay1_apply (a : Vec Ideal S5000x64 .f32) (s t : Vec Ideal S1x64 .f32) (h : Vec Ideal S5000x64 .f32) (p : Fin 5000) (q : Fin 64) :
    k3_pay1 (F := Ideal) a s t h (ix2 p q) = max (a (ix2 p q) * s (ix2 (0 : Fin 1) q) + t (ix2 (0 : Fin 1) q)) 0 + h (ix2 p q) := by
  unfold k3_pay1
  simp only [addf_apply, maximumf_apply, mulf_apply, broadcast_apply, shapeCast_self]
  show max _ (Ideal.ofBits .f32 0x00000000#32) + _ = _
  rw [Ideal.ofBits_zero_f32, row_under s p q, row_under t p q]

/-- The product's left operand is read in the output's row … -/
theorem left_row (i : S5000x12.Idx) (k : dot_S5000x64_S64x12_S5000x12_1_0_0_1_n_n.contr.Idx) :
    (dot_S5000x64_S64x12_S5000x12_1_0_0_1_n_n.lhsIdx i k 0).val = (i 0).val := by
  unfold DotDims.lhsIdx
  rw [dif_neg (show ¬(0 : Fin S5000x64.rank) ∈ dot_S5000x64_S64x12_S5000x12_1_0_0_1_n_n.lhsBatch by decide), dif_pos (show (0 : Fin S5000x64.rank) ∈ dot_S5000x64_S64x12_S5000x12_1_0_0_1_n_n.lhsNonContracting by decide)]
  rfl
/-- … at the summation index as its column; -/
theorem left_col (i : S5000x12.Idx) (k : dot_S5000x64_S64x12_S5000x12_1_0_0_1_n_n.contr.Idx) :
    (dot_S5000x64_S64x12_S5000x12_1_0_0_1_n_n.lhsIdx i k 1).val = (k ⟨0, by decide⟩).val :=
  dot_S5000x64_S64x12_S5000x12_1_0_0_1_n_n.lhsIdx_val_of_single rfl i k
/-- the right operand at the summation index as its row … -/
theorem right_row (i : S5000x12.Idx) (k : dot_S5000x64_S64x12_S5000x12_1_0_0_1_n_n.contr.Idx) :
    (dot_S5000x64_S64x12_S5000x12_1_0_0_1_n_n.rhsIdx i k 0).val = (k ⟨0, by decide⟩).val :=
  dot_S5000x64_S64x12_S5000x12_1_0_0_1_n_n.rhsIdx_val_of_single rfl i k
/-- … in the output's column. -/
theorem right_col (i : S5000x12.Idx) (k : dot_S5000x64_S64x12_S5000x12_1_0_0_1_n_n.contr.Idx) :
    (dot_S5000x64_S64x12_S5000x12_1_0_0_1_n_n.rhsIdx i k 1).val = (i 1).val := by
  unfold DotDims.rhsIdx
  rw [dif_neg (show ¬(1 : Fin S64x12.rank) ∈ dot_S5000x64_S64x12_S5000x12_1_0_0_1_n_n.rhsBatch by decide), dif_pos (show (1 : Fin S64x12.rank) ∈ dot_S5000x64_S64x12_S5000x12_1_0_0_1_n_n.rhsNonContracting by decide)]
  rfl

/-- A block product into a zero accumulator, at an entry: `∑ j, x (p, j) · w (j, q)`. -/
theorem product_apply (x : FVec Ideal S5000x64 .bf16) (w : FVec Ideal S64x12 .bf16) (p : Fin 5000) (q : Fin 12) :
    matmul dot_S5000x64_S64x12_S5000x12_1_0_0_1_n_n none x w (constant (F := Ideal) S5000x12 .f32 0x00000000#32) (ix2 p q)
      = ∑ j : Fin 64, x (ix2 p j) * w (ix2 j q) := by
  simp only [matmul]
  rw [Ideal.matmul_constant_zero_apply, ← Equiv.sum_comp (ValueIdx.contrEquiv1 dot_S5000x64_S64x12_S5000x12_1_0_0_1_n_n 64 rfl rfl).symm]
  refine Finset.sum_congr rfl fun j _ => ?_
  have hj := ValueIdx.contrEquiv1_symm_val dot_S5000x64_S64x12_S5000x12_1_0_0_1_n_n 64 rfl rfl j
  have el : dot_S5000x64_S64x12_S5000x12_1_0_0_1_n_n.lhsIdx (ix2 p q) ((ValueIdx.contrEquiv1 dot_S5000x64_S64x12_S5000x12_1_0_0_1_n_n 64 rfl rfl).symm j) = ix2 p j := funext fun a => Fin.ext (by
    match a with
    | ⟨0, _⟩ => exact left_row _ _
    | ⟨1, _⟩ => exact (left_col _ _).trans hj)
  have er : dot_S5000x64_S64x12_S5000x12_1_0_0_1_n_n.rhsIdx (ix2 p q) ((ValueIdx.contrEquiv1 dot_S5000x64_S64x12_S5000x12_1_0_0_1_n_n 64 rfl rfl).symm j) = ix2 j q := funext fun a => Fin.ext (by
    match a with
    | ⟨0, _⟩ => exact (right_row _ _).trans hj
    | ⟨1, _⟩ => exact right_col _ _)
  rw [el, er]

/-- The second payload at an entry: row `p` of the first payload against column `q` of the weights. -/
theorem pay2_apply (a : Vec Ideal S5000x64 .f32) (s t : Vec Ideal S1x64 .f32) (h : Vec Ideal S5000x64 .f32) (w : Vec Ideal S64x12 .f32) (p : Fin 5000) (q : Fin 12) :
    k3_pay2 (F := Ideal) a s t h w (ix2 p q) = ∑ j : Fin 64, k3_pay1 (F := Ideal) a s t h (ix2 p j) * w (ix2 j q) := by
  unfold k3_pay2
  refine (product_apply _ _ p q).trans ?_
  refine Finset.sum_congr rfl fun j _ => ?_
  rw [truncf_apply, truncf_apply]

/-- The first payload of blocks that are pieces of whole arrays: where the aggregate block `a` and the residual block
    `h` at `(p, q)` are the arrays `A`, `H` at `i`, `i` lies in column `q`, and the two rows are `S`, `T`,
    the payload at `(p, q)` is the normalised, rectified, residual-added entry of the arrays at `i`. -/
theorem pay1_spec (A H : (Cert.Spec.Sh 50000 64).Idx → EReal) (S T : (Cert.Spec.Sh 1 64).Idx → EReal)
    (a h : Vec Ideal S5000x64 .f32) (s t : Vec Ideal S1x64 .f32) (p : Fin 5000) (q : Fin 64) (i : (Cert.Spec.Sh 50000 64).Idx)
    (hq : (i 1).val = q.val) (ha : a (ix2 p q) = A i) (hh : h (ix2 p q) = H i)
    (hs : s (ix2 (0 : Fin 1) q) = S (ix2 (0 : Fin 1) q)) (ht : t (ix2 (0 : Fin 1) q) = T (ix2 (0 : Fin 1) q)) :
    k3_pay1 (F := Ideal) a s t h (ix2 p q) = Cert.Spec.bnRes A H S T i := by
  rw [pay1_apply, ha, hh, hs, ht]
  have hc : Cert.Spec.colOf i = q := Fin.ext hq
  unfold Cert.Spec.bnRes
  simp only [Cert.Spec.under, hc]

/-- The second payload likewise: with the weight block the array `W`, the payload at `(p, q)` is the entry at `i` of
    the product of the normalised matrix with `W`. -/
theorem pay2_spec (A H : (Cert.Spec.Sh 50000 64).Idx → EReal) (S T : (Cert.Spec.Sh 1 64).Idx → EReal) (W : (Cert.Spec.Sh 64 12).Idx → EReal)
    (a h : Vec Ideal S5000x64 .f32) (s t : Vec Ideal S1x64 .f32) (w : Vec Ideal S64x12 .f32) (p : Fin 5000) (q : Fin 12) (i : (Cert.Spec.Sh 50000 12).Idx)
    (hq : (i 1).val = q.val) (ha : ∀ j : Fin 64, a (ix2 p j) = A (ix2 (Cert.Spec.rowOf i) j)) (hh : ∀ j : Fin 64, h (ix2 p j) = H (ix2 (Cert.Spec.rowOf i) j))
    (hs : s = S) (ht : t = T) (hw : w = W) :
    k3_pay2 (F := Ideal) a s t h w (ix2 p q) = Cert.Spec.dense (Cert.Spec.bnRes A H S T) W i := by
  rw [pay2_apply]
  have hc : Cert.Spec.colOf i = q := Fin.ext hq
  unfold Cert.Spec.dense
  rw [hc]
  refine Finset.sum_congr rfl fun j _ => ?_
  rw [pay1_spec A H S T a h s t p j (ix2 (Cert.Spec.rowOf i) j) rfl (ha j) (hh j) (by rw [hs]) (by rw [ht]), hw]

/-! ## From the blocks to the arrays -/

/-- The origin's two zero offsets are the constant zero function. -/
theorem hz : (![0, 0] : Fin 2 → Nat) = fun _ => 0 := funext fun a => by fin_cases a <;> rfl

/-- Where point `t` of the grid puts its blocks: the row-blocked windows (aggregate, residual, the two outputs) at block
    row `t`; the scale row, the shift row and the weights at the one block they have. Decided over the ten points. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The aggregate's block at point `t` is rows `5000 t … 5000 t + 4999` of the aggregate. -/
theorem aggregate_block (c : Dev nD) (t : Fin cfg3.N) (p : Fin 5000) (q : Fin 64) (i : S50000x64.Idx)
    (h0 : (i 0).val = t.val * 5000 + p.val) (h1 : (i 1).val = q.val) :
    (iblk3 V c 0 t : Vec Ideal S5000x64 .f32) (ix2 p q) = (V c main_v68 : S50000x64.Idx → EReal) i := by
  obtain ⟨e0, e1, -⟩ := block_indices t
  show V c main_v68 (((cfg3.win 0).blk t).view.emb (ix2 p q)) = V c main_v68 i
  refine congrArg _ (funext fun a => Fin.ext ?_)
  match a with
  | ⟨0, _⟩ => show win3_0.index t (0 : Fin 2) * 5000 + 1 * p.val = (i 0).val; omega
  | ⟨1, _⟩ => show win3_0.index t (1 : Fin 2) * 64 + 1 * q.val = (i 1).val; omega

/-- The residual's block at point `t` is the same rows of the residual. -/
theorem residual_block (c : Dev nD) (t : Fin cfg3.N) (p : Fin 5000) (q : Fin 64) (i : S50000x64.Idx)
    (h0 : (i 0).val = t.val * 5000 + p.val) (h1 : (i 1).val = q.val) :
    (iblk3 V c 1 t : Vec Ideal S5000x64 .f32) (ix2 p q) = (V c main_v61_0 : S50000x64.Idx → EReal) i := by
  obtain ⟨-, -, e0, e1, -⟩ := block_indices t
  show V c main_v61_0 (((cfg3.win 1).blk t).view.emb (ix2 p q)) = V c main_v61_0 i
  refine congrArg _ (funext fun a => Fin.ext ?_)
  match a with
  | ⟨0, _⟩ => show win3_1.index t (0 : Fin 2) * 5000 + 1 * p.val = (i 0).val; omega
  | ⟨1, _⟩ => show win3_1.index t (1 : Fin 2) * 64 + 1 * q.val = (i 1).val; omega

/-- The scale row's block is the whole row at every point. -/
theorem scale_block (c : Dev nD) (t : Fin cfg3.N) : (iblk3 V c 2 t : Vec Ideal S1x64 .f32) = (V c main_v79 : S1x64.Idx → EReal) := by
  obtain ⟨-, -, -, -, e0, e1, -⟩ := block_indices t
  funext k
  show V c main_v79 (((cfg3.win 2).blk t).view.emb k) = V c main_v79 k
  refine congrArg _ (funext fun a => Fin.ext ?_)
  match a with
  | ⟨0, _⟩ => show win3_2.index t (0 : Fin 2) * 1 + 1 * (k 0).val = (k 0).val; omega
  | ⟨1, _⟩ => show win3_2.index t (1 : Fin 2) * 64 + 1 * (k 1).val = (k 1).val; omega

/-- The shift row's block is the whole row at every point. -/
theorem shift_block (c : Dev nD) (t : Fin cfg3.N) : (iblk3 V c 3 t : Vec Ideal S1x64 .f32) = (V c main_v80 : S1x64.Idx → EReal) := by
  obtain ⟨-, -, -, -, -, -, e0, e1, -⟩ := block_indices t
  funext k
  show V c main_v80 (((cfg3.win 3).blk t).view.emb k) = V c main_v80 k
  refine congrArg _ (funext fun a => Fin.ext ?_)
  match a with
  | ⟨0, _⟩ => show win3_3.index t (0 : Fin 2) * 1 + 1 * (k 0).val = (k 0).val; omega
  | ⟨1, _⟩ => show win3_3.index t (1 : Fin 2) * 64 + 1 * (k 1).val = (k 1).val; omega

/-- The weights' block is the whole matrix at every point. -/
theorem weight_block (c : Dev nD) (t : Fin cfg3.N) : (iblk3 V c 4 t : Vec Ideal S64x12 .f32) = (V c main_arg9 : S64x12.Idx → EReal) := by
  obtain ⟨-, -, -, -, -, -, -, -, e0, e1, -⟩ := block_indices t
  funext k
  show V c main_arg9 (((cfg3.win 4).blk t).view.emb k) = V c main_arg9 k
  refine congrArg _ (funext fun a => Fin.ext ?_)
  match a with
  | ⟨0, _⟩ => show win3_4.index t (0 : Fin 2) * 64 + 1 * (k 0).val = (k 0).val; omega
  | ⟨1, _⟩ => show win3_4.index t (1 : Fin 2) * 12 + 1 * (k 1).val = (k 1).val; omega

/-- What point `t` writes back to the first output is block `t` of the normalised, rectified aggregate plus the residual. -/
theorem flushed5 (c : Dev nD) (t : Fin cfg3.N) :
    (dat3 (F := Ideal) V c).flushed 5 t
      = ((cfg3.win 5).blk t).view.read (Elt Ideal) (Cert.Spec.bnRes (V c main_v68) (V c main_v61_0) (V c main_v79) (V c main_v80)) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  obtain ⟨-, -, -, -, -, -, -, -, -, -, e0, e1, -⟩ := block_indices t
  funext y
  obtain ⟨p, q, rfl⟩ : ∃ (p : Fin 5000) (q : Fin 64), y = ix2 p q := ⟨y 0, y 1, eq_ix2 y⟩
  have hi0 : ((((cfg3.win 5).blk t).view.emb (ix2 p q)) 0).val = t.val * 5000 + p.val := by
    show win3_5.index t (0 : Fin 2) * 5000 + 1 * p.val = _; omega
  have hi1 : ((((cfg3.win 5).blk t).view.emb (ix2 p q)) 1).val = q.val := by
    show win3_5.index t (1 : Fin 2) * 64 + 1 * q.val = _; omega
  show k3_pay1 (F := Ideal) (iblk3 V c 0 t) (iblk3 V c 2 t) (iblk3 V c 3 t) (iblk3 V c 1 t) (ix2 p q)
    = Cert.Spec.bnRes (V c main_v68) (V c main_v61_0) (V c main_v79) (V c main_v80) (((cfg3.win 5).blk t).view.emb (ix2 p q))
  exact pay1_spec (V c main_v68) (V c main_v61_0) (V c main_v79) (V c main_v80) (iblk3 V c 0 t) (iblk3 V c 1 t) (iblk3 V c 2 t) (iblk3 V c 3 t)
    p q (((cfg3.win 5).blk t).view.emb (ix2 p q)) hi1 (aggregate_block V c t p q _ hi0 hi1) (residual_block V c t p q _ hi0 hi1)
    (congrFun (scale_block V c t) _) (congrFun (shift_block V c t) _)

/-- What point `t` writes back to the second output is block `t` of that matrix times the weights. -/
theorem flushed6 (c : Dev nD) (t : Fin cfg3.N) :
    (dat3 (F := Ideal) V c).flushed 6 t
      = ((cfg3.win 6).blk t).view.read (Elt Ideal)
          (Cert.Spec.dense (Cert.Spec.bnRes (V c main_v68) (V c main_v61_0) (V c main_v79) (V c main_v80)) (V c main_arg9)) := by
  show (cfg3.win 6).cut (grid3.coords t) ((dat3 V c).after 6 t) = _
  rw [after3_6]
  unfold out3_6
  rw [View.canon_unit_zero hz]
  simp only [View.ld_unit_zero (S := S5000x64) hz, View.ld_unit_zero (S := S1x64) hz, View.ld_unit_zero (S := S64x12) hz]
  obtain ⟨-, -, -, -, -, -, -, -, -, -, -, -, e0, e1⟩ := block_indices t
  funext y
  obtain ⟨p, q, rfl⟩ : ∃ (p : Fin 5000) (q : Fin 12), y = ix2 p q := ⟨y 0, y 1, eq_ix2 y⟩
  have hi0 : ((((cfg3.win 6).blk t).view.emb (ix2 p q)) 0).val = t.val * 5000 + p.val := by
    show win3_6.index t (0 : Fin 2) * 5000 + 1 * p.val = _; omega
  have hi1 : ((((cfg3.win 6).blk t).view.emb (ix2 p q)) 1).val = q.val := by
    show win3_6.index t (1 : Fin 2) * 12 + 1 * q.val = _; omega
  show k3_pay2 (F := Ideal) (iblk3 V c 0 t) (iblk3 V c 2 t) (iblk3 V c 3 t) (iblk3 V c 1 t) (iblk3 V c 4 t) (ix2 p q)
    = Cert.Spec.dense (Cert.Spec.bnRes (V c main_v68) (V c main_v61_0) (V c main_v79) (V c main_v80)) (V c main_arg9)
        (((cfg3.win 6).blk t).view.emb (ix2 p q))
  exact pay2_spec (V c main_v68) (V c main_v61_0) (V c main_v79) (V c main_v80) (V c main_arg9)
    (iblk3 V c 0 t) (iblk3 V c 1 t) (iblk3 V c 2 t) (iblk3 V c 3 t) (iblk3 V c 4 t)
    p q (((cfg3.win 6).blk t).view.emb (ix2 p q)) hi1
    (fun j => aggregate_block V c t p j _ hi0 rfl) (fun j => residual_block V c t p j _ hi0 rfl)
    (scale_block V c t) (shift_block V c t) (weight_block V c t)

/-- An index of the `50000 × 64` output lies in point `t`'s block of the first output iff its row is among the block's rows. -/
theorem mem_blk5 (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v81_0).slice (win3_5.rect t)).set ↔ _
  rw [View.set_slice_whole, Rect.mem_set_unit]
  exact Iff.rfl

/-- The same for the second output, `50000 × 12`. -/
theorem mem_blk6 (t : Fin cfg3.N) (i : S50000x12.Idx) :
    i ∈ ((cfg3.win 6).blk t).view.set ↔ ∀ a : Fin 2, win3_6.index t a * S5000x12.size a ≤ (i a).val ∧ (i a).val < win3_6.index t a * S5000x12.size a + S5000x12.size a := by
  show i ∈ ((View.whole main_v81_1).slice (win3_6.rect t)).set ↔ _
  rw [View.set_slice_whole, Rect.mem_set_unit]
  exact Iff.rfl

/-- Row `r` lies in the block of point `r / 5000`: the ten blocks of 5000 rows tile the 50000 rows. -/
theorem cover5 (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨-, -, -, -, -, -, -, -, -, -, e0, e1, -⟩ := block_indices t
  have ht : t.val = (i 0).val / 5000 := rfl
  refine ⟨t, flush3_5 t, ?_⟩
  rw [mem_blk5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The same tiling for the second output. -/
theorem cover6 (i : S50000x12.Idx) : ∃ t : Fin cfg3.N, (cfg3.win 6).flush t = true ∧ i ∈ ((cfg3.win 6).blk t).view.set := by
  have hi0 : (i 0).val < 50000 := (i 0).isLt
  have hi1 : (i 1).val < 12 := (i 1).isLt
  have hN : cfg3.N = 10 := N_3
  let t : Fin cfg3.N := ⟨(i 0).val / 5000, by rw [hN]; omega⟩
  obtain ⟨-, -, -, -, -, -, -, -, -, -, -, -, e0, e1⟩ := block_indices t
  have ht : t.val = (i 0).val / 5000 := rfl
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 12 ≤ (i 1).val ∧ (i 1).val < win3_6.index t (1 : Fin 2) * 12 + 12; omega

/-- Region 3's first output: the normalised, rectified aggregate plus the residual, `max (a · s + t) 0 + h`. -/
theorem final3_5 (c : Dev nD) :
    (dat3 (F := Ideal) V c).arrAt 5 cfg3.N = Cert.Spec.bnRes (V c main_v68) (V c main_v61_0) (V c main_v79) (V c main_v80) := by
  exact (dat3 (F := Ideal) V c).arrAt_eq_of_cover 5 (Cert.Spec.bnRes (V c main_v68) (V c main_v61_0) (V c main_v79) (V c main_v80))
    (fun t _ => flushed5 V c t) cover5

/-- Region 3's second output: that matrix times the output weights. -/
theorem final3_6 (c : Dev nD) :
    (dat3 (F := Ideal) V c).arrAt 6 cfg3.N
      = Cert.Spec.dense (Cert.Spec.bnRes (V c main_v68) (V c main_v61_0) (V c main_v79) (V c main_v80)) (V c main_arg9) := by
  exact (dat3 (F := Ideal) V c).arrAt_eq_of_cover 6
    (Cert.Spec.dense (Cert.Spec.bnRes (V c main_v68) (V c main_v61_0) (V c main_v79) (V c main_v80)) (V c main_arg9))
    (fun t _ => flushed6 V c t) cover6

end Cert.KernelIdeal.Region3

end
-- ==== Proof.KChain3.lean ====
/-
  The kernel's run, read back: what each buffer of @main holds at the boundaries between host stretches and
  pallas_call regions, as the reference's own stage functions of the argument arrays.

  The kernel computes the message normalisation once and the reference three times; both gather rows at the same
  wrapped source indices and scatter-add them at the same destinations.  So every sparse stage is the SAME function
  of equal operands in the two programs, and the dense stages meet in the functions of the specification.  The two
  places where the programs differ: the kernel's row gather replaces a row whose index is out of range by a fill
  value (never, when the source indices are node numbers), and the kernel folds the convolution bias into the
  normalisation's shift (equal for finite biases and gains).
-/
import proofs.«430148_j44306882625628_2_alg».proof.Proof.Gen.KernelIdeal.Frame
import proofs.«430148_j44306882625628_2_alg».proof.Proof.Gen.ReferenceIdeal.Read
import proofs.«430148_j44306882625628_2_alg».proof.Proof.KStages
import proofs.«430148_j44306882625628_2_alg».proof.Proof.KSmall
import proofs.«430148_j44306882625628_2_alg».proof.Proof.TakeFill
import proofs.«430148_j44306882625628_2_alg».proof.Proof.KAgg
import proofs.«430148_j44306882625628_2_alg».proof.Proof.Region3
import proofs.«430148_j44306882625628_2_alg».proof.Proof.RefDense
import proofs.«430148_j44306882625628_2_alg».proof.Proof.RefFacts
import proofs.«430148_j44306882625628_2_alg».proof.Proof.KChain0
import proofs.«430148_j44306882625628_2_alg».proof.Proof.KChain2
import Idealize.ShloMosaic.Lib.StableHlo.Run
import Idealize.ShloMosaic.Lib.Pipeline.Value
import Idealize.ShloMosaic.Lib.ValueLayout

set_option maxRecDepth 16384

noncomputable section

namespace Cert.KernelIdeal.Chain

open Cert.KernelIdeal Cert.KernelIdeal.Gen Cert.KernelIdeal.KV
open Idealize.ShloMosaic Idealize.ShloMosaic.TcCoe Idealize.SL.Sem Idealize.ShloMosaic.StableHlo

/-- No operation of a host stretch writes the buffer: one inequality of references per operation. -/
macro "host_keeps" : tactic => `(tactic|
  (simp only [hostOps0, hostOps0_1, hostOps0_2, hostOps1, hostOps2, hostOps2_1, hostOps3, hostOps3_1, hostOps4, hostOps4_1,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

/-- A buffer that a host stretch does not write, and that is no array of a region, holds after the stretch or the
    region what it held before: peel the outermost boundary. -/
macro "peel" : tactic => `(tactic| first
  | rw [StableHlo.after_of_forall_not_mem _ _ (List.forall_iff_forall_mem.mp (by host_keeps))]
  | rw [W12_of_ne _ _ _ _ (by decide)]
  | rw [W9_of_ne _ _ _ _ (by decide)]
  | rw [W6_of_ne _ _ _ _ (by decide)]
  | rw [W4_of_ne _ _ _ _ (by decide)])

variable (m : (ℓ : Loc nD τ sig) → Buf (Elt Ideal) ℓ) (ρ : Dev nD → PrngReg)

/-! ## What region 3 is entered with: the second aggregation, layer 1's folded rows, the first layer's output -/

theorem W9_v3 (c : Dev nD) : W9 m ρ c (Proc.devRef .tc main_v3) = (Cert.ReferenceIdeal.Read.val_main_v3 (F := Ideal) (m ((c : Thread nD τ).loc main_arg1))) := by
  peel; dsimp only [W8, W7]; peel; peel; peel; dsimp only [W5]; peel; peel; exact W3_v3 m ρ c
theorem W9_v6 (c : Dev nD) : W9 m ρ c (Proc.devRef .tc main_v6) = (Cert.ReferenceIdeal.Read.val_main_v6 (F := Ideal) (m ((c : Thread nD τ).loc main_arg1))) := by
  peel; dsimp only [W8, W7]; peel; peel; peel; dsimp only [W5]; peel; peel; exact W3_v6 m ρ c
theorem W9_v31 (c : Dev nD) : W9 m ρ c (Proc.devRef .tc main_v31) = (Cert.ReferenceIdeal.Read.val_main_v43 (F := Ideal) (m ((c : Thread nD τ).loc main_arg1)) (m ((c : Thread nD τ).loc main_arg2))) := by
  peel; dsimp only [W8, W7]; peel; peel; peel; dsimp only [W5]; peel; peel; exact W3_v31 m ρ c
theorem W9_arg6 (c : Dev nD) : W9 m ρ c (Proc.devRef .tc main_arg6) = (m ((c : Thread nD τ).loc main_arg6)) := by
  peel; dsimp only [W8, W7]; repeat peel
  dsimp only [W5]; repeat peel
  dsimp only [W3, W2, W1]; repeat peel
theorem W9_arg7 (c : Dev nD) : W9 m ρ c (Proc.devRef .tc main_arg7) = (m ((c : Thread nD τ).loc main_arg7)) := by
  peel; dsimp only [W8, W7]; repeat peel
  dsimp only [W5]; repeat peel
  dsimp only [W3, W2, W1]; repeat peel
theorem W9_arg8 (c : Dev nD) : W9 m ρ c (Proc.devRef .tc main_arg8) = (m ((c : Thread nD τ).loc main_arg8)) := by
  peel; dsimp only [W8, W7]; repeat peel
  dsimp only [W5]; repeat peel
  dsimp only [W3, W2, W1]; repeat peel
theorem W9_arg9 (c : Dev nD) : W9 m ρ c (Proc.devRef .tc main_arg9) = (m ((c : Thread nD τ).loc main_arg9)) := by
  peel; dsimp only [W8, W7]; repeat peel
  dsimp only [W5]; repeat peel
  dsimp only [W3, W2, W1]; repeat peel
theorem W9_v46 (c : Dev nD) : W9 m ρ c (Proc.devRef .tc main_v46) = (Cert.ReferenceIdeal.Read.val_main_v15 (F := Ideal)) := by
  peel; exact W8_v46 m ρ c

/-- A value moved to a buffer's own contents type and back is the value: the two transports are along one equation of
    types and its inverse. -/
theorem ofBuf_toBuf {T : BufTy} (x : StableHlo.TRef sig T) (v : T.Contents (Elt Ideal)) :
    x.ofBuf (x.toBuf v) = v := by
  obtain ⟨r, rfl, h2, h3⟩ := x
  rfl

set_option maxHeartbeats 1000000 in
/-- The second aggregation on the kernel's side alone: the guarded gather of region 2's projected rows at the source
    nodes, weighted by the normalisation and scatter-added at the destinations, is one message-passing step. -/
theorem W11_v68_of (c : Dev nD) : W11 m ρ c (Proc.devRef .tc main_v68)
    = agg64 (W9 m ρ c (Proc.devRef .tc main_v61_1)) (W9 m ρ c (Proc.devRef .tc main_v3)) (W9 m ρ c (Proc.devRef .tc main_v6)) (W9 m ρ c (Proc.devRef .tc main_v31)) := by
  dsimp only [W11, W10, hostOps3_1, hostOps3]
  after_results_simp
  simp only [ofBuf_toBuf]
  have e3 : (TRef.of main_v3 : TRef sig ⟨S850000, .i32⟩).ofBuf (Val := Elt Ideal) (W9 m ρ c (Proc.devRef .tc main_v3))
      = W9 m ρ c (Proc.devRef .tc main_v3) := rfl
  have e61 : (TRef.of main_v61_1 : TRef sig ⟨S50000x64, .f32⟩).ofBuf (Val := Elt Ideal) (W9 m ρ c (Proc.devRef .tc main_v61_1))
      = W9 m ρ c (Proc.devRef .tc main_v61_1) := rfl
  have e62 : ∀ v : (⟨S850000x64, .f32⟩ : BufTy).Contents (Elt Ideal),
      (TRef.of main_v62 : TRef sig ⟨S850000x64, .f32⟩).toBuf v = v := fun _ => rfl
  rw [e62, e3, e61]
  unfold agg64 take64 inRange idxCol wrapIdx
  rfl

set_option maxHeartbeats 1000000 in
/-- The second aggregation. -/
theorem W11_v68 (c : Dev nD) (hsrc : ∀ e : S850000.Idx, 0 ≤ ((Cert.ReferenceIdeal.Read.val_main_v3 (F := Ideal) (m ((c : Thread nD τ).loc main_arg1))) e).toInt ∧ ((Cert.ReferenceIdeal.Read.val_main_v3 (F := Ideal) (m ((c : Thread nD τ).loc main_arg1))) e).toInt < 50000)
    (h6 : ∀ i : S2x64.Idx, ∃ r : ℝ, (m ((c : Thread nD τ).loc main_arg6)) i = (r : EReal)) (h7 : ∀ i : S2x64.Idx, ∃ r : ℝ, (m ((c : Thread nD τ).loc main_arg7)) i = (r : EReal)) :
    W11 m ρ c (Proc.devRef .tc main_v68) = (Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [W11_v68_of, W9_v61_1 m ρ c hsrc h6 h7, W9_v3, W9_v6, W9_v31, agg64_eq _ _ _ _ hsrc]
  simp only [Cert.ReferenceIdeal.Read.val_main_v114, Cert.ReferenceIdeal.Read.val_main_v112, Cert.ReferenceIdeal.Read.val_main_cst_20, Cert.ReferenceIdeal.Read.val_main_v113, Cert.ReferenceIdeal.Read.val_main_v111, Cert.ReferenceIdeal.Read.val_main_v110, Cert.ReferenceIdeal.Read.val_main_v102, Cert.ReferenceIdeal.Read.val_main_v109, Cert.ReferenceIdeal.Read.val_main_v108, Cert.ReferenceIdeal.Read.val_main_v107, Cert.ReferenceIdeal.Read.val_main_v104, Cert.ReferenceIdeal.Read.val_main_v103, Cert.ReferenceIdeal.Read.val_main_c_18, Cert.ReferenceIdeal.Read.val_main_v106, Cert.ReferenceIdeal.Read.val_main_v105, Cert.ReferenceIdeal.Read.val_main_c_19]
  rw [Cert.ReferenceIdeal.RefValue.norm2_eq]
  unfold idxCol wrapIdx
  rfl

set_option maxHeartbeats 1000000 in
theorem W11_v79 (c : Dev nD) : W11 m ρ c (Proc.devRef .tc main_v79) = Cert.Spec.asRow (Cert.ReferenceIdeal.Read.val_main_v121 (F := Ideal) (m ((c : Thread nD τ).loc main_arg7))) := by
  dsimp only [W11, W10, hostOps3_1, hostOps3]
  after_results_simp
  rw [W9_arg7, W9_v46]
  simp only [Cert.ReferenceIdeal.Read.val_main_v121, Cert.ReferenceIdeal.Read.val_main_v120, Cert.ReferenceIdeal.Read.val_main_v119, Cert.ReferenceIdeal.Read.val_main_v118]
  exact reshape_row _

set_option maxHeartbeats 1000000 in
theorem W11_v80 (c : Dev nD) : W11 m ρ c (Proc.devRef .tc main_v80) = (Cert.Spec.asRow ((addf (mulf (Cert.ReferenceIdeal.Read.val_main_v77 (F := Ideal) (m ((c : Thread nD τ).loc main_arg6))) (Cert.ReferenceIdeal.Read.val_main_v121 (F := Ideal) (m ((c : Thread nD τ).loc main_arg7)))) (Cert.ReferenceIdeal.Read.val_main_v126 (F := Ideal) (m ((c : Thread nD τ).loc main_arg8))) : FVec Ideal S64 .f32))) := by
  dsimp only [W11, W10, hostOps3_1, hostOps3]
  after_results_simp
  rw [W9_arg6, W9_arg7, W9_arg8, W9_v46]
  simp only [Cert.ReferenceIdeal.Read.val_main_v77, Cert.ReferenceIdeal.Read.val_main_v76, Cert.ReferenceIdeal.Read.val_main_v121, Cert.ReferenceIdeal.Read.val_main_v120, Cert.ReferenceIdeal.Read.val_main_v119, Cert.ReferenceIdeal.Read.val_main_v118, Cert.ReferenceIdeal.Read.val_main_v126, Cert.ReferenceIdeal.Read.val_main_v125]
  exact reshape_row _

theorem W11_v61_0 (c : Dev nD) (hsrc : ∀ e : S850000.Idx, 0 ≤ ((Cert.ReferenceIdeal.Read.val_main_v3 (F := Ideal) (m ((c : Thread nD τ).loc main_arg1))) e).toInt ∧ ((Cert.ReferenceIdeal.Read.val_main_v3 (F := Ideal) (m ((c : Thread nD τ).loc main_arg1))) e).toInt < 50000)
    (h6 : ∀ i : S2x64.Idx, ∃ r : ℝ, (m ((c : Thread nD τ).loc main_arg6)) i = (r : EReal)) (h7 : ∀ i : S2x64.Idx, ∃ r : ℝ, (m ((c : Thread nD τ).loc main_arg7)) i = (r : EReal)) :
    W11 m ρ c (Proc.devRef .tc main_v61_0) = (Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  dsimp only [W11, W10]; peel; peel; exact W9_v61_0 m ρ c hsrc h6 h7

theorem W11_arg9 (c : Dev nD) : W11 m ρ c (Proc.devRef .tc main_arg9) = (m ((c : Thread nD τ).loc main_arg9)) := by
  dsimp only [W11, W10]; peel; peel; exact W9_arg9 m ρ c

/-! ## Region 3 -/

theorem W12_v81_1 (c : Dev nD) (hsrc : ∀ e : S850000.Idx, 0 ≤ ((Cert.ReferenceIdeal.Read.val_main_v3 (F := Ideal) (m ((c : Thread nD τ).loc main_arg1))) e).toInt ∧ ((Cert.ReferenceIdeal.Read.val_main_v3 (F := Ideal) (m ((c : Thread nD τ).loc main_arg1))) e).toInt < 50000)
    (h6 : ∀ i : S2x64.Idx, ∃ r : ℝ, (m ((c : Thread nD τ).loc main_arg6)) i = (r : EReal)) (h7 : ∀ i : S2x64.Idx, ∃ r : ℝ, (m ((c : Thread nD τ).loc main_arg7)) i = (r : EReal)) :
    W12 m ρ c (Proc.devRef .tc main_v81_1) = (Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W12_arr m ρ c 6).trans ((Cert.KernelIdeal.Region3.final3_6 (V11 m ρ) c).trans ?_)
  show Cert.Spec.dense (Cert.Spec.bnRes (W11 m ρ c (Proc.devRef .tc main_v68)) (W11 m ρ c (Proc.devRef .tc main_v61_0)) (W11 m ρ c (Proc.devRef .tc main_v79)) (W11 m ρ c (Proc.devRef .tc main_v80))) (W11 m ρ c (Proc.devRef .tc main_arg9)) = _
  rw [W11_v68 m ρ c hsrc h6 h7, W11_v61_0 m ρ c hsrc h6 h7, W11_v79, W11_v80, W11_arg9]
  rw [← Cert.ReferenceIdeal.RefValue.h2_eq _ _ _ _ _ _ _ _ _ (Cert.ReferenceIdeal.RefValue.v77_finite _ h6) (Cert.ReferenceIdeal.RefValue.v121_finite _ h7)]
  exact (Cert.ReferenceIdeal.RefValue.pout_eq _ _ _ _ _ _ _ _ _ _).symm

end Cert.KernelIdeal.Chain

end
-- ==== Proof.KChain4.lean ====
/-
  The kernel's run, read back: what each buffer of @main holds at the boundaries between host stretches and
  pallas_call regions, as the reference's own stage functions of the argument arrays.

  The kernel computes the message normalisation once and the reference three times; both gather rows at the same
  wrapped source indices and scatter-add them at the same destinations.  So every sparse stage is the SAME function
  of equal operands in the two programs, and the dense stages meet in the functions of the specification.  The two
  places where the programs differ: the kernel's row gather replaces a row whose index is out of range by a fill
  value (never, when the source indices are node numbers), and the kernel folds the convolution bias into the
  normalisation's shift (equal for finite biases and gains).
-/
import proofs.«430148_j44306882625628_2_alg».proof.Proof.Gen.KernelIdeal.Frame
import proofs.«430148_j44306882625628_2_alg».proof.Proof.Gen.ReferenceIdeal.Read
import proofs.«430148_j44306882625628_2_alg».proof.Proof.KStages
import proofs.«430148_j44306882625628_2_alg».proof.Proof.KSmall
import proofs.«430148_j44306882625628_2_alg».proof.Proof.TakeFill
import proofs.«430148_j44306882625628_2_alg».proof.Proof.KAgg
import proofs.«430148_j44306882625628_2_alg».proof.Proof.RefDense
import proofs.«430148_j44306882625628_2_alg».proof.Proof.RefFacts
import proofs.«430148_j44306882625628_2_alg».proof.Proof.KChain0
import proofs.«430148_j44306882625628_2_alg».proof.Proof.KChain2
import proofs.«430148_j44306882625628_2_alg».proof.Proof.KChain3
import Idealize.ShloMosaic.Lib.StableHlo.Run
import Idealize.ShloMosaic.Lib.Pipeline.Value
import Idealize.ShloMosaic.Lib.ValueLayout

set_option maxRecDepth 16384

noncomputable section

namespace Cert.KernelIdeal.Chain

open Cert.KernelIdeal Cert.KernelIdeal.Gen Cert.KernelIdeal.KV
open Idealize.ShloMosaic Idealize.ShloMosaic.TcCoe Idealize.SL.Sem Idealize.ShloMosaic.StableHlo

/-- No operation of a host stretch writes the buffer: one inequality of references per operation. -/
macro "host_keeps" : tactic => `(tactic|
  (simp only [hostOps0, hostOps0_1, hostOps0_2, hostOps1, hostOps2, hostOps2_1, hostOps3, hostOps3_1, hostOps4, hostOps4_1,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
   repeat' apply And.intro
   all_goals exact StableHlo.devRef_ne_of_ne (by decide)))

/-- A buffer that a host stretch does not write, and that is no array of a region, holds after the stretch or the
    region what it held before: peel the outermost boundary. -/
macro "peel" : tactic => `(tactic| first
  | rw [StableHlo.after_of_forall_not_mem _ _ (List.forall_iff_forall_mem.mp (by host_keeps))]
  | rw [W12_of_ne _ _ _ _ (by decide)]
  | rw [W9_of_ne _ _ _ _ (by decide)]
  | rw [W6_of_ne _ _ _ _ (by decide)]
  | rw [W4_of_ne _ _ _ _ (by decide)])

variable (m : (ℓ : Loc nD τ sig) → Buf (Elt Ideal) ℓ) (ρ : Dev nD → PrngReg)

/-! ## After the last region: the output aggregation and the output bias -/

theorem W12_v3 (c : Dev nD) : W12 m ρ c (Proc.devRef .tc main_v3) = (Cert.ReferenceIdeal.Read.val_main_v3 (F := Ideal) (m ((c : Thread nD τ).loc main_arg1))) := by
  peel; dsimp only [W11, W10]; peel; peel; peel; dsimp only [W8, W7]; peel; peel; peel; dsimp only [W5]; peel; peel; exact W3_v3 m ρ c
theorem W12_v6 (c : Dev nD) : W12 m ρ c (Proc.devRef .tc main_v6) = (Cert.ReferenceIdeal.Read.val_main_v6 (F := Ideal) (m ((c : Thread nD τ).loc main_arg1))) := by
  peel; dsimp only [W11, W10]; peel; peel; peel; dsimp only [W8, W7]; peel; peel; peel; dsimp only [W5]; peel; peel; exact W3_v6 m ρ c
theorem W12_v31 (c : Dev nD) : W12 m ρ c (Proc.devRef .tc main_v31) = (Cert.ReferenceIdeal.Read.val_main_v43 (F := Ideal) (m ((c : Thread nD τ).loc main_arg1)) (m ((c : Thread nD τ).loc main_arg2))) := by
  peel; dsimp only [W11, W10]; peel; peel; peel; dsimp only [W8, W7]; peel; peel; peel; dsimp only [W5]; peel; peel; exact W3_v31 m ρ c
theorem W12_arg10 (c : Dev nD) : W12 m ρ c (Proc.devRef .tc main_arg10) = (m ((c : Thread nD τ).loc main_arg10)) := by
  peel; dsimp only [W11, W10]; repeat peel
  dsimp only [W8, W7]; repeat peel
  dsimp only [W5]; repeat peel
  dsimp only [W3, W2, W1]; repeat peel

/-- A value moved to a buffer's own type and back is the value. -/
theorem W14_ofBuf_toBuf {sig : RefSig} {T : BufTy} {Val : EltTy → Type} (x : TRef sig T) (v : T.Contents Val) :
    x.ofBuf (x.toBuf v) = v := by
  obtain ⟨r, h, hd, hu⟩ := x
  subst h
  rfl

set_option maxHeartbeats 1000000 in
/-- The result buffer, from what the last region leaves: one message-passing step on the projected rows, plus the
    output bias laid along the rows. -/
theorem W14_v91_of (c : Dev nD) : W14 m ρ c (Proc.devRef .tc main_v91)
    = addf (agg12 (W12 m ρ c (Proc.devRef .tc main_v81_1)) (W12 m ρ c (Proc.devRef .tc main_v3)) (W12 m ρ c (Proc.devRef .tc main_v6)) (W12 m ρ c (Proc.devRef .tc main_v31)))
        (broadcastInDim S50000x12 ![0, 1] bcast_S1x12_S50000x12_0_1 (broadcastInDim S1x12 ![1] bcast_S12_S1x12_1 (W12 m ρ c (Proc.devRef .tc main_arg10)))) := by
  dsimp only [W14, W13, hostOps4_1, hostOps4]
  after_results_simp
  simp only [W14_ofBuf_toBuf]
  have e82 : ∀ v : (⟨S850000x12, .f32⟩ : BufTy).Contents (Elt Ideal),
      (TRef.of main_v82 : TRef sig ⟨S850000x12, .f32⟩).toBuf v = v := fun _ => rfl
  have e3 : (TRef.of main_v3 : TRef sig ⟨S850000, .i32⟩).ofBuf (Val := Elt Ideal) (W12 m ρ c (Proc.devRef .tc main_v3))
      = W12 m ρ c (Proc.devRef .tc main_v3) := rfl
  have e81 : (TRef.of main_v81_1 : TRef sig ⟨S50000x12, .f32⟩).ofBuf (Val := Elt Ideal) (W12 m ρ c (Proc.devRef .tc main_v81_1))
      = W12 m ρ c (Proc.devRef .tc main_v81_1) := rfl
  rw [e82, e3, e81]
  unfold agg12 take12 inRange idxCol wrapIdx
  rfl

/-- THE RESULT: the kernel's result buffer holds the reference's result term of the same arguments. -/
theorem W14_v91 (c : Dev nD) (hsrc : ∀ e : S850000.Idx, 0 ≤ ((Cert.ReferenceIdeal.Read.val_main_v3 (F := Ideal) (m ((c : Thread nD τ).loc main_arg1))) e).toInt ∧ ((Cert.ReferenceIdeal.Read.val_main_v3 (F := Ideal) (m ((c : Thread nD τ).loc main_arg1))) e).toInt < 50000)
    (h6 : ∀ i : S2x64.Idx, ∃ r : ℝ, (m ((c : Thread nD τ).loc main_arg6)) i = (r : EReal)) (h7 : ∀ i : S2x64.Idx, ∃ r : ℝ, (m ((c : Thread nD τ).loc main_arg7)) i = (r : EReal)) :
    W14 m ρ c (Proc.devRef .tc main_v91) = (Cert.ReferenceIdeal.Read.val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [W14_v91_of, W12_v81_1 m ρ c hsrc h6 h7, W12_v3, W12_v6, W12_v31, W12_arg10, agg12_eq _ _ _ _ hsrc]
  simp only [Cert.ReferenceIdeal.Read.val_main_v171, Cert.ReferenceIdeal.Read.val_main_v170, Cert.ReferenceIdeal.Read.val_main_v169, Cert.ReferenceIdeal.Read.val_main_v168, Cert.ReferenceIdeal.Read.val_main_v166, Cert.ReferenceIdeal.Read.val_main_cst_30, Cert.ReferenceIdeal.Read.val_main_v167, Cert.ReferenceIdeal.Read.val_main_v165, Cert.ReferenceIdeal.Read.val_main_v164, Cert.ReferenceIdeal.Read.val_main_v156, Cert.ReferenceIdeal.Read.val_main_v163, Cert.ReferenceIdeal.Read.val_main_v162, Cert.ReferenceIdeal.Read.val_main_v161, Cert.ReferenceIdeal.Read.val_main_v158, Cert.ReferenceIdeal.Read.val_main_v157, Cert.ReferenceIdeal.Read.val_main_c_28, Cert.ReferenceIdeal.Read.val_main_v160, Cert.ReferenceIdeal.Read.val_main_v159, Cert.ReferenceIdeal.Read.val_main_c_29]
  rw [Cert.ReferenceIdeal.RefValue.norm3_eq]
  unfold idxCol wrapIdx
  rfl

end Cert.KernelIdeal.Chain

end
-- ==== Proof.lean ====
/-
  A three-layer graph convolution network on 50000 nodes and 800000 weighted edges plus one self loop per node:
  an input projection with rectifier, two convolution layers (project, aggregate over the normalised edges, fold the
  bias into an evaluation-mode batch normalisation, rectify, add the residual) and an output convolution.

  The kernel runs the four dense stages as row-blocked pallas_calls and the three aggregations on the host; the
  reference is plain jnp.  Equivalence over the extended reals, under the precondition that the float inputs are
  finite and that the edge list's first row (the message sources) holds node numbers `0 ≤ s < 50000`:

  * every dense stage is the same whole-array function in both programs (Spec, Region0–3, RefDense): the kernel's
    block products into a zero accumulator are the reference's `dot_general`, the changes of float format the
    identity;
  * every sparse stage (the degrees, the symmetric normalisation, the gathers at the wrapped sources, the
    scatter-adds at the destinations) is the same chain of operations on equal operands; the kernel's row gather
    guards against out-of-range indices by a fill value, and with node numbers for sources the guard never fires
    (TakeFill, KAgg);
  * the kernel folds the convolution bias `β` into the normalisation's shift, `a · s + (β · s + γ)`, where the
    reference computes `(a + β) · s + γ`: equal because `β` and the scale `s` are finite (the aggregate `a` may
    be anything).

  KChain0–KChain4 read the kernel's run back buffer by buffer as the reference's own stage functions; the
  reference's run is its generated run.
-/
import proofs.«430148_j44306882625628_2_alg».proof.Defs
import proofs.«430148_j44306882625628_2_alg».proof.Proof.Gen.Kernel
import proofs.«430148_j44306882625628_2_alg».proof.Proof.Gen.Kernel.Skeleton
import proofs.«430148_j44306882625628_2_alg».proof.Proof.Gen.Kernel.Launch
import proofs.«430148_j44306882625628_2_alg».proof.Proof.Gen.Kernel.Points
import proofs.«430148_j44306882625628_2_alg».proof.Proof.Gen.Kernel.Frame
import proofs.«430148_j44306882625628_2_alg».proof.Proof.Gen.KernelIdeal
import proofs.«430148_j44306882625628_2_alg».proof.Proof.Gen.KernelIdeal.Skeleton
import proofs.«430148_j44306882625628_2_alg».proof.Proof.Gen.KernelIdeal.Launch
import proofs.«430148_j44306882625628_2_alg».proof.Proof.Gen.KernelIdeal.Points
import proofs.«430148_j44306882625628_2_alg».proof.Proof.Gen.KernelIdeal.Frame
import proofs.«430148_j44306882625628_2_alg».proof.Proof.Gen.ReferenceIdeal
import proofs.«430148_j44306882625628_2_alg».proof.Proof.Gen.ReferenceIdeal.Run
import proofs.«430148_j44306882625628_2_alg».proof.Proof.Gen.ReferenceIdeal.Read
import proofs.«430148_j44306882625628_2_alg».proof.Proof.Gen.Pre_finite_inputs
import proofs.«430148_j44306882625628_2_alg».proof.Proof.KRun
import proofs.«430148_j44306882625628_2_alg».proof.Proof.PreFacts
import proofs.«430148_j44306882625628_2_alg».proof.Proof.TakeFill
import proofs.«430148_j44306882625628_2_alg».proof.Proof.KChain4
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's result term of the kernel's arguments: the kernel by its run read back,
    the reference by its own run and the arguments' agreement. -/
theorem algebraic : Cert.algebraic_KernelIdeal_ReferenceIdeal := by
  intro m ρ m' ρ' hpre hagree
  refine ⟨fun c => Cert.ReferenceIdeal.Read.val_main_v171 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.GenRun.run_main (F := Ideal) m ρ)
    obtain ⟨hs, h6, h7⟩ := Cert.Pre_finite_inputs.Decode.of_pre _ _ _ _ _ _ _ _ _ _ _ (hpre c)
    exact Cert.KernelIdeal.Chain.W14_v91 m ρ c (Cert.KernelIdeal.KV.srcOf_inRange _ hs) h6 h7
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v171_eq]
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
